-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v177)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v177) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x384x224x224 : Shape := ⟨4, ![4, 384, 224, 224]⟩
abbrev S_ : Shape := ⟨0, ![]⟩

class Facts : Prop where
  bcast_S_S4x384x224x224 : S_.BroadcastsInDim S4x384x224x224 (![] : Fin 0 → Fin S4x384x224x224.rank)
  reducesTo_S4x384x224x224_S_d0_1_2_3 : S4x384x224x224.ReducesTo [0, 1, 2, 3] S_
  h_S_ : 0 < S_.numel

variable [Facts]

def fn {F : FTy → Type} [FloatOps F] (main_arg0 : FVec F S4x384x224x224 .f32) : IVec S_ 1 :=
  let main_v0 : FVec F S4x384x224x224 .f32 := Host.absf main_arg0
  let main_cst : FVec F S_ .f32 := constant S_ .f32 0x7F800000#32
  let main_v1 : FVec F S4x384x224x224 .f32 := broadcastInDim S4x384x224x224 ![] bcast_S_S4x384x224x224 main_cst
  let main_v2 : IVec S4x384x224x224 1 := cmpf .olt main_v0 main_v1
  let main_c : IVec S_ 1 := constantI S_ 1 1#1
  let main_v3 : IVec S_ 1 := (fun x v => Host.reduce IntOp.andi x v reducesTo_S4x384x224x224_S_d0_1_2_3 h_S_) main_v2 main_c
  main_v3
-- ==== Kernel.lean ====
abbrev S4x384x224x224 : Shape := ⟨4, ![4, 384, 224, 224]⟩
abbrev S4x384x28x8x28x8 : Shape := ⟨6, ![4, 384, 28, 8, 28, 8]⟩
abbrev S_ : Shape := ⟨0, ![]⟩
abbrev S4x384x28x28 : Shape := ⟨4, ![4, 384, 28, 28]⟩
abbrev S4x28x28x8x8x384 : Shape := ⟨6, ![4, 28, 28, 8, 8, 384]⟩
abbrev S4x784x64x384 : Shape := ⟨4, ![4, 784, 64, 384]⟩
abbrev S4x384x30x30 : Shape := ⟨4, ![4, 384, 30, 30]⟩
abbrev S4x384x1x28x28 : Shape := ⟨5, ![4, 384, 1, 28, 28]⟩
abbrev S4x384x9x28x28 : Shape := ⟨5, ![4, 384, 9, 28, 28]⟩
abbrev S4x28x28x384x9 : Shape := ⟨5, ![4, 28, 28, 384, 9]⟩
abbrev S4x784x384x9 : Shape := ⟨4, ![4, 784, 384, 9]⟩
abbrev S4x784x9 : Shape := ⟨3, ![4, 784, 9]⟩
abbrev S1x112x64x384 : Shape := ⟨4, ![1, 112, 64, 384]⟩
abbrev S1x112x384x9 : Shape := ⟨4, ![1, 112, 384, 9]⟩
abbrev S1x112x9 : Shape := ⟨3, ![1, 112, 9]⟩
abbrev S112x64x384 : Shape := ⟨3, ![112, 64, 384]⟩
abbrev S112x384x9 : Shape := ⟨3, ![112, 384, 9]⟩
abbrev S112x64x9 : Shape := ⟨3, ![112, 64, 9]⟩
abbrev S112x64 : Shape := ⟨2, ![112, 64]⟩
abbrev S112x64x1 : Shape := ⟨3, ![112, 64, 1]⟩
abbrev S112x9x64 : Shape := ⟨3, ![112, 9, 64]⟩
abbrev S112x9x384 : Shape := ⟨3, ![112, 9, 384]⟩
abbrev S112x9 : Shape := ⟨2, ![112, 9]⟩
abbrev S4x384x9x784 : Shape := ⟨4, ![4, 384, 9, 784]⟩
abbrev S1536x9x28x28 : Shape := ⟨4, ![1536, 9, 28, 28]⟩
abbrev S1536x30x30 : Shape := ⟨3, ![1536, 30, 30]⟩
abbrev S1536x1x28x28 : Shape := ⟨4, ![1536, 1, 28, 28]⟩
abbrev S1536x28x28 : Shape := ⟨3, ![1536, 28, 28]⟩
abbrev S1 : Shape := ⟨1, ![1]⟩
abbrev S2 : Shape := ⟨1, ![2]⟩
abbrev S4x9x784 : Shape := ⟨3, ![4, 9, 784]⟩
abbrev S4x9x28x28 : Shape := ⟨4, ![4, 9, 28, 28]⟩
abbrev S4x30x30 : Shape := ⟨3, ![4, 30, 30]⟩
abbrev S4x1x28x28 : Shape := ⟨4, ![4, 1, 28, 28]⟩
abbrev S4x28x28 : Shape := ⟨3, ![4, 28, 28]⟩
abbrev S4x784x64x9 : Shape := ⟨4, ![4, 784, 64, 9]⟩
abbrev S1x112x64x9 : Shape := ⟨4, ![1, 112, 64, 9]⟩
abbrev S4x784x384x64 : Shape := ⟨4, ![4, 784, 384, 64]⟩
abbrev S1x112x384x64 : Shape := ⟨4, ![1, 112, 384, 64]⟩
abbrev S112x384x64 : Shape := ⟨3, ![112, 384, 64]⟩
abbrev S4x28x28x384x8x8 : Shape := ⟨6, ![4, 28, 28, 384, 8, 8]⟩

abbrev nBuf : Space → Nat
  | .hbm => 225
  | .vmem => 20
  | .smem => 0
  | _ => 0

abbrev hbmTy0_0 (i : Nat) : BufTy := match i % 128 with
  | 0 => ⟨S4x384x224x224, .f32⟩
  | 1 => ⟨S4x384x28x8x28x8, .f32⟩
  | 2 => ⟨S_, .f32⟩
  | 3 => ⟨S4x384x28x28, .f32⟩
  | 4 => ⟨S_, .f32⟩
  | 5 => ⟨S4x384x28x28, .f32⟩
  | 6 => ⟨S4x384x28x28, .f32⟩
  | 7 => ⟨S4x28x28x8x8x384, .f32⟩
  | 8 => ⟨S4x784x64x384, .f32⟩
  | 9 => ⟨S_, .i32⟩
  | 10 => ⟨S_, .f32⟩
  | 11 => ⟨S4x384x30x30, .f32⟩
  | 12 => ⟨S4x384x28x28, .f32⟩
  | 13 => ⟨S4x384x28x28, .f32⟩
  | 14 => ⟨S4x384x28x28, .f32⟩
  | 15 => ⟨S4x384x28x28, .f32⟩
  | 16 => ⟨S4x384x28x28, .f32⟩
  | 17 => ⟨S4x384x28x28, .f32⟩
  | 18 => ⟨S4x384x28x28, .f32⟩
  | 19 => ⟨S4x384x28x28, .f32⟩
  | 20 => ⟨S4x384x28x28, .f32⟩
  | 21 => ⟨S4x384x1x28x28, .f32⟩
  | 22 => ⟨S4x384x1x28x28, .f32⟩
  | 23 => ⟨S4x384x1x28x28, .f32⟩
  | 24 => ⟨S4x384x1x28x28, .f32⟩
  | 25 => ⟨S4x384x1x28x28, .f32⟩
  | 26 => ⟨S4x384x1x28x28, .f32⟩
  | 27 => ⟨S4x384x1x28x28, .f32⟩
  | 28 => ⟨S4x384x1x28x28, .f32⟩
  | 29 => ⟨S4x384x1x28x28, .f32⟩
  | 30 => ⟨S4x384x9x28x28, .f32⟩
  | 31 => ⟨S4x28x28x384x9, .f32⟩
  | 32 => ⟨S4x784x384x9, .f32⟩
  | 33 => ⟨S4x784x384x9, .f32⟩
  | 34 => ⟨S4x784x9, .f32⟩
  | 35 => ⟨S4x384x9x784, .f32⟩
  | 36 => ⟨S1536x9x28x28, .f32⟩
  | 37 => ⟨S_, .f32⟩
  | 38 => ⟨S1536x30x30, .f32⟩
  | 39 => ⟨S1536x1x28x28, .f32⟩
  | 40 => ⟨S1536x28x28, .f32⟩
  | 41 => ⟨S_, .i32⟩
  | 42 => ⟨S1, .i32⟩
  | 43 => ⟨S_, .i32⟩
  | 44 => ⟨S1, .i32⟩
  | 45 => ⟨S2, .i32⟩
  | 46 => ⟨S1536x30x30, .f32⟩
  | 47 => ⟨S1536x1x28x28, .f32⟩
  | 48 => ⟨S1536x28x28, .f32⟩
  | 49 => ⟨S_, .i32⟩
  | 50 => ⟨S1, .i32⟩
  | 51 => ⟨S_, .i32⟩
  | 52 => ⟨S1, .i32⟩
  | 53 => ⟨S2, .i32⟩
  | 54 => ⟨S1536x30x30, .f32⟩
  | 55 => ⟨S1536x1x28x28, .f32⟩
  | 56 => ⟨S1536x28x28, .f32⟩
  | 57 => ⟨S_, .i32⟩
  | 58 => ⟨S1, .i32⟩
  | 59 => ⟨S_, .i32⟩
  | 60 => ⟨S1, .i32⟩
  | 61 => ⟨S2, .i32⟩
  | 62 => ⟨S1536x30x30, .f32⟩
  | 63 => ⟨S1536x1x28x28, .f32⟩
  | 64 => ⟨S1536x28x28, .f32⟩
  | 65 => ⟨S_, .i32⟩
  | 66 => ⟨S1, .i32⟩
  | 67 => ⟨S_, .i32⟩
  | 68 => ⟨S1, .i32⟩
  | 69 => ⟨S2, .i32⟩
  | 70 => ⟨S1536x30x30, .f32⟩
  | 71 => ⟨S1536x1x28x28, .f32⟩
  | 72 => ⟨S1536x28x28, .f32⟩
  | 73 => ⟨S_, .i32⟩
  | 74 => ⟨S1, .i32⟩
  | 75 => ⟨S_, .i32⟩
  | 76 => ⟨S1, .i32⟩
  | 77 => ⟨S2, .i32⟩
  | 78 => ⟨S1536x30x30, .f32⟩
  | 79 => ⟨S1536x1x28x28, .f32⟩
  | 80 => ⟨S1536x28x28, .f32⟩
  | 81 => ⟨S_, .i32⟩
  | 82 => ⟨S1, .i32⟩
  | 83 => ⟨S_, .i32⟩
  | 84 => ⟨S1, .i32⟩
  | 85 => ⟨S2, .i32⟩
  | 86 => ⟨S1536x30x30, .f32⟩
  | 87 => ⟨S1536x1x28x28, .f32⟩
  | 88 => ⟨S1536x28x28, .f32⟩
  | 89 => ⟨S_, .i32⟩
  | 90 => ⟨S1, .i32⟩
  | 91 => ⟨S_, .i32⟩
  | 92 => ⟨S1, .i32⟩
  | 93 => ⟨S2, .i32⟩
  | 94 => ⟨S1536x30x30, .f32⟩
  | 95 => ⟨S1536x1x28x28, .f32⟩
  | 96 => ⟨S1536x28x28, .f32⟩
  | 97 => ⟨S_, .i32⟩
  | 98 => ⟨S1, .i32⟩
  | 99 => ⟨S_, .i32⟩
  | 100 => ⟨S1, .i32⟩
  | 101 => ⟨S2, .i32⟩
  | 102 => ⟨S1536x30x30, .f32⟩
  | 103 => ⟨S1536x1x28x28, .f32⟩
  | 104 => ⟨S1536x28x28, .f32⟩
  | 105 => ⟨S_, .i32⟩
  | 106 => ⟨S1, .i32⟩
  | 107 => ⟨S_, .i32⟩
  | 108 => ⟨S1, .i32⟩
  | 109 => ⟨S2, .i32⟩
  | 110 => ⟨S1536x30x30, .f32⟩
  | 111 => ⟨S1536x28x28, .f32⟩
  | 112 => ⟨S4x384x28x28, .f32⟩
  | 113 => ⟨S4x9x784, .f32⟩
  | 114 => ⟨S4x9x28x28, .f32⟩
  | 115 => ⟨S_, .f32⟩
  | 116 => ⟨S4x30x30, .f32⟩
  | 117 => ⟨S4x1x28x28, .f32⟩
  | 118 => ⟨S4x28x28, .f32⟩
  | 119 => ⟨S_, .i32⟩
  | 120 => ⟨S1, .i32⟩
  | 121 => ⟨S_, .i32⟩
  | 122 => ⟨S1, .i32⟩
  | 123 => ⟨S2, .i32⟩
  | 124 => ⟨S4x30x30, .f32⟩
  | 125 => ⟨S4x1x28x28, .f32⟩
  | 126 => ⟨S4x28x28, .f32⟩
  | 127 => ⟨S_, .i32⟩
  | _ => ⟨S4x384x224x224, .f32⟩

abbrev hbmTy0_1 (i : Nat) : BufTy := match i % 128 with
  | 0 => ⟨S1, .i32⟩
  | 1 => ⟨S_, .i32⟩
  | 2 => ⟨S1, .i32⟩
  | 3 => ⟨S2, .i32⟩
  | 4 => ⟨S4x30x30, .f32⟩
  | 5 => ⟨S4x1x28x28, .f32⟩
  | 6 => ⟨S4x28x28, .f32⟩
  | 7 => ⟨S_, .i32⟩
  | 8 => ⟨S1, .i32⟩
  | 9 => ⟨S_, .i32⟩
  | 10 => ⟨S1, .i32⟩
  | 11 => ⟨S2, .i32⟩
  | 12 => ⟨S4x30x30, .f32⟩
  | 13 => ⟨S4x1x28x28, .f32⟩
  | 14 => ⟨S4x28x28, .f32⟩
  | 15 => ⟨S_, .i32⟩
  | 16 => ⟨S1, .i32⟩
  | 17 => ⟨S_, .i32⟩
  | 18 => ⟨S1, .i32⟩
  | 19 => ⟨S2, .i32⟩
  | 20 => ⟨S4x30x30, .f32⟩
  | 21 => ⟨S4x1x28x28, .f32⟩
  | 22 => ⟨S4x28x28, .f32⟩
  | 23 => ⟨S_, .i32⟩
  | 24 => ⟨S1, .i32⟩
  | 25 => ⟨S_, .i32⟩
  | 26 => ⟨S1, .i32⟩
  | 27 => ⟨S2, .i32⟩
  | 28 => ⟨S4x30x30, .f32⟩
  | 29 => ⟨S4x1x28x28, .f32⟩
  | 30 => ⟨S4x28x28, .f32⟩
  | 31 => ⟨S_, .i32⟩
  | 32 => ⟨S1, .i32⟩
  | 33 => ⟨S_, .i32⟩
  | 34 => ⟨S1, .i32⟩
  | 35 => ⟨S2, .i32⟩
  | 36 => ⟨S4x30x30, .f32⟩
  | 37 => ⟨S4x1x28x28, .f32⟩
  | 38 => ⟨S4x28x28, .f32⟩
  | 39 => ⟨S_, .i32⟩
  | 40 => ⟨S1, .i32⟩
  | 41 => ⟨S_, .i32⟩
  | 42 => ⟨S1, .i32⟩
  | 43 => ⟨S2, .i32⟩
  | 44 => ⟨S4x30x30, .f32⟩
  | 45 => ⟨S4x1x28x28, .f32⟩
  | 46 => ⟨S4x28x28, .f32⟩
  | 47 => ⟨S_, .i32⟩
  | 48 => ⟨S1, .i32⟩
  | 49 => ⟨S_, .i32⟩
  | 50 => ⟨S1, .i32⟩
  | 51 => ⟨S2, .i32⟩
  | 52 => ⟨S4x30x30, .f32⟩
  | 53 => ⟨S4x1x28x28, .f32⟩
  | 54 => ⟨S4x28x28, .f32⟩
  | 55 => ⟨S_, .i32⟩
  | 56 => ⟨S1, .i32⟩
  | 57 => ⟨S_, .i32⟩
  | 58 => ⟨S1, .i32⟩
  | 59 => ⟨S2, .i32⟩
  | 60 => ⟨S4x30x30, .f32⟩
  | 61 => ⟨S4x28x28, .f32⟩
  | 62 => ⟨S_, .f32⟩
  | 63 => ⟨S4x28x28, .f32⟩
  | 64 => ⟨S4x28x28, .f32⟩
  | 65 => ⟨S4x1x28x28, .f32⟩
  | 66 => ⟨S4x384x28x28, .f32⟩
  | 67 => ⟨S4x384x28x28, .f32⟩
  | 68 => ⟨S_, .i32⟩
  | 69 => ⟨S_, .f32⟩
  | 70 => ⟨S4x384x30x30, .f32⟩
  | 71 => ⟨S4x384x28x28, .f32⟩
  | 72 => ⟨S4x384x28x28, .f32⟩
  | 73 => ⟨S4x384x28x28, .f32⟩
  | 74 => ⟨S4x384x28x28, .f32⟩
  | 75 => ⟨S4x384x28x28, .f32⟩
  | 76 => ⟨S4x384x28x28, .f32⟩
  | 77 => ⟨S4x384x28x28, .f32⟩
  | 78 => ⟨S4x384x28x28, .f32⟩
  | 79 => ⟨S4x384x28x28, .f32⟩
  | 80 => ⟨S4x384x1x28x28, .f32⟩
  | 81 => ⟨S4x384x1x28x28, .f32⟩
  | 82 => ⟨S4x384x1x28x28, .f32⟩
  | 83 => ⟨S4x384x1x28x28, .f32⟩
  | 84 => ⟨S4x384x1x28x28, .f32⟩
  | 85 => ⟨S4x384x1x28x28, .f32⟩
  | 86 => ⟨S4x384x1x28x28, .f32⟩
  | 87 => ⟨S4x384x1x28x28, .f32⟩
  | 88 => ⟨S4x384x1x28x28, .f32⟩
  | 89 => ⟨S4x384x9x28x28, .f32⟩
  | 90 => ⟨S4x28x28x384x9, .f32⟩
  | 91 => ⟨S4x784x384x9, .f32⟩
  | 92 => ⟨S4x784x64x9, .f32⟩
  | 93 => ⟨S4x784x384x64, .f32⟩
  | 94 => ⟨S4x28x28x384x8x8, .f32⟩
  | 95 => ⟨S4x384x28x8x28x8, .f32⟩
  | 96 => ⟨S4x384x224x224, .f32⟩
  | _ => ⟨S4x384x224x224, .f32⟩

abbrev hbmTy (i : Nat) : BufTy := match i / 128 with
  | 0 => hbmTy0_0 i
  | 1 => hbmTy0_1 i
  | _ => ⟨S4x384x224x224, .f32⟩

abbrev bufTy : (tb : Table) → Fin (tcTables nBuf tb) → BufTy
  | .hbm, ⟨i, _⟩ => hbmTy i
  | .local _ .vmem, ⟨0, _⟩ => ⟨S1x112x64x384, .f32⟩
  | .local _ .vmem, ⟨1, _⟩ => ⟨S1x112x64x384, .f32⟩
  | .local _ .vmem, ⟨2, _⟩ => ⟨S1x112x384x9, .f32⟩
  | .local _ .vmem, ⟨3, _⟩ => ⟨S1x112x384x9, .f32⟩
  | .local _ .vmem, ⟨4, _⟩ => ⟨S1x112x384x9, .f32⟩
  | .local _ .vmem, ⟨5, _⟩ => ⟨S1x112x384x9, .f32⟩
  | .local _ .vmem, ⟨6, _⟩ => ⟨S1x112x9, .f32⟩
  | .local _ .vmem, ⟨7, _⟩ => ⟨S1x112x9, .f32⟩
  | .local _ .vmem, ⟨8, _⟩ => ⟨S1x112x64x384, .f32⟩
  | .local _ .vmem, ⟨9, _⟩ => ⟨S1x112x64x384, .f32⟩
  | .local _ .vmem, ⟨10, _⟩ => ⟨S1x112x384x9, .f32⟩
  | .local _ .vmem, ⟨11, _⟩ => ⟨S1x112x384x9, .f32⟩
  | .local _ .vmem, ⟨12, _⟩ => ⟨S1x112x64x9, .f32⟩
  | .local _ .vmem, ⟨13, _⟩ => ⟨S1x112x64x9, .f32⟩
  | .local _ .vmem, ⟨14, _⟩ => ⟨S1x112x384x9, .f32⟩
  | .local _ .vmem, ⟨15, _⟩ => ⟨S1x112x384x9, .f32⟩
  | .local _ .vmem, ⟨16, _⟩ => ⟨S1x112x64x9, .f32⟩
  | .local _ .vmem, ⟨17, _⟩ => ⟨S1x112x64x9, .f32⟩
  | .local _ .vmem, ⟨18, _⟩ => ⟨S1x112x384x64, .f32⟩
  | .local _ .vmem, ⟨19, _⟩ => ⟨S1x112x384x64, .f32⟩
  | _, _ => ⟨S4x384x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28_0 : Ref sig .tc := ⟨.hbm, 33, rfl⟩
abbrev main_v28_1 : Ref sig .tc := ⟨.hbm, 34, rfl⟩
abbrev main_v29 : Ref sig .tc := ⟨.hbm, 35, rfl⟩
abbrev main_v30 : Ref sig .tc := ⟨.hbm, 36, rfl⟩
abbrev main_cst_1 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c_2 : Ref sig .tc := ⟨.hbm, 41, rfl⟩
abbrev main_v34 : Ref sig .tc := ⟨.hbm, 42, rfl⟩
abbrev main_c_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_4 : Ref sig .tc := ⟨.hbm, 49, rfl⟩
abbrev main_v40 : Ref sig .tc := ⟨.hbm, 50, rfl⟩
abbrev main_c_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_c_6 : Ref sig .tc := ⟨.hbm, 57, rfl⟩
abbrev main_v46 : Ref sig .tc := ⟨.hbm, 58, rfl⟩
abbrev main_c_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_8 : Ref sig .tc := ⟨.hbm, 65, rfl⟩
abbrev main_v52 : Ref sig .tc := ⟨.hbm, 66, rfl⟩
abbrev main_c_9 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_c_10 : Ref sig .tc := ⟨.hbm, 73, rfl⟩
abbrev main_v58 : Ref sig .tc := ⟨.hbm, 74, rfl⟩
abbrev main_c_11 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_c_12 : Ref sig .tc := ⟨.hbm, 81, rfl⟩
abbrev main_v64 : Ref sig .tc := ⟨.hbm, 82, rfl⟩
abbrev main_c_13 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_c_14 : Ref sig .tc := ⟨.hbm, 89, rfl⟩
abbrev main_v70 : Ref sig .tc := ⟨.hbm, 90, rfl⟩
abbrev main_c_15 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_c_16 : Ref sig .tc := ⟨.hbm, 97, rfl⟩
abbrev main_v76 : Ref sig .tc := ⟨.hbm, 98, rfl⟩
abbrev main_c_17 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_c_18 : Ref sig .tc := ⟨.hbm, 105, rfl⟩
abbrev main_v82 : Ref sig .tc := ⟨.hbm, 106, rfl⟩
abbrev main_c_19 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_20 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_c_21 : Ref sig .tc := ⟨.hbm, 119, rfl⟩
abbrev main_v93 : Ref sig .tc := ⟨.hbm, 120, rfl⟩
abbrev main_c_22 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_c_23 : Ref sig .tc := ⟨.hbm, 127, rfl⟩
abbrev main_v99 : Ref sig .tc := ⟨.hbm, 128, rfl⟩
abbrev main_c_24 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_c_25 : Ref sig .tc := ⟨.hbm, 135, rfl⟩
abbrev main_v105 : Ref sig .tc := ⟨.hbm, 136, rfl⟩
abbrev main_c_26 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_c_27 : Ref sig .tc := ⟨.hbm, 143, rfl⟩
abbrev main_v111 : Ref sig .tc := ⟨.hbm, 144, rfl⟩
abbrev main_c_28 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_c_29 : Ref sig .tc := ⟨.hbm, 151, rfl⟩
abbrev main_v117 : Ref sig .tc := ⟨.hbm, 152, rfl⟩
abbrev main_c_30 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_c_31 : Ref sig .tc := ⟨.hbm, 159, rfl⟩
abbrev main_v123 : Ref sig .tc := ⟨.hbm, 160, rfl⟩
abbrev main_c_32 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_c_33 : Ref sig .tc := ⟨.hbm, 167, rfl⟩
abbrev main_v129 : Ref sig .tc := ⟨.hbm, 168, rfl⟩
abbrev main_c_34 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_c_35 : Ref sig .tc := ⟨.hbm, 175, rfl⟩
abbrev main_v135 : Ref sig .tc := ⟨.hbm, 176, rfl⟩
abbrev main_c_36 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_c_37 : Ref sig .tc := ⟨.hbm, 183, rfl⟩
abbrev main_v141 : Ref sig .tc := ⟨.hbm, 184, rfl⟩
abbrev main_c_38 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_cst_39 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_c_40 : Ref sig .tc := ⟨.hbm, 196, rfl⟩
abbrev main_call1_v0 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨2, ![4, 7], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x112x64x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x112x384x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x112x384x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x112x9 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 7], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x112x64x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x112x384x9 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x112x64x9 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 7], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x112x384x9 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x112x64x9 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x112x384x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S4x384x224x224_S4x384x28x8x28x8 : S4x384x224x224.ShapeCasts S4x384x28x8x28x8
  reducesTo_S4x384x28x8x28x8_S4x384x28x28_d3_5 : S4x384x28x8x28x8.ReducesTo [3, 5] S4x384x28x28
  h_S_ : 0 < S_.numel
  bcast_S_S4x384x28x28 : S_.BroadcastsInDim S4x384x28x28 (![] : Fin 0 → Fin S4x384x28x28.rank)
  transposes_S4x384x28x8x28x8_S4x28x28x8x8x384_0_2_4_3_5_1 : S4x384x28x8x28x8.Transposes [0, 2, 4, 3, 5, 1] S4x28x28x8x8x384
  shapeCasts_S4x28x28x8x8x384_S4x784x64x384 : S4x28x28x8x8x384.ShapeCasts S4x784x64x384
  pads_S4x384x28x28_S4x384x30x30_000_000_110_110 : S4x384x28x28.Pads (![0, 0, 1, 1] : Fin 4 → Nat) ![0, 0, 1, 1] ![0, 0, 0, 0] S4x384x30x30
  slices_S4x384x30x30_S4x384x28x28_0_0_0_0 : S4x384x30x30.Slices ![0, 0, 0, 0] S4x384x28x28
  slices_S4x384x30x30_S4x384x28x28_0_0_0_1 : S4x384x30x30.Slices ![0, 0, 0, 1] S4x384x28x28
  slices_S4x384x30x30_S4x384x28x28_0_0_0_2 : S4x384x30x30.Slices ![0, 0, 0, 2] S4x384x28x28
  slices_S4x384x30x30_S4x384x28x28_0_0_1_0 : S4x384x30x30.Slices ![0, 0, 1, 0] S4x384x28x28
  slices_S4x384x30x30_S4x384x28x28_0_0_1_1 : S4x384x30x30.Slices ![0, 0, 1, 1] S4x384x28x28
  slices_S4x384x30x30_S4x384x28x28_0_0_1_2 : S4x384x30x30.Slices ![0, 0, 1, 2] S4x384x28x28
  slices_S4x384x30x30_S4x384x28x28_0_0_2_0 : S4x384x30x30.Slices ![0, 0, 2, 0] S4x384x28x28
  slices_S4x384x30x30_S4x384x28x28_0_0_2_1 : S4x384x30x30.Slices ![0, 0, 2, 1] S4x384x28x28
  slices_S4x384x30x30_S4x384x28x28_0_0_2_2 : S4x384x30x30.Slices ![0, 0, 2, 2] S4x384x28x28
  bcast_S4x384x28x28_S4x384x1x28x28_0_1_3_4 : S4x384x28x28.BroadcastsInDim S4x384x1x28x28 (![0, 1, 3, 4] : Fin 4 → Fin S4x384x1x28x28.rank)
  concatenates_S4x384x1x28x28_S4x384x1x28x28_S4x384x1x28x28_S4x384x1x28x28_S4x384x1x28x28_S4x384x1x28x28_S4x384x1x28x28_S4x384x1x28x28_S4x384x1x28x28_S4x384x9x28x28_d2 : Shape.Concatenates [S4x384x1x28x28, S4x384x1x28x28, S4x384x1x28x28, S4x384x1x28x28, S4x384x1x28x28, S4x384x1x28x28, S4x384x1x28x28, S4x384x1x28x28, S4x384x1x28x28] S4x384x9x28x28 2
  transposes_S4x384x9x28x28_S4x28x28x384x9_0_3_4_1_2 : S4x384x9x28x28.Transposes [0, 3, 4, 1, 2] S4x28x28x384x9
  shapeCasts_S4x28x28x384x9_S4x784x384x9 : S4x28x28x384x9.ShapeCasts S4x784x384x9
  inb_S1x112x64x384_S1x112x64x384_0_0_0_0 : ∀ a, (![0, 0, 0, 0] : Fin 4 → Nat) a + S1x112x64x384.size a ≤ S1x112x64x384.size a
  h_S1x112x64x384 : 0 < S1x112x64x384.numel
  shapeCasts_S1x112x64x384_S112x64x384 : S1x112x64x384.ShapeCasts S112x64x384
  bitsLt_bf16_f32 : FTy.bits .bf16 < FTy.bits .f32
  inb_S1x112x384x9_S1x112x384x9_0_0_0_0 : ∀ a, (![0, 0, 0, 0] : Fin 4 → Nat) a + S1x112x384x9.size a ≤ S1x112x384x9.size a
  h_S1x112x384x9 : 0 < S1x112x384x9.numel
  shapeCasts_S1x112x384x9_S112x384x9 : S1x112x384x9.ShapeCasts S112x384x9
  reduces_S112x64x9_S112x64 : S112x64x9.Reduces [2] S112x64
  shapeCasts_S112x64_S112x64x1 : S112x64.ShapeCasts S112x64x1
  broadcasts_S112x64x1_S112x64x9 : S112x64x1.Broadcasts S112x64x9
  transposes_S112x64x9_p0_2_1_S112x9x64 : S112x64x9.Transposes [0, 2, 1] S112x9x64
  transposes_S112x9x384_p0_2_1_S112x384x9 : S112x9x384.Transposes [0, 2, 1] S112x384x9
  reduces_S112x64x9_S112x9 : S112x64x9.Reduces [1] S112x9
  shapeCasts_S112x384x9_S1x112x384x9 : S112x384x9.ShapeCasts S1x112x384x9
  inb_S1x112x9_S1x112x9_0_0_0 : ∀ a, (![0, 0, 0] : Fin 3 → Nat) a + S1x112x9.size a ≤ S1x112x9.size a
  h_S1x112x9 : 0 < S1x112x9.numel
  shapeCasts_S1x112x9_S112x9 : S1x112x9.ShapeCasts S112x9
  shapeCasts_S112x9_S1x112x9 : S112x9.ShapeCasts S1x112x9
  transposes_S4x784x384x9_S4x384x9x784_0_2_3_1 : S4x784x384x9.Transposes [0, 2, 3, 1] S4x384x9x784
  shapeCasts_S4x384x9x784_S1536x9x28x28 : S4x384x9x784.ShapeCasts S1536x9x28x28
  bcast_S_S1536x30x30 : S_.BroadcastsInDim S1536x30x30 (![] : Fin 0 → Fin S1536x30x30.rank)
  slices_S1536x9x28x28_S1536x1x28x28_0_0_0_0 : S1536x9x28x28.Slices ![0, 0, 0, 0] S1536x1x28x28
  shapeCasts_S1536x1x28x28_S1536x28x28 : S1536x1x28x28.ShapeCasts S1536x28x28
  bcast_S_S1 : S_.BroadcastsInDim S1 (![] : Fin 0 → Fin S1.rank)
  concatenates_S1_S1_S2_d0 : Shape.Concatenates [S1, S1] S2 0
  slices_S1536x9x28x28_S1536x1x28x28_0_1_0_0 : S1536x9x28x28.Slices ![0, 1, 0, 0] S1536x1x28x28
  slices_S1536x9x28x28_S1536x1x28x28_0_2_0_0 : S1536x9x28x28.Slices ![0, 2, 0, 0] S1536x1x28x28
  slices_S1536x9x28x28_S1536x1x28x28_0_3_0_0 : S1536x9x28x28.Slices ![0, 3, 0, 0] S1536x1x28x28
  slices_S1536x9x28x28_S1536x1x28x28_0_4_0_0 : S1536x9x28x28.Slices ![0, 4, 0, 0] S1536x1x28x28
  slices_S1536x9x28x28_S1536x1x28x28_0_5_0_0 : S1536x9x28x28.Slices ![0, 5, 0, 0] S1536x1x28x28
  slices_S1536x9x28x28_S1536x1x28x28_0_6_0_0 : S1536x9x28x28.Slices ![0, 6, 0, 0] S1536x1x28x28
  slices_S1536x9x28x28_S1536x1x28x28_0_7_0_0 : S1536x9x28x28.Slices ![0, 7, 0, 0] S1536x1x28x28
  slices_S1536x9x28x28_S1536x1x28x28_0_8_0_0 : S1536x9x28x28.Slices ![0, 8, 0, 0] S1536x1x28x28
  slices_S1536x30x30_S1536x28x28_0_1_1 : S1536x30x30.Slices ![0, 1, 1] S1536x28x28
  shapeCasts_S1536x28x28_S4x384x28x28 : S1536x28x28.ShapeCasts S4x384x28x28
  transposes_S4x784x9_S4x9x784_0_2_1 : S4x784x9.Transposes [0, 2, 1] S4x9x784
  shapeCasts_S4x9x784_S4x9x28x28 : S4x9x784.ShapeCasts S4x9x28x28
  bcast_S_S4x30x30 : S_.BroadcastsInDim S4x30x30 (![] : Fin 0 → Fin S4x30x30.rank)
  slices_S4x9x28x28_S4x1x28x28_0_0_0_0 : S4x9x28x28.Slices ![0, 0, 0, 0] S4x1x28x28
  shapeCasts_S4x1x28x28_S4x28x28 : S4x1x28x28.ShapeCasts S4x28x28
  slices_S4x9x28x28_S4x1x28x28_0_1_0_0 : S4x9x28x28.Slices ![0, 1, 0, 0] S4x1x28x28
  slices_S4x9x28x28_S4x1x28x28_0_2_0_0 : S4x9x28x28.Slices ![0, 2, 0, 0] S4x1x28x28
  slices_S4x9x28x28_S4x1x28x28_0_3_0_0 : S4x9x28x28.Slices ![0, 3, 0, 0] S4x1x28x28
  slices_S4x9x28x28_S4x1x28x28_0_4_0_0 : S4x9x28x28.Slices ![0, 4, 0, 0] S4x1x28x28
  slices_S4x9x28x28_S4x1x28x28_0_5_0_0 : S4x9x28x28.Slices ![0, 5, 0, 0] S4x1x28x28
  slices_S4x9x28x28_S4x1x28x28_0_6_0_0 : S4x9x28x28.Slices ![0, 6, 0, 0] S4x1x28x28
  slices_S4x9x28x28_S4x1x28x28_0_7_0_0 : S4x9x28x28.Slices ![0, 7, 0, 0] S4x1x28x28
  slices_S4x9x28x28_S4x1x28x28_0_8_0_0 : S4x9x28x28.Slices ![0, 8, 0, 0] S4x1x28x28
  slices_S4x30x30_S4x28x28_0_1_1 : S4x30x30.Slices ![0, 1, 1] S4x28x28
  bcast_S_S4x28x28 : S_.BroadcastsInDim S4x28x28 (![] : Fin 0 → Fin S4x28x28.rank)
  bcast_S4x28x28_S4x1x28x28_0_2_3 : S4x28x28.BroadcastsInDim S4x1x28x28 (![0, 2, 3] : Fin 3 → Fin S4x1x28x28.rank)
  bcast_S4x1x28x28_S4x384x28x28_0_1_2_3 : S4x1x28x28.BroadcastsInDim S4x384x28x28 (![0, 1, 2, 3] : Fin 4 → Fin S4x384x28x28.rank)
  inb_S1x112x64x9_S1x112x64x9_0_0_0_0 : ∀ a, (![0, 0, 0, 0] : Fin 4 → Nat) a + S1x112x64x9.size a ≤ S1x112x64x9.size a
  h_S1x112x64x9 : 0 < S1x112x64x9.numel
  shapeCasts_S1x112x64x9_S112x64x9 : S1x112x64x9.ShapeCasts S112x64x9
  shapeCasts_S112x64x9_S1x112x64x9 : S112x64x9.ShapeCasts S1x112x64x9
  inb_S1x112x384x64_S1x112x384x64_0_0_0_0 : ∀ a, (![0, 0, 0, 0] : Fin 4 → Nat) a + S1x112x384x64.size a ≤ S1x112x384x64.size a
  h_S1x112x384x64 : 0 < S1x112x384x64.numel
  shapeCasts_S1x112x384x64_S112x384x64 : S1x112x384x64.ShapeCasts S112x384x64
  shapeCasts_S112x384x64_S1x112x384x64 : S112x384x64.ShapeCasts S1x112x384x64
  shapeCasts_S4x784x384x64_S4x28x28x384x8x8 : S4x784x384x64.ShapeCasts S4x28x28x384x8x8
  transposes_S4x28x28x384x8x8_S4x384x28x8x28x8_0_3_1_4_2_5 : S4x28x28x384x8x8.Transposes [0, 3, 1, 4, 2, 5] S4x384x28x8x28x8
  shapeCasts_S4x384x28x8x28x8_S4x384x224x224 : S4x384x28x8x28x8.ShapeCasts S4x384x224x224
  dot_S112x64x384_S112x384x9_S112x64x9_2_1_1_2_0_0_wf : DotDims.WF S112x64x384 S112x384x9 S112x64x9 [2] [1] [1] [2] [0] [0]
  dot_S112x9x64_S112x64x384_S112x9x384_2_1_1_2_0_0_wf : DotDims.WF S112x9x64 S112x64x384 S112x9x384 [2] [1] [1] [2] [0] [0]
  scatter_S1536x30x30_S2_S1536x28x28_012_n_12_0_wf : ScatterDims.WF S1536x30x30 S2 S1536x28x28 [0, 1, 2] [] [1, 2] 0
  scatter_S4x30x30_S2_S4x28x28_012_n_12_0_wf : ScatterDims.WF S4x30x30 S2 S4x28x28 [0, 1, 2] [] [1, 2] 0
  dot_S112x384x9_S112x9x64_S112x384x64_2_1_1_2_0_0_wf : DotDims.WF S112x384x9 S112x9x64 S112x384x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x112x64x384.size a ≤ S4x784x64x384.size a
  hwx0_0 : ∀ i : grid0.Coords, EltTy.bits .f32 = 32 ∨ (Rect.block (s := S4x784x64x384) S1x112x64x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x112x384x9.size a ≤ S4x784x384x9.size a
  hwx0_1 : ∀ i : grid0.Coords, EltTy.bits .f32 = 32 ∨ (Rect.block (s := S4x784x384x9) S1x112x384x9.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x112x384x9.size a ≤ S4x784x384x9.size a
  hwx0_2 : ∀ i : grid0.Coords, EltTy.bits .f32 = 32 ∨ (Rect.block (s := S4x784x384x9) S1x112x384x9.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x112x9.size a ≤ S4x784x9.size a
  hwx0_3 : ∀ i : grid0.Coords, EltTy.bits .f32 = 32 ∨ (Rect.block (s := S4x784x9) S1x112x9.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x112x64x384.size a ≤ S4x784x64x384.size a
  hwx1_0 : ∀ i : grid1.Coords, EltTy.bits .f32 = 32 ∨ (Rect.block (s := S4x784x64x384) S1x112x64x384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x112x384x9.size a ≤ S4x784x384x9.size a
  hwx1_1 : ∀ i : grid1.Coords, EltTy.bits .f32 = 32 ∨ (Rect.block (s := S4x784x384x9) S1x112x384x9.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x112x64x9.size a ≤ S4x784x64x9.size a
  hwx1_2 : ∀ i : grid1.Coords, EltTy.bits .f32 = 32 ∨ (Rect.block (s := S4x784x64x9) S1x112x64x9.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x112x384x9.size a ≤ S4x784x384x9.size a
  hwx2_0 : ∀ i : grid2.Coords, EltTy.bits .f32 = 32 ∨ (Rect.block (s := S4x784x384x9) S1x112x384x9.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x112x64x9.size a ≤ S4x784x64x9.size a
  hwx2_1 : ∀ i : grid2.Coords, EltTy.bits .f32 = 32 ∨ (Rect.block (s := S4x784x64x9) S1x112x64x9.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x112x384x64.size a ≤ S4x784x384x64.size a
  hwx2_2 : ∀ i : grid2.Coords, EltTy.bits .f32 = 32 ∨ (Rect.block (s := S4x784x384x64) S1x112x384x64.size (cc2_transform_2 i) (hinb2_2 i)).WholeWords (EltTy.packing .f32)

variable [Facts₀]

def dot_S112x64x384_S112x384x9_S112x64x9_2_1_1_2_0_0 : DotDims S112x64x384 S112x384x9 S112x64x9 where
  lhsContracting := [2]
  rhsContracting := [1]
  lhsNonContracting := [1]
  rhsNonContracting := [2]
  lhsBatch := [0]
  rhsBatch := [0]
  wf := dot_S112x64x384_S112x384x9_S112x64x9_2_1_1_2_0_0_wf
def dot_S112x9x64_S112x64x384_S112x9x384_2_1_1_2_0_0 : DotDims S112x9x64 S112x64x384 S112x9x384 where
  lhsContracting := [2]
  rhsContracting := [1]
  lhsNonContracting := [1]
  rhsNonContracting := [2]
  lhsBatch := [0]
  rhsBatch := [0]
  wf := dot_S112x9x64_S112x64x384_S112x9x384_2_1_1_2_0_0_wf
def scatter_S1536x30x30_S2_S1536x28x28_012_n_12_0 : ScatterDims S1536x30x30 S2 S1536x28x28 where
  updateWindowDims := [0, 1, 2]
  insertedWindowDims := []
  scatterDimsToOperandDims := [1, 2]
  indexVectorDim := 0
  wf := scatter_S1536x30x30_S2_S1536x28x28_012_n_12_0_wf
def scatter_S4x30x30_S2_S4x28x28_012_n_12_0 : ScatterDims S4x30x30 S2 S4x28x28 where
  updateWindowDims := [0, 1, 2]
  insertedWindowDims := []
  scatterDimsToOperandDims := [1, 2]
  indexVectorDim := 0
  wf := scatter_S4x30x30_S2_S4x28x28_012_n_12_0_wf
def dot_S112x384x9_S112x9x64_S112x384x64_2_1_1_2_0_0 : DotDims S112x384x9 S112x9x64 S112x384x64 where
  lhsContracting := [2]
  rhsContracting := [1]
  lhsNonContracting := [1]
  rhsNonContracting := [2]
  lhsBatch := [0]
  rhsBatch := [0]
  wf := dot_S112x384x9_S112x9x64_S112x384x64_2_1_1_2_0_0_wf

abbrev win0_0 : Pipeline.Window sig grid0 :=
  Pipeline.Window.ofSpec (Memref.whole main_v5) S1x112x64x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1x112x384x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28_0) S1x112x384x9.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28_1) S1x112x9.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1x112x64x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v172) S1x112x384x9.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v173) S1x112x64x9.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v172) S1x112x384x9.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v173) S1x112x64x9.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v174) S1x112x384x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4x384x224x224 : Shape := ⟨4, ![4, 384, 224, 224]⟩
abbrev S4x384x28x8x28x8 : Shape := ⟨6, ![4, 384, 28, 8, 28, 8]⟩
abbrev S_ : Shape := ⟨0, ![]⟩
abbrev S4x384x28x28 : Shape := ⟨4, ![4, 384, 28, 28]⟩
abbrev S4x28x28x8x8x384 : Shape := ⟨6, ![4, 28, 28, 8, 8, 384]⟩
abbrev S4x784x64x384 : Shape := ⟨4, ![4, 784, 64, 384]⟩
abbrev S4x384x30x30 : Shape := ⟨4, ![4, 384, 30, 30]⟩
abbrev S4x384x1x28x28 : Shape := ⟨5, ![4, 384, 1, 28, 28]⟩
abbrev S4x384x9x28x28 : Shape := ⟨5, ![4, 384, 9, 28, 28]⟩
abbrev S4x28x28x384x9 : Shape := ⟨5, ![4, 28, 28, 384, 9]⟩
abbrev S4x784x384x9 : Shape := ⟨4, ![4, 784, 384, 9]⟩
abbrev S4x784x64x9 : Shape := ⟨4, ![4, 784, 64, 9]⟩
abbrev S4x784x64 : Shape := ⟨3, ![4, 784, 64]⟩
abbrev S4x784x64x1 : Shape := ⟨4, ![4, 784, 64, 1]⟩
abbrev S4x384x9x784 : Shape := ⟨4, ![4, 384, 9, 784]⟩
abbrev S1536x9x28x28 : Shape := ⟨4, ![1536, 9, 28, 28]⟩
abbrev S1536x30x30 : Shape := ⟨3, ![1536, 30, 30]⟩
abbrev S1536x1x28x28 : Shape := ⟨4, ![1536, 1, 28, 28]⟩
abbrev S1536x28x28 : Shape := ⟨3, ![1536, 28, 28]⟩
abbrev S1 : Shape := ⟨1, ![1]⟩
abbrev S2 : Shape := ⟨1, ![2]⟩
abbrev S4x784x9 : Shape := ⟨3, ![4, 784, 9]⟩
abbrev S4x9x784 : Shape := ⟨3, ![4, 9, 784]⟩
abbrev S4x9x28x28 : Shape := ⟨4, ![4, 9, 28, 28]⟩
abbrev S4x30x30 : Shape := ⟨3, ![4, 30, 30]⟩
abbrev S4x1x28x28 : Shape := ⟨4, ![4, 1, 28, 28]⟩
abbrev S4x28x28 : Shape := ⟨3, ![4, 28, 28]⟩
abbrev S4x784x384x64 : Shape := ⟨4, ![4, 784, 384, 64]⟩
abbrev S4x28x28x384x8x8 : Shape := ⟨6, ![4, 28, 28, 384, 8, 8]⟩

abbrev nBuf : Space → Nat
  | .hbm => 285
  | .vmem => 0
  | .smem => 0
  | _ => 0

abbrev hbmTy0_0 (i : Nat) : BufTy := match i % 128 with
  | 0 => ⟨S4x384x224x224, .f32⟩
  | 1 => ⟨S4x384x28x8x28x8, .f32⟩
  | 2 => ⟨S_, .f32⟩
  | 3 => ⟨S4x384x28x28, .f32⟩
  | 4 => ⟨S_, .f32⟩
  | 5 => ⟨S4x384x28x28, .f32⟩
  | 6 => ⟨S4x384x28x28, .f32⟩
  | 7 => ⟨S4x28x28x8x8x384, .f32⟩
  | 8 => ⟨S4x784x64x384, .f32⟩
  | 9 => ⟨S_, .i32⟩
  | 10 => ⟨S_, .f32⟩
  | 11 => ⟨S4x384x30x30, .f32⟩
  | 12 => ⟨S4x384x28x28, .f32⟩
  | 13 => ⟨S4x384x28x28, .f32⟩
  | 14 => ⟨S4x384x28x28, .f32⟩
  | 15 => ⟨S4x384x28x28, .f32⟩
  | 16 => ⟨S4x384x28x28, .f32⟩
  | 17 => ⟨S4x384x28x28, .f32⟩
  | 18 => ⟨S4x384x28x28, .f32⟩
  | 19 => ⟨S4x384x28x28, .f32⟩
  | 20 => ⟨S4x384x28x28, .f32⟩
  | 21 => ⟨S4x384x1x28x28, .f32⟩
  | 22 => ⟨S4x384x1x28x28, .f32⟩
  | 23 => ⟨S4x384x1x28x28, .f32⟩
  | 24 => ⟨S4x384x1x28x28, .f32⟩
  | 25 => ⟨S4x384x1x28x28, .f32⟩
  | 26 => ⟨S4x384x1x28x28, .f32⟩
  | 27 => ⟨S4x384x1x28x28, .f32⟩
  | 28 => ⟨S4x384x1x28x28, .f32⟩
  | 29 => ⟨S4x384x1x28x28, .f32⟩
  | 30 => ⟨S4x384x9x28x28, .f32⟩
  | 31 => ⟨S4x28x28x384x9, .f32⟩
  | 32 => ⟨S4x784x384x9, .f32⟩
  | 33 => ⟨S4x784x64x9, .f32⟩
  | 34 => ⟨S_, .f32⟩
  | 35 => ⟨S4x784x64x9, .f32⟩
  | 36 => ⟨S4x784x64x9, .f32⟩
  | 37 => ⟨S_, .f32⟩
  | 38 => ⟨S4x784x64, .f32⟩
  | 39 => ⟨S_, .f32⟩
  | 40 => ⟨S4x784x64, .f32⟩
  | 41 => ⟨S4x784x64, .f32⟩
  | 42 => ⟨S4x784x64x1, .f32⟩
  | 43 => ⟨S4x784x64x9, .f32⟩
  | 44 => ⟨S4x784x64x9, .f32⟩
  | 45 => ⟨S4x784x64x9, .f32⟩
  | 46 => ⟨S_, .f32⟩
  | 47 => ⟨S4x784x64, .f32⟩
  | 48 => ⟨S4x784x64x1, .f32⟩
  | 49 => ⟨S4x784x64x9, .f32⟩
  | 50 => ⟨S4x784x64x9, .f32⟩
  | 51 => ⟨S4x784x384x9, .f32⟩
  | 52 => ⟨S4x384x9x784, .f32⟩
  | 53 => ⟨S1536x9x28x28, .f32⟩
  | 54 => ⟨S_, .f32⟩
  | 55 => ⟨S1536x30x30, .f32⟩
  | 56 => ⟨S1536x1x28x28, .f32⟩
  | 57 => ⟨S1536x28x28, .f32⟩
  | 58 => ⟨S_, .i32⟩
  | 59 => ⟨S1, .i32⟩
  | 60 => ⟨S_, .i32⟩
  | 61 => ⟨S1, .i32⟩
  | 62 => ⟨S2, .i32⟩
  | 63 => ⟨S1536x30x30, .f32⟩
  | 64 => ⟨S1536x1x28x28, .f32⟩
  | 65 => ⟨S1536x28x28, .f32⟩
  | 66 => ⟨S_, .i32⟩
  | 67 => ⟨S1, .i32⟩
  | 68 => ⟨S_, .i32⟩
  | 69 => ⟨S1, .i32⟩
  | 70 => ⟨S2, .i32⟩
  | 71 => ⟨S1536x30x30, .f32⟩
  | 72 => ⟨S1536x1x28x28, .f32⟩
  | 73 => ⟨S1536x28x28, .f32⟩
  | 74 => ⟨S_, .i32⟩
  | 75 => ⟨S1, .i32⟩
  | 76 => ⟨S_, .i32⟩
  | 77 => ⟨S1, .i32⟩
  | 78 => ⟨S2, .i32⟩
  | 79 => ⟨S1536x30x30, .f32⟩
  | 80 => ⟨S1536x1x28x28, .f32⟩
  | 81 => ⟨S1536x28x28, .f32⟩
  | 82 => ⟨S_, .i32⟩
  | 83 => ⟨S1, .i32⟩
  | 84 => ⟨S_, .i32⟩
  | 85 => ⟨S1, .i32⟩
  | 86 => ⟨S2, .i32⟩
  | 87 => ⟨S1536x30x30, .f32⟩
  | 88 => ⟨S1536x1x28x28, .f32⟩
  | 89 => ⟨S1536x28x28, .f32⟩
  | 90 => ⟨S_, .i32⟩
  | 91 => ⟨S1, .i32⟩
  | 92 => ⟨S_, .i32⟩
  | 93 => ⟨S1, .i32⟩
  | 94 => ⟨S2, .i32⟩
  | 95 => ⟨S1536x30x30, .f32⟩
  | 96 => ⟨S1536x1x28x28, .f32⟩
  | 97 => ⟨S1536x28x28, .f32⟩
  | 98 => ⟨S_, .i32⟩
  | 99 => ⟨S1, .i32⟩
  | 100 => ⟨S_, .i32⟩
  | 101 => ⟨S1, .i32⟩
  | 102 => ⟨S2, .i32⟩
  | 103 => ⟨S1536x30x30, .f32⟩
  | 104 => ⟨S1536x1x28x28, .f32⟩
  | 105 => ⟨S1536x28x28, .f32⟩
  | 106 => ⟨S_, .i32⟩
  | 107 => ⟨S1, .i32⟩
  | 108 => ⟨S_, .i32⟩
  | 109 => ⟨S1, .i32⟩
  | 110 => ⟨S2, .i32⟩
  | 111 => ⟨S1536x30x30, .f32⟩
  | 112 => ⟨S1536x1x28x28, .f32⟩
  | 113 => ⟨S1536x28x28, .f32⟩
  | 114 => ⟨S_, .i32⟩
  | 115 => ⟨S1, .i32⟩
  | 116 => ⟨S_, .i32⟩
  | 117 => ⟨S1, .i32⟩
  | 118 => ⟨S2, .i32⟩
  | 119 => ⟨S1536x30x30, .f32⟩
  | 120 => ⟨S1536x1x28x28, .f32⟩
  | 121 => ⟨S1536x28x28, .f32⟩
  | 122 => ⟨S_, .i32⟩
  | 123 => ⟨S1, .i32⟩
  | 124 => ⟨S_, .i32⟩
  | 125 => ⟨S1, .i32⟩
  | 126 => ⟨S2, .i32⟩
  | 127 => ⟨S1536x30x30, .f32⟩
  | _ => ⟨S4x384x224x224, .f32⟩

abbrev hbmTy0_1 (i : Nat) : BufTy := match i % 128 with
  | 0 => ⟨S1536x28x28, .f32⟩
  | 1 => ⟨S4x384x28x28, .f32⟩
  | 2 => ⟨S_, .f32⟩
  | 3 => ⟨S4x784x9, .f32⟩
  | 4 => ⟨S4x9x784, .f32⟩
  | 5 => ⟨S4x9x28x28, .f32⟩
  | 6 => ⟨S_, .f32⟩
  | 7 => ⟨S4x30x30, .f32⟩
  | 8 => ⟨S4x1x28x28, .f32⟩
  | 9 => ⟨S4x28x28, .f32⟩
  | 10 => ⟨S_, .i32⟩
  | 11 => ⟨S1, .i32⟩
  | 12 => ⟨S_, .i32⟩
  | 13 => ⟨S1, .i32⟩
  | 14 => ⟨S2, .i32⟩
  | 15 => ⟨S4x30x30, .f32⟩
  | 16 => ⟨S4x1x28x28, .f32⟩
  | 17 => ⟨S4x28x28, .f32⟩
  | 18 => ⟨S_, .i32⟩
  | 19 => ⟨S1, .i32⟩
  | 20 => ⟨S_, .i32⟩
  | 21 => ⟨S1, .i32⟩
  | 22 => ⟨S2, .i32⟩
  | 23 => ⟨S4x30x30, .f32⟩
  | 24 => ⟨S4x1x28x28, .f32⟩
  | 25 => ⟨S4x28x28, .f32⟩
  | 26 => ⟨S_, .i32⟩
  | 27 => ⟨S1, .i32⟩
  | 28 => ⟨S_, .i32⟩
  | 29 => ⟨S1, .i32⟩
  | 30 => ⟨S2, .i32⟩
  | 31 => ⟨S4x30x30, .f32⟩
  | 32 => ⟨S4x1x28x28, .f32⟩
  | 33 => ⟨S4x28x28, .f32⟩
  | 34 => ⟨S_, .i32⟩
  | 35 => ⟨S1, .i32⟩
  | 36 => ⟨S_, .i32⟩
  | 37 => ⟨S1, .i32⟩
  | 38 => ⟨S2, .i32⟩
  | 39 => ⟨S4x30x30, .f32⟩
  | 40 => ⟨S4x1x28x28, .f32⟩
  | 41 => ⟨S4x28x28, .f32⟩
  | 42 => ⟨S_, .i32⟩
  | 43 => ⟨S1, .i32⟩
  | 44 => ⟨S_, .i32⟩
  | 45 => ⟨S1, .i32⟩
  | 46 => ⟨S2, .i32⟩
  | 47 => ⟨S4x30x30, .f32⟩
  | 48 => ⟨S4x1x28x28, .f32⟩
  | 49 => ⟨S4x28x28, .f32⟩
  | 50 => ⟨S_, .i32⟩
  | 51 => ⟨S1, .i32⟩
  | 52 => ⟨S_, .i32⟩
  | 53 => ⟨S1, .i32⟩
  | 54 => ⟨S2, .i32⟩
  | 55 => ⟨S4x30x30, .f32⟩
  | 56 => ⟨S4x1x28x28, .f32⟩
  | 57 => ⟨S4x28x28, .f32⟩
  | 58 => ⟨S_, .i32⟩
  | 59 => ⟨S1, .i32⟩
  | 60 => ⟨S_, .i32⟩
  | 61 => ⟨S1, .i32⟩
  | 62 => ⟨S2, .i32⟩
  | 63 => ⟨S4x30x30, .f32⟩
  | 64 => ⟨S4x1x28x28, .f32⟩
  | 65 => ⟨S4x28x28, .f32⟩
  | 66 => ⟨S_, .i32⟩
  | 67 => ⟨S1, .i32⟩
  | 68 => ⟨S_, .i32⟩
  | 69 => ⟨S1, .i32⟩
  | 70 => ⟨S2, .i32⟩
  | 71 => ⟨S4x30x30, .f32⟩
  | 72 => ⟨S4x1x28x28, .f32⟩
  | 73 => ⟨S4x28x28, .f32⟩
  | 74 => ⟨S_, .i32⟩
  | 75 => ⟨S1, .i32⟩
  | 76 => ⟨S_, .i32⟩
  | 77 => ⟨S1, .i32⟩
  | 78 => ⟨S2, .i32⟩
  | 79 => ⟨S4x30x30, .f32⟩
  | 80 => ⟨S4x28x28, .f32⟩
  | 81 => ⟨S_, .f32⟩
  | 82 => ⟨S4x28x28, .f32⟩
  | 83 => ⟨S4x28x28, .f32⟩
  | 84 => ⟨S4x1x28x28, .f32⟩
  | 85 => ⟨S4x384x28x28, .f32⟩
  | 86 => ⟨S4x384x28x28, .f32⟩
  | 87 => ⟨S_, .i32⟩
  | 88 => ⟨S_, .f32⟩
  | 89 => ⟨S4x384x30x30, .f32⟩
  | 90 => ⟨S4x384x28x28, .f32⟩
  | 91 => ⟨S4x384x28x28, .f32⟩
  | 92 => ⟨S4x384x28x28, .f32⟩
  | 93 => ⟨S4x384x28x28, .f32⟩
  | 94 => ⟨S4x384x28x28, .f32⟩
  | 95 => ⟨S4x384x28x28, .f32⟩
  | 96 => ⟨S4x384x28x28, .f32⟩
  | 97 => ⟨S4x384x28x28, .f32⟩
  | 98 => ⟨S4x384x28x28, .f32⟩
  | 99 => ⟨S4x384x1x28x28, .f32⟩
  | 100 => ⟨S4x384x1x28x28, .f32⟩
  | 101 => ⟨S4x384x1x28x28, .f32⟩
  | 102 => ⟨S4x384x1x28x28, .f32⟩
  | 103 => ⟨S4x384x1x28x28, .f32⟩
  | 104 => ⟨S4x384x1x28x28, .f32⟩
  | 105 => ⟨S4x384x1x28x28, .f32⟩
  | 106 => ⟨S4x384x1x28x28, .f32⟩
  | 107 => ⟨S4x384x1x28x28, .f32⟩
  | 108 => ⟨S4x384x9x28x28, .f32⟩
  | 109 => ⟨S4x28x28x384x9, .f32⟩
  | 110 => ⟨S4x784x384x9, .f32⟩
  | 111 => ⟨S4x784x64x9, .f32⟩
  | 112 => ⟨S_, .f32⟩
  | 113 => ⟨S4x784x64x9, .f32⟩
  | 114 => ⟨S4x784x64x9, .f32⟩
  | 115 => ⟨S_, .f32⟩
  | 116 => ⟨S4x784x64, .f32⟩
  | 117 => ⟨S_, .f32⟩
  | 118 => ⟨S4x784x64, .f32⟩
  | 119 => ⟨S4x784x64, .f32⟩
  | 120 => ⟨S4x784x64x1, .f32⟩
  | 121 => ⟨S4x784x64x9, .f32⟩
  | 122 => ⟨S4x784x64x9, .f32⟩
  | 123 => ⟨S4x784x64x9, .f32⟩
  | 124 => ⟨S_, .f32⟩
  | 125 => ⟨S4x784x64, .f32⟩
  | 126 => ⟨S4x784x64x1, .f32⟩
  | 127 => ⟨S4x784x64x9, .f32⟩
  | _ => ⟨S4x384x224x224, .f32⟩

abbrev hbmTy0_2 (i : Nat) : BufTy := match i % 128 with
  | 0 => ⟨S4x784x64x9, .f32⟩
  | 1 => ⟨S_, .i32⟩
  | 2 => ⟨S_, .f32⟩
  | 3 => ⟨S4x384x30x30, .f32⟩
  | 4 => ⟨S4x384x28x28, .f32⟩
  | 5 => ⟨S4x384x28x28, .f32⟩
  | 6 => ⟨S4x384x28x28, .f32⟩
  | 7 => ⟨S4x384x28x28, .f32⟩
  | 8 => ⟨S4x384x28x28, .f32⟩
  | 9 => ⟨S4x384x28x28, .f32⟩
  | 10 => ⟨S4x384x28x28, .f32⟩
  | 11 => ⟨S4x384x28x28, .f32⟩
  | 12 => ⟨S4x384x28x28, .f32⟩
  | 13 => ⟨S4x384x1x28x28, .f32⟩
  | 14 => ⟨S4x384x1x28x28, .f32⟩
  | 15 => ⟨S4x384x1x28x28, .f32⟩
  | 16 => ⟨S4x384x1x28x28, .f32⟩
  | 17 => ⟨S4x384x1x28x28, .f32⟩
  | 18 => ⟨S4x384x1x28x28, .f32⟩
  | 19 => ⟨S4x384x1x28x28, .f32⟩
  | 20 => ⟨S4x384x1x28x28, .f32⟩
  | 21 => ⟨S4x384x1x28x28, .f32⟩
  | 22 => ⟨S4x384x9x28x28, .f32⟩
  | 23 => ⟨S4x28x28x384x9, .f32⟩
  | 24 => ⟨S4x784x384x9, .f32⟩
  | 25 => ⟨S4x784x384x64, .f32⟩
  | 26 => ⟨S4x28x28x384x8x8, .f32⟩
  | 27 => ⟨S4x384x28x8x28x8, .f32⟩
  | 28 => ⟨S4x384x224x224, .f32⟩
  | _ => ⟨S4x384x224x224, .f32⟩

abbrev hbmTy (i : Nat) : BufTy := match i / 128 with
  | 0 => hbmTy0_0 i
  | 1 => hbmTy0_1 i
  | 2 => hbmTy0_2 i
  | _ => ⟨S4x384x224x224, .f32⟩

abbrev bufTy : (tb : Table) → Fin (tcTables nBuf tb) → BufTy
  | .hbm, ⟨i, _⟩ => hbmTy i
  | _, _ => ⟨S4x384x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_1 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_c_6 : Ref sig .tc := ⟨.hbm, 58, rfl⟩
abbrev main_v48 : Ref sig .tc := ⟨.hbm, 59, rfl⟩
abbrev main_c_7 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_c_8 : Ref sig .tc := ⟨.hbm, 66, rfl⟩
abbrev main_v54 : Ref sig .tc := ⟨.hbm, 67, rfl⟩
abbrev main_c_9 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_c_10 : Ref sig .tc := ⟨.hbm, 74, rfl⟩
abbrev main_v60 : Ref sig .tc := ⟨.hbm, 75, rfl⟩
abbrev main_c_11 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_c_12 : Ref sig .tc := ⟨.hbm, 82, rfl⟩
abbrev main_v66 : Ref sig .tc := ⟨.hbm, 83, rfl⟩
abbrev main_c_13 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_c_14 : Ref sig .tc := ⟨.hbm, 90, rfl⟩
abbrev main_v72 : Ref sig .tc := ⟨.hbm, 91, rfl⟩
abbrev main_c_15 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_c_16 : Ref sig .tc := ⟨.hbm, 98, rfl⟩
abbrev main_v78 : Ref sig .tc := ⟨.hbm, 99, rfl⟩
abbrev main_c_17 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_c_18 : Ref sig .tc := ⟨.hbm, 106, rfl⟩
abbrev main_v84 : Ref sig .tc := ⟨.hbm, 107, rfl⟩
abbrev main_c_19 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_c_20 : Ref sig .tc := ⟨.hbm, 114, rfl⟩
abbrev main_v90 : Ref sig .tc := ⟨.hbm, 115, rfl⟩
abbrev main_c_21 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_c_22 : Ref sig .tc := ⟨.hbm, 122, rfl⟩
abbrev main_v96 : Ref sig .tc := ⟨.hbm, 123, rfl⟩
abbrev main_c_23 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_24 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_25 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_c_26 : Ref sig .tc := ⟨.hbm, 138, rfl⟩
abbrev main_v108 : Ref sig .tc := ⟨.hbm, 139, rfl⟩
abbrev main_c_27 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_c_28 : Ref sig .tc := ⟨.hbm, 146, rfl⟩
abbrev main_v114 : Ref sig .tc := ⟨.hbm, 147, rfl⟩
abbrev main_c_29 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_c_30 : Ref sig .tc := ⟨.hbm, 154, rfl⟩
abbrev main_v120 : Ref sig .tc := ⟨.hbm, 155, rfl⟩
abbrev main_c_31 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_c_32 : Ref sig .tc := ⟨.hbm, 162, rfl⟩
abbrev main_v126 : Ref sig .tc := ⟨.hbm, 163, rfl⟩
abbrev main_c_33 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_c_34 : Ref sig .tc := ⟨.hbm, 170, rfl⟩
abbrev main_v132 : Ref sig .tc := ⟨.hbm, 171, rfl⟩
abbrev main_c_35 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_c_36 : Ref sig .tc := ⟨.hbm, 178, rfl⟩
abbrev main_v138 : Ref sig .tc := ⟨.hbm, 179, rfl⟩
abbrev main_c_37 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_c_38 : Ref sig .tc := ⟨.hbm, 186, rfl⟩
abbrev main_v144 : Ref sig .tc := ⟨.hbm, 187, rfl⟩
abbrev main_c_39 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_c_40 : Ref sig .tc := ⟨.hbm, 194, rfl⟩
abbrev main_v150 : Ref sig .tc := ⟨.hbm, 195, rfl⟩
abbrev main_c_41 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_c_42 : Ref sig .tc := ⟨.hbm, 202, rfl⟩
abbrev main_v156 : Ref sig .tc := ⟨.hbm, 203, rfl⟩
abbrev main_c_43 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_cst_44 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_c_45 : Ref sig .tc := ⟨.hbm, 215, rfl⟩
abbrev main_call1_v0 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_cst_46 : Ref sig .tc := ⟨.hbm, 240, rfl⟩
abbrev main_v189 : Ref sig .tc := ⟨.hbm, 241, rfl⟩
abbrev main_v190 : Ref sig .tc := ⟨.hbm, 242, rfl⟩
abbrev main_cst_47 : Ref sig .tc := ⟨.hbm, 243, rfl⟩
abbrev main_v191 : Ref sig .tc := ⟨.hbm, 244, rfl⟩
abbrev main_cst_48 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_cst_49 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_c_50 : Ref sig .tc := ⟨.hbm, 257, rfl⟩
abbrev main_call2_v0 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩

abbrev nD : Nat := 1
abbrev τ : Topo := Topo.v7x

variable {F : FTy → Type} [FloatOps F]

class Facts₀ : Prop where
  shapeCasts_S4x384x224x224_S4x384x28x8x28x8 : S4x384x224x224.ShapeCasts S4x384x28x8x28x8
  reducesTo_S4x384x28x8x28x8_S4x384x28x28_d3_5 : S4x384x28x8x28x8.ReducesTo [3, 5] S4x384x28x28
  h_S_ : 0 < S_.numel
  bcast_S_S4x384x28x28 : S_.BroadcastsInDim S4x384x28x28 (![] : Fin 0 → Fin S4x384x28x28.rank)
  transposes_S4x384x28x8x28x8_S4x28x28x8x8x384_0_2_4_3_5_1 : S4x384x28x8x28x8.Transposes [0, 2, 4, 3, 5, 1] S4x28x28x8x8x384
  shapeCasts_S4x28x28x8x8x384_S4x784x64x384 : S4x28x28x8x8x384.ShapeCasts S4x784x64x384
  pads_S4x384x28x28_S4x384x30x30_000_000_110_110 : S4x384x28x28.Pads (![0, 0, 1, 1] : Fin 4 → Nat) ![0, 0, 1, 1] ![0, 0, 0, 0] S4x384x30x30
  slices_S4x384x30x30_S4x384x28x28_0_0_0_0 : S4x384x30x30.Slices ![0, 0, 0, 0] S4x384x28x28
  slices_S4x384x30x30_S4x384x28x28_0_0_0_1 : S4x384x30x30.Slices ![0, 0, 0, 1] S4x384x28x28
  slices_S4x384x30x30_S4x384x28x28_0_0_0_2 : S4x384x30x30.Slices ![0, 0, 0, 2] S4x384x28x28
  slices_S4x384x30x30_S4x384x28x28_0_0_1_0 : S4x384x30x30.Slices ![0, 0, 1, 0] S4x384x28x28
  slices_S4x384x30x30_S4x384x28x28_0_0_1_1 : S4x384x30x30.Slices ![0, 0, 1, 1] S4x384x28x28
  slices_S4x384x30x30_S4x384x28x28_0_0_1_2 : S4x384x30x30.Slices ![0, 0, 1, 2] S4x384x28x28
  slices_S4x384x30x30_S4x384x28x28_0_0_2_0 : S4x384x30x30.Slices ![0, 0, 2, 0] S4x384x28x28
  slices_S4x384x30x30_S4x384x28x28_0_0_2_1 : S4x384x30x30.Slices ![0, 0, 2, 1] S4x384x28x28
  slices_S4x384x30x30_S4x384x28x28_0_0_2_2 : S4x384x30x30.Slices ![0, 0, 2, 2] S4x384x28x28
  bcast_S4x384x28x28_S4x384x1x28x28_0_1_3_4 : S4x384x28x28.BroadcastsInDim S4x384x1x28x28 (![0, 1, 3, 4] : Fin 4 → Fin S4x384x1x28x28.rank)
  concatenates_S4x384x1x28x28_S4x384x1x28x28_S4x384x1x28x28_S4x384x1x28x28_S4x384x1x28x28_S4x384x1x28x28_S4x384x1x28x28_S4x384x1x28x28_S4x384x1x28x28_S4x384x9x28x28_d2 : Shape.Concatenates [S4x384x1x28x28, S4x384x1x28x28, S4x384x1x28x28, S4x384x1x28x28, S4x384x1x28x28, S4x384x1x28x28, S4x384x1x28x28, S4x384x1x28x28, S4x384x1x28x28] S4x384x9x28x28 2
  transposes_S4x384x9x28x28_S4x28x28x384x9_0_3_4_1_2 : S4x384x9x28x28.Transposes [0, 3, 4, 1, 2] S4x28x28x384x9
  shapeCasts_S4x28x28x384x9_S4x784x384x9 : S4x28x28x384x9.ShapeCasts S4x784x384x9
  bcast_S_S4x784x64x9 : S_.BroadcastsInDim S4x784x64x9 (![] : Fin 0 → Fin S4x784x64x9.rank)
  reducesTo_S4x784x64x9_S4x784x64_d3 : S4x784x64x9.ReducesTo [3] S4x784x64
  bcast_S_S4x784x64 : S_.BroadcastsInDim S4x784x64 (![] : Fin 0 → Fin S4x784x64.rank)
  bcast_S4x784x64_S4x784x64x1_0_1_2 : S4x784x64.BroadcastsInDim S4x784x64x1 (![0, 1, 2] : Fin 3 → Fin S4x784x64x1.rank)
  bcast_S4x784x64x1_S4x784x64x9_0_1_2_3 : S4x784x64x1.BroadcastsInDim S4x784x64x9 (![0, 1, 2, 3] : Fin 4 → Fin S4x784x64x9.rank)
  transposes_S4x784x384x9_S4x384x9x784_0_2_3_1 : S4x784x384x9.Transposes [0, 2, 3, 1] S4x384x9x784
  shapeCasts_S4x384x9x784_S1536x9x28x28 : S4x384x9x784.ShapeCasts S1536x9x28x28
  bcast_S_S1536x30x30 : S_.BroadcastsInDim S1536x30x30 (![] : Fin 0 → Fin S1536x30x30.rank)
  slices_S1536x9x28x28_S1536x1x28x28_0_0_0_0 : S1536x9x28x28.Slices ![0, 0, 0, 0] S1536x1x28x28
  shapeCasts_S1536x1x28x28_S1536x28x28 : S1536x1x28x28.ShapeCasts S1536x28x28
  bcast_S_S1 : S_.BroadcastsInDim S1 (![] : Fin 0 → Fin S1.rank)
  concatenates_S1_S1_S2_d0 : Shape.Concatenates [S1, S1] S2 0
  slices_S1536x9x28x28_S1536x1x28x28_0_1_0_0 : S1536x9x28x28.Slices ![0, 1, 0, 0] S1536x1x28x28
  slices_S1536x9x28x28_S1536x1x28x28_0_2_0_0 : S1536x9x28x28.Slices ![0, 2, 0, 0] S1536x1x28x28
  slices_S1536x9x28x28_S1536x1x28x28_0_3_0_0 : S1536x9x28x28.Slices ![0, 3, 0, 0] S1536x1x28x28
  slices_S1536x9x28x28_S1536x1x28x28_0_4_0_0 : S1536x9x28x28.Slices ![0, 4, 0, 0] S1536x1x28x28
  slices_S1536x9x28x28_S1536x1x28x28_0_5_0_0 : S1536x9x28x28.Slices ![0, 5, 0, 0] S1536x1x28x28
  slices_S1536x9x28x28_S1536x1x28x28_0_6_0_0 : S1536x9x28x28.Slices ![0, 6, 0, 0] S1536x1x28x28
  slices_S1536x9x28x28_S1536x1x28x28_0_7_0_0 : S1536x9x28x28.Slices ![0, 7, 0, 0] S1536x1x28x28
  slices_S1536x9x28x28_S1536x1x28x28_0_8_0_0 : S1536x9x28x28.Slices ![0, 8, 0, 0] S1536x1x28x28
  slices_S1536x30x30_S1536x28x28_0_1_1 : S1536x30x30.Slices ![0, 1, 1] S1536x28x28
  shapeCasts_S1536x28x28_S4x384x28x28 : S1536x28x28.ShapeCasts S4x384x28x28
  reducesTo_S4x784x64x9_S4x784x9_d2 : S4x784x64x9.ReducesTo [2] S4x784x9
  transposes_S4x784x9_S4x9x784_0_2_1 : S4x784x9.Transposes [0, 2, 1] S4x9x784
  shapeCasts_S4x9x784_S4x9x28x28 : S4x9x784.ShapeCasts S4x9x28x28
  bcast_S_S4x30x30 : S_.BroadcastsInDim S4x30x30 (![] : Fin 0 → Fin S4x30x30.rank)
  slices_S4x9x28x28_S4x1x28x28_0_0_0_0 : S4x9x28x28.Slices ![0, 0, 0, 0] S4x1x28x28
  shapeCasts_S4x1x28x28_S4x28x28 : S4x1x28x28.ShapeCasts S4x28x28
  slices_S4x9x28x28_S4x1x28x28_0_1_0_0 : S4x9x28x28.Slices ![0, 1, 0, 0] S4x1x28x28
  slices_S4x9x28x28_S4x1x28x28_0_2_0_0 : S4x9x28x28.Slices ![0, 2, 0, 0] S4x1x28x28
  slices_S4x9x28x28_S4x1x28x28_0_3_0_0 : S4x9x28x28.Slices ![0, 3, 0, 0] S4x1x28x28
  slices_S4x9x28x28_S4x1x28x28_0_4_0_0 : S4x9x28x28.Slices ![0, 4, 0, 0] S4x1x28x28
  slices_S4x9x28x28_S4x1x28x28_0_5_0_0 : S4x9x28x28.Slices ![0, 5, 0, 0] S4x1x28x28
  slices_S4x9x28x28_S4x1x28x28_0_6_0_0 : S4x9x28x28.Slices ![0, 6, 0, 0] S4x1x28x28
  slices_S4x9x28x28_S4x1x28x28_0_7_0_0 : S4x9x28x28.Slices ![0, 7, 0, 0] S4x1x28x28
  slices_S4x9x28x28_S4x1x28x28_0_8_0_0 : S4x9x28x28.Slices ![0, 8, 0, 0] S4x1x28x28
  slices_S4x30x30_S4x28x28_0_1_1 : S4x30x30.Slices ![0, 1, 1] S4x28x28
  bcast_S_S4x28x28 : S_.BroadcastsInDim S4x28x28 (![] : Fin 0 → Fin S4x28x28.rank)
  bcast_S4x28x28_S4x1x28x28_0_2_3 : S4x28x28.BroadcastsInDim S4x1x28x28 (![0, 2, 3] : Fin 3 → Fin S4x1x28x28.rank)
  bcast_S4x1x28x28_S4x384x28x28_0_1_2_3 : S4x1x28x28.BroadcastsInDim S4x384x28x28 (![0, 1, 2, 3] : Fin 4 → Fin S4x384x28x28.rank)
  shapeCasts_S4x784x384x64_S4x28x28x384x8x8 : S4x784x384x64.ShapeCasts S4x28x28x384x8x8
  transposes_S4x28x28x384x8x8_S4x384x28x8x28x8_0_3_1_4_2_5 : S4x28x28x384x8x8.Transposes [0, 3, 1, 4, 2, 5] S4x384x28x8x28x8
  shapeCasts_S4x384x28x8x28x8_S4x384x224x224 : S4x384x28x8x28x8.ShapeCasts S4x384x224x224
  dot_S4x784x64x384_S4x784x384x9_S4x784x64x9_3_2_2_3_01_01_wf : DotDims.WF S4x784x64x384 S4x784x384x9 S4x784x64x9 [3] [2] [2] [3] [0, 1] [0, 1]
  dot_S4x784x64x384_S4x784x64x9_S4x784x384x9_2_2_3_3_01_01_wf : DotDims.WF S4x784x64x384 S4x784x64x9 S4x784x384x9 [2] [2] [3] [3] [0, 1] [0, 1]
  scatter_S1536x30x30_S2_S1536x28x28_012_n_12_0_wf : ScatterDims.WF S1536x30x30 S2 S1536x28x28 [0, 1, 2] [] [1, 2] 0
  scatter_S4x30x30_S2_S4x28x28_012_n_12_0_wf : ScatterDims.WF S4x30x30 S2 S4x28x28 [0, 1, 2] [] [1, 2] 0
  dot_S4x784x384x9_S4x784x64x9_S4x784x384x64_3_3_2_2_01_01_wf : DotDims.WF S4x784x384x9 S4x784x64x9 S4x784x384x64 [3] [3] [2] [2] [0, 1] [0, 1]

variable [Facts₀]

def dot_S4x784x64x384_S4x784x384x9_S4x784x64x9_3_2_2_3_01_01 : DotDims S4x784x64x384 S4x784x384x9 S4x784x64x9 where
  lhsContracting := [3]
  rhsContracting := [2]
  lhsNonContracting := [2]
  rhsNonContracting := [3]
  lhsBatch := [0, 1]
  rhsBatch := [0, 1]
  wf := dot_S4x784x64x384_S4x784x384x9_S4x784x64x9_3_2_2_3_01_01_wf
def dot_S4x784x64x384_S4x784x64x9_S4x784x384x9_2_2_3_3_01_01 : DotDims S4x784x64x384 S4x784x64x9 S4x784x384x9 where
  lhsContracting := [2]
  rhsContracting := [2]
  lhsNonContracting := [3]
  rhsNonContracting := [3]
  lhsBatch := [0, 1]
  rhsBatch := [0, 1]
  wf := dot_S4x784x64x384_S4x784x64x9_S4x784x384x9_2_2_3_3_01_01_wf
def scatter_S1536x30x30_S2_S1536x28x28_012_n_12_0 : ScatterDims S1536x30x30 S2 S1536x28x28 where
  updateWindowDims := [0, 1, 2]
  insertedWindowDims := []
  scatterDimsToOperandDims := [1, 2]
  indexVectorDim := 0
  wf := scatter_S1536x30x30_S2_S1536x28x28_012_n_12_0_wf
def scatter_S4x30x30_S2_S4x28x28_012_n_12_0 : ScatterDims S4x30x30 S2 S4x28x28 where
  updateWindowDims := [0, 1, 2]
  insertedWindowDims := []
  scatterDimsToOperandDims := [1, 2]
  indexVectorDim := 0
  wf := scatter_S4x30x30_S2_S4x28x28_012_n_12_0_wf
def dot_S4x784x384x9_S4x784x64x9_S4x784x384x64_3_3_2_2_01_01 : DotDims S4x784x384x9 S4x784x64x9 S4x784x384x64 where
  lhsContracting := [3]
  rhsContracting := [3]
  lhsNonContracting := [2]
  rhsNonContracting := [2]
  lhsBatch := [0, 1]
  rhsBatch := [0, 1]
  wf := dot_S4x784x384x9_S4x784x64x9_S4x784x384x64_3_3_2_2_01_01_wf

class Facts : Prop extends Facts₀ where

variable [Facts]
-- ==== Proof.KB.Reg0.lean ====
/-
  The first pallas_call (affinity and refinement), as one region of @main, at any float instance.
  Its grid is 4 × 7; at point (b, j) the pipeline stages block (b, j) — 112 patches — of the pixel array
  [4, 784, 64, 384] and of the neighbour super-token array [4, 784, 384, 9], the body reads both blocks whole, and
  it overwrites block (b, j) of the contribution array [4, 784, 384, 9] and of the weight-sum array [4, 784, 9].
  Stated here: each window's block, what each output's staging buffer holds after the body (one store covering the
  buffer, its value the body's arithmetic as one pure function of the two input blocks), the body's triple in the
  program logic, the pipeline's proof data and the per-point obligation the launch theorem asks for.
-/
import proofs.«179015_j72035191488647_1_alg».proof.Proof.Gen.Kernel.Launch
import proofs.«179015_j72035191488647_1_alg».proof.Proof.Gen.Kernel.Skeleton
import proofs.«179015_j72035191488647_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## Blocks -/

/-- Block `t` of window `w`'s array, as the region finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its array's block at every point: the window is fetched whole at each point and the body leaves it as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its array's block at every point: the window is fetched whole at each point and the body leaves it as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

abbrev r0_0 : Rect S1x112x64x384 := Rect.unit (s := S1x112x64x384) ![0, 0, 0, 0] S1x112x64x384.size inb_S1x112x64x384_S1x112x64x384_0_0_0_0
abbrev r0_1 : Rect S1x112x384x9 := Rect.unit (s := S1x112x384x9) ![0, 0, 0, 0] S1x112x384x9.size inb_S1x112x384x9_S1x112x384x9_0_0_0_0
abbrev r0_2 : Rect S1x112x384x9 := Rect.unit (s := S1x112x384x9) ![0, 0, 0, 0] S1x112x384x9.size inb_S1x112x384x9_S1x112x384x9_0_0_0_0
abbrev r0_3 : Rect S1x112x9 := Rect.unit (s := S1x112x9) ![0, 0, 0] S1x112x9.size inb_S1x112x9_S1x112x9_0_0_0

/-! ## What the body leaves in each output buffer -/

/-- Output window 2's staging buffer after the body: its one store covers the buffer, and the stored value is the payload `k0_pay3` of the two input blocks. -/
def out0_2 (x0 : Vec F S1x112x64x384 .f32) (x1 : Vec F S1x112x384x9 .f32) : Vec F S1x112x384x9 .f32 :=
  View.canon [⟨r0_2, k0_pay3 (View.ld x0 r0_0) (View.ld x1 r0_1)⟩]

theorem cover0_2 (p0 : Vec F S1x112x384x9 .f32) (y : S1x112x384x9.Idx) :
    ∃ pc ∈ ([⟨r0_2, p0⟩] : List (View.Piece (Elt F) S1x112x384x9 .f32)), y ∈ pc.1.set :=
  View.cover_of_tiled [⟨r0_2, p0⟩] S1x112x384x9.size (by rfl) y

/-- Output window 3's staging buffer after the body: its one store covers the buffer, and the stored value is the payload `k0_pay4` of the two input blocks. -/
def out0_3 (x0 : Vec F S1x112x64x384 .f32) (x1 : Vec F S1x112x384x9 .f32) : Vec F S1x112x9 .f32 :=
  View.canon [⟨r0_3, k0_pay4 (View.ld x0 r0_0) (View.ld x1 r0_1)⟩]

theorem cover0_3 (p0 : Vec F S1x112x9 .f32) (y : S1x112x9.Idx) :
    ∃ pc ∈ ([⟨r0_3, p0⟩] : List (View.Piece (Elt F) S1x112x9 .f32)), y ∈ pc.1.set :=
  View.cover_of_tiled [⟨r0_3, p0⟩] S1x112x9.size (by rfl) y

/-! ## The body's triple -/

set_option maxHeartbeats 4000000 in
/-- The body on whole staging buffers — the inputs' at contents `x0`, `x1`, the outputs' at anything — runs to its end without a fault, leaves the inputs' as they were and each output's at its payload of the inputs. The loads of the output buffers that the body makes before storing are dead: nothing reads their values. -/
theorem sound_kernel0 (c : Dev nD) (E : Set ℕ) (i : grid0.Coords) (arg2 : Memref sig .tc .vmem S1x112x64x384 .f32) (harg2 : arg2.IsWhole) (arg3 : Memref sig .tc .vmem S1x112x384x9 .f32) (harg3 : arg3.IsWhole) (arg4 : Memref sig .tc .vmem S1x112x384x9 .f32) (harg4 : arg4.IsWhole) (arg5 : Memref sig .tc .vmem S1x112x9 .f32) (harg5 : arg5.IsWhole)
    (x0 : Vec F S1x112x64x384 .f32) (x1 : Vec F S1x112x384x9 .f32) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (out0_2 x0 x1) ∗ owns (c : Thread nD τ) arg5 fullShare (out0_3 x0 x1)) -∗ K ⟨⟩))
      ⊢ wp frame (wpE (defs₀ (F := F)) Variants.none c none) E (cc0__affinity_refine_kernel i arg2 harg2 arg3 harg3 arg4 harg4 arg5 harg5) K := by
  simp only [cc0__affinity_refine_kernel_eq_skeleton]; unfold cc0__affinity_refine_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The pipeline's proof data -/

/-- The arrays as the region finds them; after the body at point `t` an input's buffer still holds its block and an output's holds its payload of the two input blocks; the invariant is the scoped rest and the generator register, which the body does not touch; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1.lean ====
/-
  The second pallas_call (affinity only), as one region of @main, at any float instance.
  Its grid is 4 × 7; at point (b, j) the pipeline stages block (b, j) — 112 patches — of the pixel array
  [4, 784, 64, 384] and of the refined neighbour super-token array [4, 784, 384, 9], the body reads both blocks whole
  and overwrites block (b, j) of the affinity array [4, 784, 64, 9].
  Stated here: each window's block, what the output's staging buffer holds after the body (one store covering the
  buffer, its value the body's arithmetic as one pure function of the two input blocks), the body's triple in the
  program logic, the pipeline's proof data and the per-point obligation the launch theorem asks for.
-/
import proofs.«179015_j72035191488647_1_alg».proof.Proof.Gen.Kernel.Launch
import proofs.«179015_j72035191488647_1_alg».proof.Proof.Gen.Kernel.Skeleton
import proofs.«179015_j72035191488647_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## Blocks -/

/-- Block `t` of window `w`'s array, as the region finds the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its array's block at every point: the window is fetched whole at each point and the body leaves it as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its array's block at every point: the window is fetched whole at each point and the body leaves it as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole staging buffer -/

abbrev r1_0 : Rect S1x112x64x384 := Rect.unit (s := S1x112x64x384) ![0, 0, 0, 0] S1x112x64x384.size inb_S1x112x64x384_S1x112x64x384_0_0_0_0
abbrev r1_1 : Rect S1x112x384x9 := Rect.unit (s := S1x112x384x9) ![0, 0, 0, 0] S1x112x384x9.size inb_S1x112x384x9_S1x112x384x9_0_0_0_0
abbrev r1_2 : Rect S1x112x64x9 := Rect.unit (s := S1x112x64x9) ![0, 0, 0, 0] S1x112x64x9.size inb_S1x112x64x9_S1x112x64x9_0_0_0_0

/-! ## What the body leaves in each output buffer -/

/-- Output window 2's staging buffer after the body: its one store covers the buffer, and the stored value is the payload `k1_pay1` of the two input blocks. -/
def out1_2 (x0 : Vec F S1x112x64x384 .f32) (x1 : Vec F S1x112x384x9 .f32) : Vec F S1x112x64x9 .f32 :=
  View.canon [⟨r1_2, k1_pay1 (View.ld x0 r1_0) (View.ld x1 r1_1)⟩]

theorem cover1_2 (p0 : Vec F S1x112x64x9 .f32) (y : S1x112x64x9.Idx) :
    ∃ pc ∈ ([⟨r1_2, p0⟩] : List (View.Piece (Elt F) S1x112x64x9 .f32)), y ∈ pc.1.set :=
  View.cover_of_tiled [⟨r1_2, p0⟩] S1x112x64x9.size (by rfl) y

/-! ## The body's triple -/

set_option maxHeartbeats 4000000 in
/-- The body on whole staging buffers — the inputs' at contents `x0`, `x1`, the outputs' at anything — runs to its end without a fault, leaves the inputs' as they were and each output's at its payload of the inputs. The loads of the output buffers that the body makes before storing are dead: nothing reads their values. -/
theorem sound_kernel1 (c : Dev nD) (E : Set ℕ) (i : grid1.Coords) (arg2 : Memref sig .tc .vmem S1x112x64x384 .f32) (harg2 : arg2.IsWhole) (arg3 : Memref sig .tc .vmem S1x112x384x9 .f32) (harg3 : arg3.IsWhole) (arg4 : Memref sig .tc .vmem S1x112x64x9 .f32) (harg4 : arg4.IsWhole)
    (x0 : Vec F S1x112x64x384 .f32) (x1 : Vec F S1x112x384x9 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__affinity_only_kernel i arg2 harg2 arg3 harg3 arg4 harg4) K := by
  simp only [cc1__affinity_only_kernel_eq_skeleton]; unfold cc1__affinity_only_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The arrays as the region finds them; after the body at point `t` an input's buffer still holds its block and an output's holds its payload of the two input blocks; the invariant is the scoped rest and the generator register, which the body does not touch; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so the body's triple applies; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Reg2.lean ====
/-
  The third pallas_call (super-tokens back to pixels), as one region of @main, at any float instance.
  Its grid is 4 × 7; at point (b, j) the pipeline stages block (b, j) — 112 patches — of the refined neighbour
  super-token array [4, 784, 384, 9] and of the affinity array [4, 784, 64, 9], the body reads both blocks whole and
  overwrites block (b, j) of the result array [4, 784, 384, 64].
  Stated here: each window's block, what the output's staging buffer holds after the body (one store covering the
  buffer, its value the body's arithmetic as one pure function of the two input blocks), the body's triple in the
  program logic, the pipeline's proof data and the per-point obligation the launch theorem asks for.
-/
import proofs.«179015_j72035191488647_1_alg».proof.Proof.Gen.Kernel.Launch
import proofs.«179015_j72035191488647_1_alg».proof.Proof.Gen.Kernel.Skeleton
import proofs.«179015_j72035191488647_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## Blocks -/

/-- Block `t` of window `w`'s array, as the region finds the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its array's block at every point: the window is fetched whole at each point and the body leaves it as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its array's block at every point: the window is fetched whole at each point and the body leaves it as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole staging buffer -/

abbrev r2_0 : Rect S1x112x384x9 := Rect.unit (s := S1x112x384x9) ![0, 0, 0, 0] S1x112x384x9.size inb_S1x112x384x9_S1x112x384x9_0_0_0_0
abbrev r2_1 : Rect S1x112x64x9 := Rect.unit (s := S1x112x64x9) ![0, 0, 0, 0] S1x112x64x9.size inb_S1x112x64x9_S1x112x64x9_0_0_0_0
abbrev r2_2 : Rect S1x112x384x64 := Rect.unit (s := S1x112x384x64) ![0, 0, 0, 0] S1x112x384x64.size inb_S1x112x384x64_S1x112x384x64_0_0_0_0

/-! ## What the body leaves in each output buffer -/

/-- Output window 2's staging buffer after the body: its one store covers the buffer, and the stored value is the payload `k2_pay1` of the two input blocks. -/
def out2_2 (x0 : Vec F S1x112x384x9 .f32) (x1 : Vec F S1x112x64x9 .f32) : Vec F S1x112x384x64 .f32 :=
  View.canon [⟨r2_2, k2_pay1 (View.ld x0 r2_0) (View.ld x1 r2_1)⟩]

theorem cover2_2 (p0 : Vec F S1x112x384x64 .f32) (y : S1x112x384x64.Idx) :
    ∃ pc ∈ ([⟨r2_2, p0⟩] : List (View.Piece (Elt F) S1x112x384x64 .f32)), y ∈ pc.1.set :=
  View.cover_of_tiled [⟨r2_2, p0⟩] S1x112x384x64.size (by rfl) y

/-! ## The body's triple -/

set_option maxHeartbeats 4000000 in
/-- The body on whole staging buffers — the inputs' at contents `x0`, `x1`, the outputs' at anything — runs to its end without a fault, leaves the inputs' as they were and each output's at its payload of the inputs. The loads of the output buffers that the body makes before storing are dead: nothing reads their values. -/
theorem sound_kernel2 (c : Dev nD) (E : Set ℕ) (i : grid2.Coords) (arg2 : Memref sig .tc .vmem S1x112x384x9 .f32) (harg2 : arg2.IsWhole) (arg3 : Memref sig .tc .vmem S1x112x64x9 .f32) (harg3 : arg3.IsWhole) (arg4 : Memref sig .tc .vmem S1x112x384x64 .f32) (harg4 : arg4.IsWhole)
    (x0 : Vec F S1x112x384x9 .f32) (x1 : Vec F S1x112x64x9 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__final_kernel i arg2 harg2 arg3 harg3 arg4 harg4) K := by
  simp only [cc2__final_kernel_eq_skeleton]; unfold cc2__final_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The arrays as the region finds them; after the body at point `t` an input's buffer still holds its block and an output's holds its payload of the two input blocks; the invariant is the scoped rest and the generator register, which the body does not touch; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input buffers hold their blocks, so the body's triple applies; the invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Run.lean ====
/-
  @main of the kernel program as a run, at any float instance: thirteen items in order — three host stretches (the patch
  view of the input, the pooled super-tokens, their 3×3 neighbourhoods), the first pallas_call, six host stretches (the
  two scatter-add folds, the normalisation, the refined super-tokens' neighbourhoods), the second and the third
  pallas_call, and the closing stretch that lays the result out as an image. The long stretch between the first two
  calls is taken in the four pieces in which @main's text is printed, so that no piece has more than sixty operations.
  `W j c` is what core `c`'s unscoped buffers hold after the first `j` items: a host stretch rewrites the buffers its
  operations write and leaves the rest; a pallas_call leaves each of its windows' arrays at what the pipeline's
  write-backs make of it and every other buffer as it was. The run theorem says every weakly fair execution terminates
  without a fault with every unscoped buffer at `W 13`; that the argument array is never written, so ends as launched,
  is the frame.
-/
import proofs.«179015_j72035191488647_1_alg».proof.Proof.KB.Reg0
import proofs.«179015_j72035191488647_1_alg».proof.Proof.KB.Reg1
import proofs.«179015_j72035191488647_1_alg».proof.Proof.KB.Reg2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents after each item -/

/-- At launch. -/
abbrev W0 : Dev nD → Valuation τ sig (Elt F) := fun c b => (s₀ m ρ).mem ((c : Dev nD), b)
/-- After item 0, the host stretch `main_part0_ops0`. -/
abbrev W1 : Dev nD → Valuation τ sig (Elt F) := fun c => StableHlo.after main_part0_ops0 (W0 m ρ c)
/-- After item 1, the host stretch `main_part0_ops1`. -/
abbrev W2 : Dev nD → Valuation τ sig (Elt F) := fun c => StableHlo.after main_part0_ops1 (W1 m ρ c)
/-- After item 2, the host stretch `main_part0_ops2`. -/
abbrev W3 : Dev nD → Valuation τ sig (Elt F) := fun c => StableHlo.after main_part0_ops2 (W2 m ρ c)
/-- The same read at the TensorCore's references: what pallas_call 0 finds. -/
abbrev V3 : (c : Dev nD) → (b : Ref sig .tc) → Buf (Elt F) ((c : Thread nD τ).loc b) := fun c b => W3 m ρ c b
/-- After item 3, pallas_call 0: its windows' arrays at what the write-backs leave, every other buffer as it was. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After item 4, the host stretch `main_part0_ops3`. -/
abbrev W5 : Dev nD → Valuation τ sig (Elt F) := fun c => StableHlo.after main_part0_ops3 (W4 m ρ c)
/-- After item 5, the host stretch `main_part1_ops0`. -/
abbrev W6 : Dev nD → Valuation τ sig (Elt F) := fun c => StableHlo.after main_part1_ops0 (W5 m ρ c)
/-- After item 6, the host stretch `main_part2_ops0`. -/
abbrev W7 : Dev nD → Valuation τ sig (Elt F) := fun c => StableHlo.after main_part2_ops0 (W6 m ρ c)
/-- After item 7, the host stretch `main_part3_ops0`. -/
abbrev W8 : Dev nD → Valuation τ sig (Elt F) := fun c => StableHlo.after main_part3_ops0 (W7 m ρ c)
/-- After item 8, the host stretch `main_part3_ops1`. -/
abbrev W9 : Dev nD → Valuation τ sig (Elt F) := fun c => StableHlo.after main_part3_ops1 (W8 m ρ c)
/-- After item 9, the host stretch `main_part3_ops2`. -/
abbrev W10 : Dev nD → Valuation τ sig (Elt F) := fun c => StableHlo.after main_part3_ops2 (W9 m ρ c)
/-- The same read at the TensorCore's references: what pallas_call 1 finds. -/
abbrev V10 : (c : Dev nD) → (b : Ref sig .tc) → Buf (Elt F) ((c : Thread nD τ).loc b) := fun c b => W10 m ρ c b
/-- After item 10, pallas_call 1: its windows' arrays at what the write-backs leave, every other buffer as it was. -/
def W11 (c : Dev nD) : Valuation τ sig (Elt F) :=
  Pipeline.withArrays spec1 c (W10 m ρ c) fun w => (dat1 (V10 m ρ) c).arrAt w cfg1.N
theorem W11_arr (c : Dev nD) (w : Fin cfg1.W) :
    W11 m ρ c (Proc.devRef .tc (Pipeline.arrRef spec1 w)) = (dat1 (V10 m ρ) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m ρ c (Proc.devRef .tc b) = W10 m ρ c (Proc.devRef .tc b) := by
  unfold W11; exact Pipeline.withArrays_of_ne spec1 c _ _ b hb
abbrev V11 : (c : Dev nD) → (b : Ref sig .tc) → Buf (Elt F) ((c : Thread nD τ).loc b) := fun c b => W11 m ρ c b
theorem hF1 (c : Dev nD) (w : Fin cfg1.W) : (dat1 (V10 m ρ) c).arrAt w cfg1.N = V11 m ρ c (Pipeline.arrRef spec1 w) :=
  (W11_arr m ρ c w).symm
theorem hrest1 (c : Dev nD) : ∀ b, b ∉ Finset.univ.image (Pipeline.arrRef spec1) → V11 m ρ c b = V10 m ρ c b :=
  fun b hb => W11_of_ne m ρ c b fun w e => hb (Finset.mem_image.mpr ⟨w, Finset.mem_univ _, e⟩)
/-- After item 11, pallas_call 2: its windows' arrays at what the write-backs leave, every other buffer as it was. -/
def W12 (c : Dev nD) : Valuation τ sig (Elt F) :=
  Pipeline.withArrays spec2 c (W11 m ρ c) fun w => (dat2 (V11 m ρ) c).arrAt w cfg2.N
theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
abbrev V12 : (c : Dev nD) → (b : Ref sig .tc) → Buf (Elt F) ((c : Thread nD τ).loc b) := fun c b => W12 m ρ c b
theorem hF2 (c : Dev nD) (w : Fin cfg2.W) : (dat2 (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)
/-- After item 12, the host stretch `main_part3_ops3`. -/
abbrev W13 : Dev nD → Valuation τ sig (Elt F) := fun c => StableHlo.after main_part3_ops3 (W12 m ρ c)

/-! ## What each host stretch writes, and that it allocates nothing -/

theorem main_part0_ops0_fresh : (main_part0_ops0 : List (HloOp τ sig (Elt F))).Forall fun op => op.fresh = ∅ := by
  simp only [List.Forall]; repeat' constructor
/-- The references `main_part0_ops0`'s operations write. -/
abbrev main_part0_ops0_W : List (Ref sig .tc) := [main_v0, main_cst, main_v1, main_cst_0, main_v2, main_v3, main_v4, main_v5, main_c]
theorem main_part0_ops0_writes : (main_part0_ops0 : List (HloOp τ sig (Elt F))).Forall fun op => op.writes ⊆ (main_part0_ops0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  refine ⟨?_, ?_, ?_, ?_, ?_, ?_, ?_, ?_, ?_⟩ <;> exact List.mem_map_of_mem (by decide)
/-- A reference the stretch does not write keeps its contents across item 0. -/
theorem W1_of (c : Dev nD) (r : Ref sig .tc) (h : r ∉ main_part0_ops0_W) : W1 m ρ c (Proc.devRef .tc r) = W0 m ρ c (Proc.devRef .tc r) :=
  StableHlo.after_of_writes_sub main_part0_ops0 _ main_part0_ops0_writes h

theorem main_part0_ops1_fresh : (main_part0_ops1 : List (HloOp τ sig (Elt F))).Forall fun op => op.fresh = ∅ := by
  simp only [List.Forall]; repeat' constructor
/-- The references `main_part0_ops1`'s operations write. -/
abbrev main_part0_ops1_W : List (Ref sig .tc) := [main_call0_v0, main_v6]
theorem main_part0_ops1_writes : (main_part0_ops1 : List (HloOp τ sig (Elt F))).Forall fun op => op.writes ⊆ (main_part0_ops1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  refine ⟨?_, ?_⟩ <;> exact List.mem_map_of_mem (by decide)
/-- A reference the stretch does not write keeps its contents across item 1. -/
theorem W2_of (c : Dev nD) (r : Ref sig .tc) (h : r ∉ main_part0_ops1_W) : W2 m ρ c (Proc.devRef .tc r) = W1 m ρ c (Proc.devRef .tc r) :=
  StableHlo.after_of_writes_sub main_part0_ops1 _ main_part0_ops1_writes h

theorem main_part0_ops2_fresh : (main_part0_ops2 : List (HloOp τ sig (Elt F))).Forall fun op => op.fresh = ∅ := by
  simp only [List.Forall]; repeat' constructor
/-- The references `main_part0_ops2`'s operations write. -/
abbrev main_part0_ops2_W : List (Ref sig .tc) := [main_v7, main_v8, main_v9, main_v10, main_v11, main_v12, main_v13, main_v14, main_v15, main_v16, main_v17, main_v18, main_v19, main_v20, main_v21, main_v22, main_v23, main_v24, main_v25, main_v26, main_v27]
theorem main_part0_ops2_writes : (main_part0_ops2 : List (HloOp τ sig (Elt F))).Forall fun op => op.writes ⊆ (main_part0_ops2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  refine ⟨?_, ?_, ?_, ?_, ?_, ?_, ?_, ?_, ?_, ?_, ?_, ?_, ?_, ?_, ?_, ?_, ?_, ?_, ?_, ?_, ?_⟩ <;> exact List.mem_map_of_mem (by decide)
/-- A reference the stretch does not write keeps its contents across item 2. -/
theorem W3_of (c : Dev nD) (r : Ref sig .tc) (h : r ∉ main_part0_ops2_W) : W3 m ρ c (Proc.devRef .tc r) = W2 m ρ c (Proc.devRef .tc r) :=
  StableHlo.after_of_writes_sub main_part0_ops2 _ main_part0_ops2_writes h

theorem main_part0_ops3_fresh : (main_part0_ops3 : List (HloOp τ sig (Elt F))).Forall fun op => op.fresh = ∅ := by
  simp only [List.Forall]; repeat' constructor
/-- The references `main_part0_ops3`'s operations write. -/
abbrev main_part0_ops3_W : List (Ref sig .tc) := [main_v29, main_v30, main_cst_1, main_v31, main_v32, main_v33, main_c_2, main_v34, main_c_3, main_v35, main_v36, main_v37, main_v38, main_v39, main_c_4, main_v40, main_c_5, main_v41, main_v42, main_v43, main_v44, main_v45, main_c_6, main_v46, main_c_7, main_v47, main_v48, main_v49]
theorem main_part0_ops3_writes : (main_part0_ops3 : List (HloOp τ sig (Elt F))).Forall fun op => op.writes ⊆ (main_part0_ops3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)
/-- A reference the stretch does not write keeps its contents across item 4. -/
theorem W5_of (c : Dev nD) (r : Ref sig .tc) (h : r ∉ main_part0_ops3_W) : W5 m ρ c (Proc.devRef .tc r) = W4 m ρ c (Proc.devRef .tc r) :=
  StableHlo.after_of_writes_sub main_part0_ops3 _ main_part0_ops3_writes h

theorem main_part1_ops0_fresh : (main_part1_ops0 : List (HloOp τ sig (Elt F))).Forall fun op => op.fresh = ∅ := by
  simp only [List.Forall]; repeat' constructor
/-- The references `main_part1_ops0`'s operations write. -/
abbrev main_part1_ops0_W : List (Ref sig .tc) := [main_v50, main_v51, main_c_8, main_v52, main_c_9, main_v53, main_v54, main_v55, main_v56, main_v57, main_c_10, main_v58, main_c_11, main_v59, main_v60, main_v61, main_v62, main_v63, main_c_12, main_v64, main_c_13, main_v65, main_v66, main_v67, main_v68, main_v69, main_c_14, main_v70, main_c_15, main_v71, main_v72, main_v73, main_v74, main_v75, main_c_16, main_v76, main_c_17, main_v77, main_v78, main_v79, main_v80, main_v81, main_c_18, main_v82, main_c_19, main_v83, main_v84, main_v85, main_v86, main_v87, main_v88, main_v89, main_cst_20, main_v90, main_v91, main_v92, main_c_21, main_v93, main_c_22, main_v94]
theorem main_part1_ops0_writes : (main_part1_ops0 : List (HloOp τ sig (Elt F))).Forall fun op => op.writes ⊆ (main_part1_ops0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)
/-- A reference the stretch does not write keeps its contents across item 5. -/
theorem W6_of (c : Dev nD) (r : Ref sig .tc) (h : r ∉ main_part1_ops0_W) : W6 m ρ c (Proc.devRef .tc r) = W5 m ρ c (Proc.devRef .tc r) :=
  StableHlo.after_of_writes_sub main_part1_ops0 _ main_part1_ops0_writes h

theorem main_part2_ops0_fresh : (main_part2_ops0 : List (HloOp τ sig (Elt F))).Forall fun op => op.fresh = ∅ := by
  simp only [List.Forall]; repeat' constructor
/-- The references `main_part2_ops0`'s operations write. -/
abbrev main_part2_ops0_W : List (Ref sig .tc) := [main_v95, main_v96, main_v97, main_v98, main_c_23, main_v99, main_c_24, main_v100, main_v101, main_v102, main_v103, main_v104, main_c_25, main_v105, main_c_26, main_v106, main_v107, main_v108, main_v109, main_v110, main_c_27, main_v111, main_c_28, main_v112, main_v113, main_v114, main_v115, main_v116, main_c_29, main_v117, main_c_30, main_v118, main_v119, main_v120, main_v121, main_v122, main_c_31, main_v123, main_c_32, main_v124, main_v125, main_v126, main_v127, main_v128, main_c_33, main_v129, main_c_34, main_v130, main_v131, main_v132, main_v133, main_v134, main_c_35, main_v135, main_c_36, main_v136, main_v137, main_v138, main_v139, main_v140]
theorem main_part2_ops0_writes : (main_part2_ops0 : List (HloOp τ sig (Elt F))).Forall fun op => op.writes ⊆ (main_part2_ops0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)
/-- A reference the stretch does not write keeps its contents across item 6. -/
theorem W7_of (c : Dev nD) (r : Ref sig .tc) (h : r ∉ main_part2_ops0_W) : W7 m ρ c (Proc.devRef .tc r) = W6 m ρ c (Proc.devRef .tc r) :=
  StableHlo.after_of_writes_sub main_part2_ops0 _ main_part2_ops0_writes h

theorem main_part3_ops0_fresh : (main_part3_ops0 : List (HloOp τ sig (Elt F))).Forall fun op => op.fresh = ∅ := by
  simp only [List.Forall]; repeat' constructor
/-- The references `main_part3_ops0`'s operations write. -/
abbrev main_part3_ops0_W : List (Ref sig .tc) := [main_c_37, main_v141, main_c_38, main_v142, main_v143, main_v144, main_v145, main_cst_39, main_v146, main_v147, main_v148, main_v149, main_v150, main_c_40]
theorem main_part3_ops0_writes : (main_part3_ops0 : List (HloOp τ sig (Elt F))).Forall fun op => op.writes ⊆ (main_part3_ops0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  refine ⟨?_, ?_, ?_, ?_, ?_, ?_, ?_, ?_, ?_, ?_, ?_, ?_, ?_, ?_⟩ <;> exact List.mem_map_of_mem (by decide)
/-- A reference the stretch does not write keeps its contents across item 7. -/
theorem W8_of (c : Dev nD) (r : Ref sig .tc) (h : r ∉ main_part3_ops0_W) : W8 m ρ c (Proc.devRef .tc r) = W7 m ρ c (Proc.devRef .tc r) :=
  StableHlo.after_of_writes_sub main_part3_ops0 _ main_part3_ops0_writes h

theorem main_part3_ops1_fresh : (main_part3_ops1 : List (HloOp τ sig (Elt F))).Forall fun op => op.fresh = ∅ := by
  simp only [List.Forall]; repeat' constructor
/-- The references `main_part3_ops1`'s operations write. -/
abbrev main_part3_ops1_W : List (Ref sig .tc) := [main_call1_v0, main_v151]
theorem main_part3_ops1_writes : (main_part3_ops1 : List (HloOp τ sig (Elt F))).Forall fun op => op.writes ⊆ (main_part3_ops1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  refine ⟨?_, ?_⟩ <;> exact List.mem_map_of_mem (by decide)
/-- A reference the stretch does not write keeps its contents across item 8. -/
theorem W9_of (c : Dev nD) (r : Ref sig .tc) (h : r ∉ main_part3_ops1_W) : W9 m ρ c (Proc.devRef .tc r) = W8 m ρ c (Proc.devRef .tc r) :=
  StableHlo.after_of_writes_sub main_part3_ops1 _ main_part3_ops1_writes h

theorem main_part3_ops2_fresh : (main_part3_ops2 : List (HloOp τ sig (Elt F))).Forall fun op => op.fresh = ∅ := by
  simp only [List.Forall]; repeat' constructor
/-- The references `main_part3_ops2`'s operations write. -/
abbrev main_part3_ops2_W : List (Ref sig .tc) := [main_v152, main_v153, main_v154, main_v155, main_v156, main_v157, main_v158, main_v159, main_v160, main_v161, main_v162, main_v163, main_v164, main_v165, main_v166, main_v167, main_v168, main_v169, main_v170, main_v171, main_v172]
theorem main_part3_ops2_writes : (main_part3_ops2 : List (HloOp τ sig (Elt F))).Forall fun op => op.writes ⊆ (main_part3_ops2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  refine ⟨?_, ?_, ?_, ?_, ?_, ?_, ?_, ?_, ?_, ?_, ?_, ?_, ?_, ?_, ?_, ?_, ?_, ?_, ?_, ?_, ?_⟩ <;> exact List.mem_map_of_mem (by decide)
/-- A reference the stretch does not write keeps its contents across item 9. -/
theorem W10_of (c : Dev nD) (r : Ref sig .tc) (h : r ∉ main_part3_ops2_W) : W10 m ρ c (Proc.devRef .tc r) = W9 m ρ c (Proc.devRef .tc r) :=
  StableHlo.after_of_writes_sub main_part3_ops2 _ main_part3_ops2_writes h

theorem main_part3_ops3_fresh : (main_part3_ops3 : List (HloOp τ sig (Elt F))).Forall fun op => op.fresh = ∅ := by
  simp only [List.Forall]; repeat' constructor
/-- The references `main_part3_ops3`'s operations write. -/
abbrev main_part3_ops3_W : List (Ref sig .tc) := [main_v175, main_v176, main_v177]
theorem main_part3_ops3_writes : (main_part3_ops3 : List (HloOp τ sig (Elt F))).Forall fun op => op.writes ⊆ (main_part3_ops3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  refine ⟨?_, ?_, ?_⟩ <;> exact List.mem_map_of_mem (by decide)
/-- A reference the stretch does not write keeps its contents across item 12. -/
theorem W13_of (c : Dev nD) (r : Ref sig .tc) (h : r ∉ main_part3_ops3_W) : W13 m ρ c (Proc.devRef .tc r) = W12 m ρ c (Proc.devRef .tc r) :=
  StableHlo.after_of_writes_sub main_part3_ops3 _ main_part3_ops3_writes h

/-! ## The argument array is never written -/

theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := W13_of m ρ c main_arg0 (by decide)
    _ = W11 m ρ c (Proc.devRef .tc main_arg0) := W12_of_ne m ρ c main_arg0 (by decide)
    _ = W10 m ρ c (Proc.devRef .tc main_arg0) := W11_of_ne m ρ c main_arg0 (by decide)
    _ = W9 m ρ c (Proc.devRef .tc main_arg0) := W10_of m ρ c main_arg0 (by decide)
    _ = W8 m ρ c (Proc.devRef .tc main_arg0) := W9_of m ρ c main_arg0 (by decide)
    _ = W7 m ρ c (Proc.devRef .tc main_arg0) := W8_of m ρ c main_arg0 (by decide)
    _ = W6 m ρ c (Proc.devRef .tc main_arg0) := W7_of m ρ c main_arg0 (by decide)
    _ = W5 m ρ c (Proc.devRef .tc main_arg0) := W6_of m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of m ρ c main_arg0 (by decide)
    _ = W0 m ρ c (Proc.devRef .tc main_arg0) := W1_of m ρ c main_arg0 (by decide)
    _ = m ((c : Thread nD τ).loc main_arg0) := rfl

/-! ## The proof data family and what rides beside the buffers -/

/-- No pallas_call here has a prefetched table. -/
abbrev adm : (p : Fin 3) → (pcfgs (F := F) p).Adm := fun p => (cfgs p).toPCfg_adm
/-- Each pipeline's proof data at the contents its call finds: a literal match on the pipeline's number. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V10 m ρ) c
  | ⟨2, _⟩ => fun c => dat2 (V11 m ρ) c
abbrev 𝒱₀ : Variants := Variants.none
/-- No core owes another anything. -/
abbrev L : GSem nD τ sig → Finset Unit := fun _ => ∅
abbrev lv : GSem nD τ sig → Unit → ℕ := fun _ _ => 0
/-- Beside the buffers every item carries the core's generator register at some state and its dues, at nothing. -/
abbrev R (c : Dev nD) : sProp 𝕄 := iprop((∃ r, prngReg c r) ∗ ∃ W, owes (c : Thread nD τ) (0 : CellTallies nD τ sig Unit) W)
/-- A host stretch as an item: from the unscoped buffers at `W` to them at `StableHlo.after ops (W c)`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the dues: every unscoped buffer at `W13`, the generator register at some state. -/
abbrev Tₙ (c : Dev nD) : sProp 𝕄 := iprop(StableHlo.held (c : Thread nD τ) (Pipeline.ucRefs τ sig) (W13 m ρ c) ∗ ∃ r, prngReg c r)

/-! ## The pallas_calls as items -/

set_option backward.isDefEq.respectTransparency.types false in
/-- pallas_call 0: entered from every unscoped buffer at `W3`, left at `W4`. Its windows' arrays are split out of the unscoped buffers at entry and put back at their final contents at exit; the generator register goes into the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 1: entered from every unscoped buffer at `W10`, left at `W11`. Its windows' arrays are split out of the unscoped buffers at entry and put back at their final contents at exit; the generator register goes into the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V10 m ρ) c).loose
  hwaits := Pipeline.hwaits_of_owed_zero _ _ _ _ L lv 1 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec1 c (V10 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V10 m ρ c) (V11 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 2: entered from every unscoped buffer at `W11`, left at `W12`. Its windows' arrays are split out of the unscoped buffers at entry and put back at their final contents at exit; the generator register goes into the pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m ρ) c).loose
  hwaits := Pipeline.hwaits_of_owed_zero _ _ _ _ L lv 2 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec2 c (V11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V11 m ρ c) (V12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the run -/

abbrev segs : List (Pipeline.Seg (pcfgs (F := F)) adm (pdats m ρ) () defs₀ 𝒱₀ L lv) :=
  [ .host (hseg main_part0_ops0 main_part0_ops0_sub main_part0_ops0_fresh (W0 m ρ)),
    .host (hseg main_part0_ops1 main_part0_ops1_sub main_part0_ops1_fresh (W1 m ρ)),
    .host (hseg main_part0_ops2 main_part0_ops2_sub main_part0_ops2_fresh (W2 m ρ)),
    .region (reg0 m ρ),
    .host (hseg main_part0_ops3 main_part0_ops3_sub main_part0_ops3_fresh (W4 m ρ)),
    .host (hseg main_part1_ops0 main_part1_ops0_sub main_part1_ops0_fresh (W5 m ρ)),
    .host (hseg main_part2_ops0 main_part2_ops0_sub main_part2_ops0_fresh (W6 m ρ)),
    .host (hseg main_part3_ops0 main_part3_ops0_sub main_part3_ops0_fresh (W7 m ρ)),
    .host (hseg main_part3_ops1 main_part3_ops1_sub main_part3_ops1_fresh (W8 m ρ)),
    .host (hseg main_part3_ops2 main_part3_ops2_sub main_part3_ops2_fresh (W9 m ρ)),
    .region (reg1 m ρ),
    .region (reg2 m ρ),
    .host (hseg main_part3_ops3 main_part3_ops3_sub main_part3_ops3_fresh (W12 m ρ)) ]
/-- @main is the run of the items: its text cut at the window boundaries (`main_chain_windows`), then the items' run against that chain by definitional unfolding. -/
theorem main_run (c : Dev nD) : main (F := F) c = Pipeline.Seg.run (segs m ρ) := (main_chain_windows c).trans (by chain_rfl)

set_option backward.isDefEq.respectTransparency.types false in
/-- THE RUN: from any memory with zero counters every weakly fair execution of @main on the TensorCores terminates, nothing faulting, and every final memory has every unscoped buffer of every core at `W13`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W13 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- THE FRAME: the run, read at the argument's buffer. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W13_main_arg0 m ρ c)) (run_all m ρ)

end Cert.Kernel.Hand

end
-- ==== Proof.KI.Reg0.lean ====
/-
  The first pallas_call (affinity and refinement), as one region of @main, at any float instance.
  Its grid is 4 × 7; at point (b, j) the pipeline stages block (b, j) — 112 patches — of the pixel array
  [4, 784, 64, 384] and of the neighbour super-token array [4, 784, 384, 9], the body reads both blocks whole, and
  it overwrites block (b, j) of the contribution array [4, 784, 384, 9] and of the weight-sum array [4, 784, 9].
  Stated here: each window's block, what each output's staging buffer holds after the body (one store covering the
  buffer, its value the body's arithmetic as one pure function of the two input blocks), the body's triple in the
  program logic, the pipeline's proof data and the per-point obligation the launch theorem asks for.
-/
import proofs.«179015_j72035191488647_1_alg».proof.Proof.Gen.KernelIdeal.Launch
import proofs.«179015_j72035191488647_1_alg».proof.Proof.Gen.KernelIdeal.Skeleton
import proofs.«179015_j72035191488647_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## Blocks -/

/-- Block `t` of window `w`'s array, as the region finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its array's block at every point: the window is fetched whole at each point and the body leaves it as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its array's block at every point: the window is fetched whole at each point and the body leaves it as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

abbrev r0_0 : Rect S1x112x64x384 := Rect.unit (s := S1x112x64x384) ![0, 0, 0, 0] S1x112x64x384.size inb_S1x112x64x384_S1x112x64x384_0_0_0_0
abbrev r0_1 : Rect S1x112x384x9 := Rect.unit (s := S1x112x384x9) ![0, 0, 0, 0] S1x112x384x9.size inb_S1x112x384x9_S1x112x384x9_0_0_0_0
abbrev r0_2 : Rect S1x112x384x9 := Rect.unit (s := S1x112x384x9) ![0, 0, 0, 0] S1x112x384x9.size inb_S1x112x384x9_S1x112x384x9_0_0_0_0
abbrev r0_3 : Rect S1x112x9 := Rect.unit (s := S1x112x9) ![0, 0, 0] S1x112x9.size inb_S1x112x9_S1x112x9_0_0_0

/-! ## What the body leaves in each output buffer -/

/-- Output window 2's staging buffer after the body: its one store covers the buffer, and the stored value is the payload `k0_pay3` of the two input blocks. -/
def out0_2 (x0 : Vec F S1x112x64x384 .f32) (x1 : Vec F S1x112x384x9 .f32) : Vec F S1x112x384x9 .f32 :=
  View.canon [⟨r0_2, k0_pay3 (View.ld x0 r0_0) (View.ld x1 r0_1)⟩]

theorem cover0_2 (p0 : Vec F S1x112x384x9 .f32) (y : S1x112x384x9.Idx) :
    ∃ pc ∈ ([⟨r0_2, p0⟩] : List (View.Piece (Elt F) S1x112x384x9 .f32)), y ∈ pc.1.set :=
  View.cover_of_tiled [⟨r0_2, p0⟩] S1x112x384x9.size (by rfl) y

/-- Output window 3's staging buffer after the body: its one store covers the buffer, and the stored value is the payload `k0_pay4` of the two input blocks. -/
def out0_3 (x0 : Vec F S1x112x64x384 .f32) (x1 : Vec F S1x112x384x9 .f32) : Vec F S1x112x9 .f32 :=
  View.canon [⟨r0_3, k0_pay4 (View.ld x0 r0_0) (View.ld x1 r0_1)⟩]

theorem cover0_3 (p0 : Vec F S1x112x9 .f32) (y : S1x112x9.Idx) :
    ∃ pc ∈ ([⟨r0_3, p0⟩] : List (View.Piece (Elt F) S1x112x9 .f32)), y ∈ pc.1.set :=
  View.cover_of_tiled [⟨r0_3, p0⟩] S1x112x9.size (by rfl) y

/-! ## The body's triple -/

set_option maxHeartbeats 4000000 in
/-- The body on whole staging buffers — the inputs' at contents `x0`, `x1`, the outputs' at anything — runs to its end without a fault, leaves the inputs' as they were and each output's at its payload of the inputs. The loads of the output buffers that the body makes before storing are dead: nothing reads their values. -/
theorem sound_kernel0 (c : Dev nD) (E : Set ℕ) (i : grid0.Coords) (arg2 : Memref sig .tc .vmem S1x112x64x384 .f32) (harg2 : arg2.IsWhole) (arg3 : Memref sig .tc .vmem S1x112x384x9 .f32) (harg3 : arg3.IsWhole) (arg4 : Memref sig .tc .vmem S1x112x384x9 .f32) (harg4 : arg4.IsWhole) (arg5 : Memref sig .tc .vmem S1x112x9 .f32) (harg5 : arg5.IsWhole)
    (x0 : Vec F S1x112x64x384 .f32) (x1 : Vec F S1x112x384x9 .f32) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (out0_2 x0 x1) ∗ owns (c : Thread nD τ) arg5 fullShare (out0_3 x0 x1)) -∗ K ⟨⟩))
      ⊢ wp frame (wpE (defs₀ (F := F)) Variants.none c none) E (cc0__affinity_refine_kernel i arg2 harg2 arg3 harg3 arg4 harg4 arg5 harg5) K := by
  simp only [cc0__affinity_refine_kernel_eq_skeleton]; unfold cc0__affinity_refine_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The pipeline's proof data -/

/-- The arrays as the region finds them; after the body at point `t` an input's buffer still holds its block and an output's holds its payload of the two input blocks; the invariant is the scoped rest and the generator register, which the body does not touch; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  The second pallas_call (affinity only), as one region of @main, at any float instance.
  Its grid is 4 × 7; at point (b, j) the pipeline stages block (b, j) — 112 patches — of the pixel array
  [4, 784, 64, 384] and of the refined neighbour super-token array [4, 784, 384, 9], the body reads both blocks whole
  and overwrites block (b, j) of the affinity array [4, 784, 64, 9].
  Stated here: each window's block, what the output's staging buffer holds after the body (one store covering the
  buffer, its value the body's arithmetic as one pure function of the two input blocks), the body's triple in the
  program logic, the pipeline's proof data and the per-point obligation the launch theorem asks for.
-/
import proofs.«179015_j72035191488647_1_alg».proof.Proof.Gen.KernelIdeal.Launch
import proofs.«179015_j72035191488647_1_alg».proof.Proof.Gen.KernelIdeal.Skeleton
import proofs.«179015_j72035191488647_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## Blocks -/

/-- Block `t` of window `w`'s array, as the region finds the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its array's block at every point: the window is fetched whole at each point and the body leaves it as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its array's block at every point: the window is fetched whole at each point and the body leaves it as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole staging buffer -/

abbrev r1_0 : Rect S1x112x64x384 := Rect.unit (s := S1x112x64x384) ![0, 0, 0, 0] S1x112x64x384.size inb_S1x112x64x384_S1x112x64x384_0_0_0_0
abbrev r1_1 : Rect S1x112x384x9 := Rect.unit (s := S1x112x384x9) ![0, 0, 0, 0] S1x112x384x9.size inb_S1x112x384x9_S1x112x384x9_0_0_0_0
abbrev r1_2 : Rect S1x112x64x9 := Rect.unit (s := S1x112x64x9) ![0, 0, 0, 0] S1x112x64x9.size inb_S1x112x64x9_S1x112x64x9_0_0_0_0

/-! ## What the body leaves in each output buffer -/

/-- Output window 2's staging buffer after the body: its one store covers the buffer, and the stored value is the payload `k1_pay1` of the two input blocks. -/
def out1_2 (x0 : Vec F S1x112x64x384 .f32) (x1 : Vec F S1x112x384x9 .f32) : Vec F S1x112x64x9 .f32 :=
  View.canon [⟨r1_2, k1_pay1 (View.ld x0 r1_0) (View.ld x1 r1_1)⟩]

theorem cover1_2 (p0 : Vec F S1x112x64x9 .f32) (y : S1x112x64x9.Idx) :
    ∃ pc ∈ ([⟨r1_2, p0⟩] : List (View.Piece (Elt F) S1x112x64x9 .f32)), y ∈ pc.1.set :=
  View.cover_of_tiled [⟨r1_2, p0⟩] S1x112x64x9.size (by rfl) y

/-! ## The body's triple -/

set_option maxHeartbeats 4000000 in
/-- The body on whole staging buffers — the inputs' at contents `x0`, `x1`, the outputs' at anything — runs to its end without a fault, leaves the inputs' as they were and each output's at its payload of the inputs. The loads of the output buffers that the body makes before storing are dead: nothing reads their values. -/
theorem sound_kernel1 (c : Dev nD) (E : Set ℕ) (i : grid1.Coords) (arg2 : Memref sig .tc .vmem S1x112x64x384 .f32) (harg2 : arg2.IsWhole) (arg3 : Memref sig .tc .vmem S1x112x384x9 .f32) (harg3 : arg3.IsWhole) (arg4 : Memref sig .tc .vmem S1x112x64x9 .f32) (harg4 : arg4.IsWhole)
    (x0 : Vec F S1x112x64x384 .f32) (x1 : Vec F S1x112x384x9 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__affinity_only_kernel i arg2 harg2 arg3 harg3 arg4 harg4) K := by
  simp only [cc1__affinity_only_kernel_eq_skeleton]; unfold cc1__affinity_only_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The arrays as the region finds them; after the body at point `t` an input's buffer still holds its block and an output's holds its payload of the two input blocks; the invariant is the scoped rest and the generator register, which the body does not touch; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input buffers hold their blocks, so the body's triple applies; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  The third pallas_call (super-tokens back to pixels), as one region of @main, at any float instance.
  Its grid is 4 × 7; at point (b, j) the pipeline stages block (b, j) — 112 patches — of the refined neighbour
  super-token array [4, 784, 384, 9] and of the affinity array [4, 784, 64, 9], the body reads both blocks whole and
  overwrites block (b, j) of the result array [4, 784, 384, 64].
  Stated here: each window's block, what the output's staging buffer holds after the body (one store covering the
  buffer, its value the body's arithmetic as one pure function of the two input blocks), the body's triple in the
  program logic, the pipeline's proof data and the per-point obligation the launch theorem asks for.
-/
import proofs.«179015_j72035191488647_1_alg».proof.Proof.Gen.KernelIdeal.Launch
import proofs.«179015_j72035191488647_1_alg».proof.Proof.Gen.KernelIdeal.Skeleton
import proofs.«179015_j72035191488647_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: everything below is stated at this parameter
variable (V : (c : Dev nD) → (b : Ref sig .tc) → Buf (Elt F) ((c : Thread nD τ).loc b))

/-! ## Blocks -/

/-- Block `t` of window `w`'s array, as the region finds the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its array's block at every point: the window is fetched whole at each point and the body leaves it as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its array's block at every point: the window is fetched whole at each point and the body leaves it as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole staging buffer -/

abbrev r2_0 : Rect S1x112x384x9 := Rect.unit (s := S1x112x384x9) ![0, 0, 0, 0] S1x112x384x9.size inb_S1x112x384x9_S1x112x384x9_0_0_0_0
abbrev r2_1 : Rect S1x112x64x9 := Rect.unit (s := S1x112x64x9) ![0, 0, 0, 0] S1x112x64x9.size inb_S1x112x64x9_S1x112x64x9_0_0_0_0
abbrev r2_2 : Rect S1x112x384x64 := Rect.unit (s := S1x112x384x64) ![0, 0, 0, 0] S1x112x384x64.size inb_S1x112x384x64_S1x112x384x64_0_0_0_0

/-! ## What the body leaves in each output buffer -/

/-- Output window 2's staging buffer after the body: its one store covers the buffer, and the stored value is the payload `k2_pay1` of the two input blocks. -/
def out2_2 (x0 : Vec F S1x112x384x9 .f32) (x1 : Vec F S1x112x64x9 .f32) : Vec F S1x112x384x64 .f32 :=
  View.canon [⟨r2_2, k2_pay1 (View.ld x0 r2_0) (View.ld x1 r2_1)⟩]

theorem cover2_2 (p0 : Vec F S1x112x384x64 .f32) (y : S1x112x384x64.Idx) :
    ∃ pc ∈ ([⟨r2_2, p0⟩] : List (View.Piece (Elt F) S1x112x384x64 .f32)), y ∈ pc.1.set :=
  View.cover_of_tiled [⟨r2_2, p0⟩] S1x112x384x64.size (by rfl) y

/-! ## The body's triple -/

set_option maxHeartbeats 4000000 in
/-- The body on whole staging buffers — the inputs' at contents `x0`, `x1`, the outputs' at anything — runs to its end without a fault, leaves the inputs' as they were and each output's at its payload of the inputs. The loads of the output buffers that the body makes before storing are dead: nothing reads their values. -/
theorem sound_kernel2 (c : Dev nD) (E : Set ℕ) (i : grid2.Coords) (arg2 : Memref sig .tc .vmem S1x112x384x9 .f32) (harg2 : arg2.IsWhole) (arg3 : Memref sig .tc .vmem S1x112x64x9 .f32) (harg3 : arg3.IsWhole) (arg4 : Memref sig .tc .vmem S1x112x384x64 .f32) (harg4 : arg4.IsWhole)
    (x0 : Vec F S1x112x384x9 .f32) (x1 : Vec F S1x112x64x9 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__final_kernel i arg2 harg2 arg3 harg3 arg4 harg4) K := by
  simp only [cc2__final_kernel_eq_skeleton]; unfold cc2__final_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The arrays as the region finds them; after the body at point `t` an input's buffer still holds its block and an output's holds its payload of the two input blocks; the invariant is the scoped rest and the generator register, which the body does not touch; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input buffers hold their blocks, so the body's triple applies; the invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  @main of the kernel program as a run, at any float instance: thirteen items in order — three host stretches (the patch
  view of the input, the pooled super-tokens, their 3×3 neighbourhoods), the first pallas_call, six host stretches (the
  two scatter-add folds, the normalisation, the refined super-tokens' neighbourhoods), the second and the third
  pallas_call, and the closing stretch that lays the result out as an image. The long stretch between the first two
  calls is taken in the four pieces in which @main's text is printed, so that no piece has more than sixty operations.
  `W j c` is what core `c`'s unscoped buffers hold after the first `j` items: a host stretch rewrites the buffers its
  operations write and leaves the rest; a pallas_call leaves each of its windows' arrays at what the pipeline's
  write-backs make of it and every other buffer as it was. The run theorem says every weakly fair execution terminates
  without a fault with every unscoped buffer at `W 13`; that the argument array is never written, so ends as launched,
  is the frame.
-/
import proofs.«179015_j72035191488647_1_alg».proof.Proof.KI.Reg0
import proofs.«179015_j72035191488647_1_alg».proof.Proof.KI.Reg1
import proofs.«179015_j72035191488647_1_alg».proof.Proof.KI.Reg2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents after each item -/

/-- At launch. -/
abbrev W0 : Dev nD → Valuation τ sig (Elt F) := fun c b => (s₀ m ρ).mem ((c : Dev nD), b)
/-- After item 0, the host stretch `main_part0_ops0`. -/
abbrev W1 : Dev nD → Valuation τ sig (Elt F) := fun c => StableHlo.after main_part0_ops0 (W0 m ρ c)
/-- After item 1, the host stretch `main_part0_ops1`. -/
abbrev W2 : Dev nD → Valuation τ sig (Elt F) := fun c => StableHlo.after main_part0_ops1 (W1 m ρ c)
/-- After item 2, the host stretch `main_part0_ops2`. -/
abbrev W3 : Dev nD → Valuation τ sig (Elt F) := fun c => StableHlo.after main_part0_ops2 (W2 m ρ c)
/-- The same read at the TensorCore's references: what pallas_call 0 finds. -/
abbrev V3 : (c : Dev nD) → (b : Ref sig .tc) → Buf (Elt F) ((c : Thread nD τ).loc b) := fun c b => W3 m ρ c b
/-- After item 3, pallas_call 0: its windows' arrays at what the write-backs leave, every other buffer as it was. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After item 4, the host stretch `main_part0_ops3`. -/
abbrev W5 : Dev nD → Valuation τ sig (Elt F) := fun c => StableHlo.after main_part0_ops3 (W4 m ρ c)
/-- After item 5, the host stretch `main_part1_ops0`. -/
abbrev W6 : Dev nD → Valuation τ sig (Elt F) := fun c => StableHlo.after main_part1_ops0 (W5 m ρ c)
/-- After item 6, the host stretch `main_part2_ops0`. -/
abbrev W7 : Dev nD → Valuation τ sig (Elt F) := fun c => StableHlo.after main_part2_ops0 (W6 m ρ c)
/-- After item 7, the host stretch `main_part3_ops0`. -/
abbrev W8 : Dev nD → Valuation τ sig (Elt F) := fun c => StableHlo.after main_part3_ops0 (W7 m ρ c)
/-- After item 8, the host stretch `main_part3_ops1`. -/
abbrev W9 : Dev nD → Valuation τ sig (Elt F) := fun c => StableHlo.after main_part3_ops1 (W8 m ρ c)
/-- After item 9, the host stretch `main_part3_ops2`. -/
abbrev W10 : Dev nD → Valuation τ sig (Elt F) := fun c => StableHlo.after main_part3_ops2 (W9 m ρ c)
/-- The same read at the TensorCore's references: what pallas_call 1 finds. -/
abbrev V10 : (c : Dev nD) → (b : Ref sig .tc) → Buf (Elt F) ((c : Thread nD τ).loc b) := fun c b => W10 m ρ c b
/-- After item 10, pallas_call 1: its windows' arrays at what the write-backs leave, every other buffer as it was. -/
def W11 (c : Dev nD) : Valuation τ sig (Elt F) :=
  Pipeline.withArrays spec1 c (W10 m ρ c) fun w => (dat1 (V10 m ρ) c).arrAt w cfg1.N
theorem W11_arr (c : Dev nD) (w : Fin cfg1.W) :
    W11 m ρ c (Proc.devRef .tc (Pipeline.arrRef spec1 w)) = (dat1 (V10 m ρ) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m ρ c (Proc.devRef .tc b) = W10 m ρ c (Proc.devRef .tc b) := by
  unfold W11; exact Pipeline.withArrays_of_ne spec1 c _ _ b hb
abbrev V11 : (c : Dev nD) → (b : Ref sig .tc) → Buf (Elt F) ((c : Thread nD τ).loc b) := fun c b => W11 m ρ c b
theorem hF1 (c : Dev nD) (w : Fin cfg1.W) : (dat1 (V10 m ρ) c).arrAt w cfg1.N = V11 m ρ c (Pipeline.arrRef spec1 w) :=
  (W11_arr m ρ c w).symm
theorem hrest1 (c : Dev nD) : ∀ b, b ∉ Finset.univ.image (Pipeline.arrRef spec1) → V11 m ρ c b = V10 m ρ c b :=
  fun b hb => W11_of_ne m ρ c b fun w e => hb (Finset.mem_image.mpr ⟨w, Finset.mem_univ _, e⟩)
/-- After item 11, pallas_call 2: its windows' arrays at what the write-backs leave, every other buffer as it was. -/
def W12 (c : Dev nD) : Valuation τ sig (Elt F) :=
  Pipeline.withArrays spec2 c (W11 m ρ c) fun w => (dat2 (V11 m ρ) c).arrAt w cfg2.N
theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
abbrev V12 : (c : Dev nD) → (b : Ref sig .tc) → Buf (Elt F) ((c : Thread nD τ).loc b) := fun c b => W12 m ρ c b
theorem hF2 (c : Dev nD) (w : Fin cfg2.W) : (dat2 (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)
/-- After item 12, the host stretch `main_part3_ops3`. -/
abbrev W13 : Dev nD → Valuation τ sig (Elt F) := fun c => StableHlo.after main_part3_ops3 (W12 m ρ c)

/-! ## What each host stretch writes, and that it allocates nothing -/

theorem main_part0_ops0_fresh : (main_part0_ops0 : List (HloOp τ sig (Elt F))).Forall fun op => op.fresh = ∅ := by
  simp only [List.Forall]; repeat' constructor
/-- The references `main_part0_ops0`'s operations write. -/
abbrev main_part0_ops0_W : List (Ref sig .tc) := [main_v0, main_cst, main_v1, main_cst_0, main_v2, main_v3, main_v4, main_v5, main_c]
theorem main_part0_ops0_writes : (main_part0_ops0 : List (HloOp τ sig (Elt F))).Forall fun op => op.writes ⊆ (main_part0_ops0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  refine ⟨?_, ?_, ?_, ?_, ?_, ?_, ?_, ?_, ?_⟩ <;> exact List.mem_map_of_mem (by decide)
/-- A reference the stretch does not write keeps its contents across item 0. -/
theorem W1_of (c : Dev nD) (r : Ref sig .tc) (h : r ∉ main_part0_ops0_W) : W1 m ρ c (Proc.devRef .tc r) = W0 m ρ c (Proc.devRef .tc r) :=
  StableHlo.after_of_writes_sub main_part0_ops0 _ main_part0_ops0_writes h

theorem main_part0_ops1_fresh : (main_part0_ops1 : List (HloOp τ sig (Elt F))).Forall fun op => op.fresh = ∅ := by
  simp only [List.Forall]; repeat' constructor
/-- The references `main_part0_ops1`'s operations write. -/
abbrev main_part0_ops1_W : List (Ref sig .tc) := [main_call0_v0, main_v6]
theorem main_part0_ops1_writes : (main_part0_ops1 : List (HloOp τ sig (Elt F))).Forall fun op => op.writes ⊆ (main_part0_ops1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  refine ⟨?_, ?_⟩ <;> exact List.mem_map_of_mem (by decide)
/-- A reference the stretch does not write keeps its contents across item 1. -/
theorem W2_of (c : Dev nD) (r : Ref sig .tc) (h : r ∉ main_part0_ops1_W) : W2 m ρ c (Proc.devRef .tc r) = W1 m ρ c (Proc.devRef .tc r) :=
  StableHlo.after_of_writes_sub main_part0_ops1 _ main_part0_ops1_writes h

theorem main_part0_ops2_fresh : (main_part0_ops2 : List (HloOp τ sig (Elt F))).Forall fun op => op.fresh = ∅ := by
  simp only [List.Forall]; repeat' constructor
/-- The references `main_part0_ops2`'s operations write. -/
abbrev main_part0_ops2_W : List (Ref sig .tc) := [main_v7, main_v8, main_v9, main_v10, main_v11, main_v12, main_v13, main_v14, main_v15, main_v16, main_v17, main_v18, main_v19, main_v20, main_v21, main_v22, main_v23, main_v24, main_v25, main_v26, main_v27]
theorem main_part0_ops2_writes : (main_part0_ops2 : List (HloOp τ sig (Elt F))).Forall fun op => op.writes ⊆ (main_part0_ops2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  refine ⟨?_, ?_, ?_, ?_, ?_, ?_, ?_, ?_, ?_, ?_, ?_, ?_, ?_, ?_, ?_, ?_, ?_, ?_, ?_, ?_, ?_⟩ <;> exact List.mem_map_of_mem (by decide)
/-- A reference the stretch does not write keeps its contents across item 2. -/
theorem W3_of (c : Dev nD) (r : Ref sig .tc) (h : r ∉ main_part0_ops2_W) : W3 m ρ c (Proc.devRef .tc r) = W2 m ρ c (Proc.devRef .tc r) :=
  StableHlo.after_of_writes_sub main_part0_ops2 _ main_part0_ops2_writes h

theorem main_part0_ops3_fresh : (main_part0_ops3 : List (HloOp τ sig (Elt F))).Forall fun op => op.fresh = ∅ := by
  simp only [List.Forall]; repeat' constructor
/-- The references `main_part0_ops3`'s operations write. -/
abbrev main_part0_ops3_W : List (Ref sig .tc) := [main_v29, main_v30, main_cst_1, main_v31, main_v32, main_v33, main_c_2, main_v34, main_c_3, main_v35, main_v36, main_v37, main_v38, main_v39, main_c_4, main_v40, main_c_5, main_v41, main_v42, main_v43, main_v44, main_v45, main_c_6, main_v46, main_c_7, main_v47, main_v48, main_v49]
theorem main_part0_ops3_writes : (main_part0_ops3 : List (HloOp τ sig (Elt F))).Forall fun op => op.writes ⊆ (main_part0_ops3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)
/-- A reference the stretch does not write keeps its contents across item 4. -/
theorem W5_of (c : Dev nD) (r : Ref sig .tc) (h : r ∉ main_part0_ops3_W) : W5 m ρ c (Proc.devRef .tc r) = W4 m ρ c (Proc.devRef .tc r) :=
  StableHlo.after_of_writes_sub main_part0_ops3 _ main_part0_ops3_writes h

theorem main_part1_ops0_fresh : (main_part1_ops0 : List (HloOp τ sig (Elt F))).Forall fun op => op.fresh = ∅ := by
  simp only [List.Forall]; repeat' constructor
/-- The references `main_part1_ops0`'s operations write. -/
abbrev main_part1_ops0_W : List (Ref sig .tc) := [main_v50, main_v51, main_c_8, main_v52, main_c_9, main_v53, main_v54, main_v55, main_v56, main_v57, main_c_10, main_v58, main_c_11, main_v59, main_v60, main_v61, main_v62, main_v63, main_c_12, main_v64, main_c_13, main_v65, main_v66, main_v67, main_v68, main_v69, main_c_14, main_v70, main_c_15, main_v71, main_v72, main_v73, main_v74, main_v75, main_c_16, main_v76, main_c_17, main_v77, main_v78, main_v79, main_v80, main_v81, main_c_18, main_v82, main_c_19, main_v83, main_v84, main_v85, main_v86, main_v87, main_v88, main_v89, main_cst_20, main_v90, main_v91, main_v92, main_c_21, main_v93, main_c_22, main_v94]
theorem main_part1_ops0_writes : (main_part1_ops0 : List (HloOp τ sig (Elt F))).Forall fun op => op.writes ⊆ (main_part1_ops0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)
/-- A reference the stretch does not write keeps its contents across item 5. -/
theorem W6_of (c : Dev nD) (r : Ref sig .tc) (h : r ∉ main_part1_ops0_W) : W6 m ρ c (Proc.devRef .tc r) = W5 m ρ c (Proc.devRef .tc r) :=
  StableHlo.after_of_writes_sub main_part1_ops0 _ main_part1_ops0_writes h

theorem main_part2_ops0_fresh : (main_part2_ops0 : List (HloOp τ sig (Elt F))).Forall fun op => op.fresh = ∅ := by
  simp only [List.Forall]; repeat' constructor
/-- The references `main_part2_ops0`'s operations write. -/
abbrev main_part2_ops0_W : List (Ref sig .tc) := [main_v95, main_v96, main_v97, main_v98, main_c_23, main_v99, main_c_24, main_v100, main_v101, main_v102, main_v103, main_v104, main_c_25, main_v105, main_c_26, main_v106, main_v107, main_v108, main_v109, main_v110, main_c_27, main_v111, main_c_28, main_v112, main_v113, main_v114, main_v115, main_v116, main_c_29, main_v117, main_c_30, main_v118, main_v119, main_v120, main_v121, main_v122, main_c_31, main_v123, main_c_32, main_v124, main_v125, main_v126, main_v127, main_v128, main_c_33, main_v129, main_c_34, main_v130, main_v131, main_v132, main_v133, main_v134, main_c_35, main_v135, main_c_36, main_v136, main_v137, main_v138, main_v139, main_v140]
theorem main_part2_ops0_writes : (main_part2_ops0 : List (HloOp τ sig (Elt F))).Forall fun op => op.writes ⊆ (main_part2_ops0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)
/-- A reference the stretch does not write keeps its contents across item 6. -/
theorem W7_of (c : Dev nD) (r : Ref sig .tc) (h : r ∉ main_part2_ops0_W) : W7 m ρ c (Proc.devRef .tc r) = W6 m ρ c (Proc.devRef .tc r) :=
  StableHlo.after_of_writes_sub main_part2_ops0 _ main_part2_ops0_writes h

theorem main_part3_ops0_fresh : (main_part3_ops0 : List (HloOp τ sig (Elt F))).Forall fun op => op.fresh = ∅ := by
  simp only [List.Forall]; repeat' constructor
/-- The references `main_part3_ops0`'s operations write. -/
abbrev main_part3_ops0_W : List (Ref sig .tc) := [main_c_37, main_v141, main_c_38, main_v142, main_v143, main_v144, main_v145, main_cst_39, main_v146, main_v147, main_v148, main_v149, main_v150, main_c_40]
theorem main_part3_ops0_writes : (main_part3_ops0 : List (HloOp τ sig (Elt F))).Forall fun op => op.writes ⊆ (main_part3_ops0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  refine ⟨?_, ?_, ?_, ?_, ?_, ?_, ?_, ?_, ?_, ?_, ?_, ?_, ?_, ?_⟩ <;> exact List.mem_map_of_mem (by decide)
/-- A reference the stretch does not write keeps its contents across item 7. -/
theorem W8_of (c : Dev nD) (r : Ref sig .tc) (h : r ∉ main_part3_ops0_W) : W8 m ρ c (Proc.devRef .tc r) = W7 m ρ c (Proc.devRef .tc r) :=
  StableHlo.after_of_writes_sub main_part3_ops0 _ main_part3_ops0_writes h

theorem main_part3_ops1_fresh : (main_part3_ops1 : List (HloOp τ sig (Elt F))).Forall fun op => op.fresh = ∅ := by
  simp only [List.Forall]; repeat' constructor
/-- The references `main_part3_ops1`'s operations write. -/
abbrev main_part3_ops1_W : List (Ref sig .tc) := [main_call1_v0, main_v151]
theorem main_part3_ops1_writes : (main_part3_ops1 : List (HloOp τ sig (Elt F))).Forall fun op => op.writes ⊆ (main_part3_ops1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  refine ⟨?_, ?_⟩ <;> exact List.mem_map_of_mem (by decide)
/-- A reference the stretch does not write keeps its contents across item 8. -/
theorem W9_of (c : Dev nD) (r : Ref sig .tc) (h : r ∉ main_part3_ops1_W) : W9 m ρ c (Proc.devRef .tc r) = W8 m ρ c (Proc.devRef .tc r) :=
  StableHlo.after_of_writes_sub main_part3_ops1 _ main_part3_ops1_writes h

theorem main_part3_ops2_fresh : (main_part3_ops2 : List (HloOp τ sig (Elt F))).Forall fun op => op.fresh = ∅ := by
  simp only [List.Forall]; repeat' constructor
/-- The references `main_part3_ops2`'s operations write. -/
abbrev main_part3_ops2_W : List (Ref sig .tc) := [main_v152, main_v153, main_v154, main_v155, main_v156, main_v157, main_v158, main_v159, main_v160, main_v161, main_v162, main_v163, main_v164, main_v165, main_v166, main_v167, main_v168, main_v169, main_v170, main_v171, main_v172]
theorem main_part3_ops2_writes : (main_part3_ops2 : List (HloOp τ sig (Elt F))).Forall fun op => op.writes ⊆ (main_part3_ops2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  refine ⟨?_, ?_, ?_, ?_, ?_, ?_, ?_, ?_, ?_, ?_, ?_, ?_, ?_, ?_, ?_, ?_, ?_, ?_, ?_, ?_, ?_⟩ <;> exact List.mem_map_of_mem (by decide)
/-- A reference the stretch does not write keeps its contents across item 9. -/
theorem W10_of (c : Dev nD) (r : Ref sig .tc) (h : r ∉ main_part3_ops2_W) : W10 m ρ c (Proc.devRef .tc r) = W9 m ρ c (Proc.devRef .tc r) :=
  StableHlo.after_of_writes_sub main_part3_ops2 _ main_part3_ops2_writes h

theorem main_part3_ops3_fresh : (main_part3_ops3 : List (HloOp τ sig (Elt F))).Forall fun op => op.fresh = ∅ := by
  simp only [List.Forall]; repeat' constructor
/-- The references `main_part3_ops3`'s operations write. -/
abbrev main_part3_ops3_W : List (Ref sig .tc) := [main_v175, main_v176, main_v177]
theorem main_part3_ops3_writes : (main_part3_ops3 : List (HloOp τ sig (Elt F))).Forall fun op => op.writes ⊆ (main_part3_ops3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  refine ⟨?_, ?_, ?_⟩ <;> exact List.mem_map_of_mem (by decide)
/-- A reference the stretch does not write keeps its contents across item 12. -/
theorem W13_of (c : Dev nD) (r : Ref sig .tc) (h : r ∉ main_part3_ops3_W) : W13 m ρ c (Proc.devRef .tc r) = W12 m ρ c (Proc.devRef .tc r) :=
  StableHlo.after_of_writes_sub main_part3_ops3 _ main_part3_ops3_writes h

/-! ## The argument array is never written -/

theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := W13_of m ρ c main_arg0 (by decide)
    _ = W11 m ρ c (Proc.devRef .tc main_arg0) := W12_of_ne m ρ c main_arg0 (by decide)
    _ = W10 m ρ c (Proc.devRef .tc main_arg0) := W11_of_ne m ρ c main_arg0 (by decide)
    _ = W9 m ρ c (Proc.devRef .tc main_arg0) := W10_of m ρ c main_arg0 (by decide)
    _ = W8 m ρ c (Proc.devRef .tc main_arg0) := W9_of m ρ c main_arg0 (by decide)
    _ = W7 m ρ c (Proc.devRef .tc main_arg0) := W8_of m ρ c main_arg0 (by decide)
    _ = W6 m ρ c (Proc.devRef .tc main_arg0) := W7_of m ρ c main_arg0 (by decide)
    _ = W5 m ρ c (Proc.devRef .tc main_arg0) := W6_of m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of m ρ c main_arg0 (by decide)
    _ = W0 m ρ c (Proc.devRef .tc main_arg0) := W1_of m ρ c main_arg0 (by decide)
    _ = m ((c : Thread nD τ).loc main_arg0) := rfl

/-! ## The proof data family and what rides beside the buffers -/

/-- No pallas_call here has a prefetched table. -/
abbrev adm : (p : Fin 3) → (pcfgs (F := F) p).Adm := fun p => (cfgs p).toPCfg_adm
/-- Each pipeline's proof data at the contents its call finds: a literal match on the pipeline's number. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V10 m ρ) c
  | ⟨2, _⟩ => fun c => dat2 (V11 m ρ) c
abbrev 𝒱₀ : Variants := Variants.none
/-- No core owes another anything. -/
abbrev L : GSem nD τ sig → Finset Unit := fun _ => ∅
abbrev lv : GSem nD τ sig → Unit → ℕ := fun _ _ => 0
/-- Beside the buffers every item carries the core's generator register at some state and its dues, at nothing. -/
abbrev R (c : Dev nD) : sProp 𝕄 := iprop((∃ r, prngReg c r) ∗ ∃ W, owes (c : Thread nD τ) (0 : CellTallies nD τ sig Unit) W)
/-- A host stretch as an item: from the unscoped buffers at `W` to them at `StableHlo.after ops (W c)`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the dues: every unscoped buffer at `W13`, the generator register at some state. -/
abbrev Tₙ (c : Dev nD) : sProp 𝕄 := iprop(StableHlo.held (c : Thread nD τ) (Pipeline.ucRefs τ sig) (W13 m ρ c) ∗ ∃ r, prngReg c r)

/-! ## The pallas_calls as items -/

set_option backward.isDefEq.respectTransparency.types false in
/-- pallas_call 0: entered from every unscoped buffer at `W3`, left at `W4`. Its windows' arrays are split out of the unscoped buffers at entry and put back at their final contents at exit; the generator register goes into the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 1: entered from every unscoped buffer at `W10`, left at `W11`. Its windows' arrays are split out of the unscoped buffers at entry and put back at their final contents at exit; the generator register goes into the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V10 m ρ) c).loose
  hwaits := Pipeline.hwaits_of_owed_zero _ _ _ _ L lv 1 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec1 c (V10 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V10 m ρ c) (V11 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- pallas_call 2: entered from every unscoped buffer at `W11`, left at `W12`. Its windows' arrays are split out of the unscoped buffers at entry and put back at their final contents at exit; the generator register goes into the pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m ρ) c).loose
  hwaits := Pipeline.hwaits_of_owed_zero _ _ _ _ L lv 2 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec2 c (V11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V11 m ρ c) (V12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the run -/

abbrev segs : List (Pipeline.Seg (pcfgs (F := F)) adm (pdats m ρ) () defs₀ 𝒱₀ L lv) :=
  [ .host (hseg main_part0_ops0 main_part0_ops0_sub main_part0_ops0_fresh (W0 m ρ)),
    .host (hseg main_part0_ops1 main_part0_ops1_sub main_part0_ops1_fresh (W1 m ρ)),
    .host (hseg main_part0_ops2 main_part0_ops2_sub main_part0_ops2_fresh (W2 m ρ)),
    .region (reg0 m ρ),
    .host (hseg main_part0_ops3 main_part0_ops3_sub main_part0_ops3_fresh (W4 m ρ)),
    .host (hseg main_part1_ops0 main_part1_ops0_sub main_part1_ops0_fresh (W5 m ρ)),
    .host (hseg main_part2_ops0 main_part2_ops0_sub main_part2_ops0_fresh (W6 m ρ)),
    .host (hseg main_part3_ops0 main_part3_ops0_sub main_part3_ops0_fresh (W7 m ρ)),
    .host (hseg main_part3_ops1 main_part3_ops1_sub main_part3_ops1_fresh (W8 m ρ)),
    .host (hseg main_part3_ops2 main_part3_ops2_sub main_part3_ops2_fresh (W9 m ρ)),
    .region (reg1 m ρ),
    .region (reg2 m ρ),
    .host (hseg main_part3_ops3 main_part3_ops3_sub main_part3_ops3_fresh (W12 m ρ)) ]
/-- @main is the run of the items: its text cut at the window boundaries (`main_chain_windows`), then the items' run against that chain by definitional unfolding. -/
theorem main_run (c : Dev nD) : main (F := F) c = Pipeline.Seg.run (segs m ρ) := (main_chain_windows c).trans (by chain_rfl)

set_option backward.isDefEq.respectTransparency.types false in
/-- THE RUN: from any memory with zero counters every weakly fair execution of @main on the TensorCores terminates, nothing faulting, and every final memory has every unscoped buffer of every core at `W13`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W13 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- THE FRAME: the run, read at the argument's buffer. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W13_main_arg0 m ρ c)) (run_all m ρ)

end Cert.KernelIdeal.Hand

end
-- ==== Proof.KHostB.lean ====
/-
  Two host stretches of the kernel program between its first and second pallas_call (the middle of the two scatter-add
  folds), against the reference's stages: from the buffers a stretch reads holding the corresponding stages to the
  buffers it writes (that are read later) holding theirs.
-/
import proofs.«179015_j72035191488647_1_alg».proof.Proof.Gen.KernelIdeal.Launch
import proofs.«179015_j72035191488647_1_alg».proof.Proof.RefRead
import Idealize.ShloMosaic.Lib.StableHlo.Run

set_option maxRecDepth 16384

noncomputable section

namespace Cert.KernelIdeal.HostStagesB

open Cert.KernelIdeal Cert.KernelIdeal.Gen
open Idealize.ShloMosaic Idealize.ShloMosaic.TcCoe Idealize.SL.Sem
open Cert.ReferenceIdeal.ReadP

variable {F : FTy → Type} [FloatOps F]

/-! ## From the first fold's fourth scatter-add to the second fold's first offsets -/

/-- The first fold's last six scatter-adds, the padding's removal and the view as [4, 384, 28, 28]: the contributions folded onto the 28 × 28 grid. -/
theorem i5_main_v87 (x0 : (⟨Cert.ReferenceIdeal.S4x384x224x224, .f32⟩ : BufTy).Contents (Elt F)) (V : Valuation τ sig (Elt F))
    (h_main_v30 : V (Proc.devRef .tc main_v30) = val_main_v44 (F := F) x0)
    (h_main_v49 : V (Proc.devRef .tc main_v49) = val_main_v63 (F := F) x0)
    (h_main_v28_1 : V (Proc.devRef .tc main_v28_1) = val_main_v102 (F := F) x0) :
    StableHlo.after main_part1_ops0 V (Proc.devRef .tc main_v87) = val_main_v101 (F := F) x0 := by
  after_results_simp
  rw [h_main_v30, h_main_v49]
  rfl

/-- The weight sums, neighbour axis moved in front of the patches and the patches laid out 28 × 28. -/
theorem i5_main_v89 (x0 : (⟨Cert.ReferenceIdeal.S4x384x224x224, .f32⟩ : BufTy).Contents (Elt F)) (V : Valuation τ sig (Elt F))
    (h_main_v30 : V (Proc.devRef .tc main_v30) = val_main_v44 (F := F) x0)
    (h_main_v49 : V (Proc.devRef .tc main_v49) = val_main_v63 (F := F) x0)
    (h_main_v28_1 : V (Proc.devRef .tc main_v28_1) = val_main_v102 (F := F) x0) :
    StableHlo.after main_part1_ops0 V (Proc.devRef .tc main_v89) = val_main_v104 (F := F) x0 := by
  after_results_simp
  rw [h_main_v28_1]
  rfl

/-- The zero array the second fold starts from. -/
theorem i5_main_v90 (x0 : (⟨Cert.ReferenceIdeal.S4x384x224x224, .f32⟩ : BufTy).Contents (Elt F)) (V : Valuation τ sig (Elt F))
    (h_main_v30 : V (Proc.devRef .tc main_v30) = val_main_v44 (F := F) x0)
    (h_main_v49 : V (Proc.devRef .tc main_v49) = val_main_v63 (F := F) x0)
    (h_main_v28_1 : V (Proc.devRef .tc main_v28_1) = val_main_v102 (F := F) x0) :
    StableHlo.after main_part1_ops0 V (Proc.devRef .tc main_v90) = val_main_v105 (F := F) := by
  after_results_simp
  rfl

/-- The first neighbour's plane of the weight sums. -/
theorem i5_main_v92 (x0 : (⟨Cert.ReferenceIdeal.S4x384x224x224, .f32⟩ : BufTy).Contents (Elt F)) (V : Valuation τ sig (Elt F))
    (h_main_v30 : V (Proc.devRef .tc main_v30) = val_main_v44 (F := F) x0)
    (h_main_v49 : V (Proc.devRef .tc main_v49) = val_main_v63 (F := F) x0)
    (h_main_v28_1 : V (Proc.devRef .tc main_v28_1) = val_main_v102 (F := F) x0) :
    StableHlo.after main_part1_ops0 V (Proc.devRef .tc main_v92) = val_main_v107 (F := F) x0 := by
  after_results_simp
  rw [h_main_v28_1]
  rfl

/-- The first neighbour's row offset. -/
theorem i5_main_v93 (x0 : (⟨Cert.ReferenceIdeal.S4x384x224x224, .f32⟩ : BufTy).Contents (Elt F)) (V : Valuation τ sig (Elt F))
    (h_main_v30 : V (Proc.devRef .tc main_v30) = val_main_v44 (F := F) x0)
    (h_main_v49 : V (Proc.devRef .tc main_v49) = val_main_v63 (F := F) x0)
    (h_main_v28_1 : V (Proc.devRef .tc main_v28_1) = val_main_v102 (F := F) x0) :
    StableHlo.after main_part1_ops0 V (Proc.devRef .tc main_v93) = val_main_v108 (F := F) := by
  after_results_simp
  rfl

/-- The first neighbour's column offset. -/
theorem i5_main_v94 (x0 : (⟨Cert.ReferenceIdeal.S4x384x224x224, .f32⟩ : BufTy).Contents (Elt F)) (V : Valuation τ sig (Elt F))
    (h_main_v30 : V (Proc.devRef .tc main_v30) = val_main_v44 (F := F) x0)
    (h_main_v49 : V (Proc.devRef .tc main_v49) = val_main_v63 (F := F) x0)
    (h_main_v28_1 : V (Proc.devRef .tc main_v28_1) = val_main_v102 (F := F) x0) :
    StableHlo.after main_part1_ops0 V (Proc.devRef .tc main_v94) = val_main_v109 (F := F) := by
  after_results_simp
  rfl

/-! ## The second fold but for its last scatter-add -/

/-- The second fold's first eight scatter-adds: the weight sums of eight of the nine neighbours accumulated on the padded grid. -/
theorem i6_main_v138 (x0 : (⟨Cert.ReferenceIdeal.S4x384x224x224, .f32⟩ : BufTy).Contents (Elt F)) (V : Valuation τ sig (Elt F))
    (h_main_v93 : V (Proc.devRef .tc main_v93) = val_main_v108 (F := F))
    (h_main_v94 : V (Proc.devRef .tc main_v94) = val_main_v109 (F := F))
    (h_main_v90 : V (Proc.devRef .tc main_v90) = val_main_v105 (F := F))
    (h_main_v92 : V (Proc.devRef .tc main_v92) = val_main_v107 (F := F) x0)
    (h_main_v89 : V (Proc.devRef .tc main_v89) = val_main_v104 (F := F) x0) :
    StableHlo.after main_part2_ops0 V (Proc.devRef .tc main_v138) = val_main_v153 (F := F) x0 := by
  after_results_simp
  rw [h_main_v93, h_main_v94, h_main_v90, h_main_v92, h_main_v89]
  rfl

/-- The last neighbour's plane of the weight sums. -/
theorem i6_main_v140 (x0 : (⟨Cert.ReferenceIdeal.S4x384x224x224, .f32⟩ : BufTy).Contents (Elt F)) (V : Valuation τ sig (Elt F))
    (h_main_v93 : V (Proc.devRef .tc main_v93) = val_main_v108 (F := F))
    (h_main_v94 : V (Proc.devRef .tc main_v94) = val_main_v109 (F := F))
    (h_main_v90 : V (Proc.devRef .tc main_v90) = val_main_v105 (F := F))
    (h_main_v92 : V (Proc.devRef .tc main_v92) = val_main_v107 (F := F) x0)
    (h_main_v89 : V (Proc.devRef .tc main_v89) = val_main_v104 (F := F) x0) :
    StableHlo.after main_part2_ops0 V (Proc.devRef .tc main_v140) = val_main_v155 (F := F) x0 := by
  after_results_simp
  rw [h_main_v89]
  rfl

end Cert.KernelIdeal.HostStagesB

end
-- ==== Proof.KHost.lean ====
/-
  The kernel program's host stretches against the reference's stages. Between its pallas_calls the kernel program applies
  to its buffers the very operations the reference applies to the corresponding ones (the reference has two more: the sum
  of the affinity over a patch's pixels and that sum's initial value, which the first pallas_call computes instead). So at
  each boundary a buffer of the kernel program holds the reference's stage of the corresponding buffer, provided the buffers
  the stretch reads do.
-/
import proofs.«179015_j72035191488647_1_alg».proof.Proof.KI.Run
import proofs.«179015_j72035191488647_1_alg».proof.Proof.RefRead
import proofs.«179015_j72035191488647_1_alg».proof.Proof.KHostB
import Idealize.ShloMosaic.Lib.StableHlo.Run

set_option maxRecDepth 16384

noncomputable section

namespace Cert.KernelIdeal.HostStages

open Cert.KernelIdeal Cert.KernelIdeal.Gen Cert.KernelIdeal.Hand
open Idealize.ShloMosaic Idealize.ShloMosaic.TcCoe Idealize.SL.Sem
open Cert.ReferenceIdeal.ReadP

variable {F : FTy → Type} [FloatOps F]
variable (m : (ℓ : Loc nD τ sig) → Buf (Elt F) ℓ) (ρ : Dev nD → PrngReg)

/-- The input image on core `c`. -/
abbrev img (c : Dev nD) : (⟨Cert.ReferenceIdeal.S4x384x224x224, .f32⟩ : BufTy).Contents (Elt F) := m ((c : Thread nD τ).loc main_arg0)

/-- Each operation's result read at a reference, continued: at its own result buffer the operation's function of what
    its operands hold, at any other reference what was there. (Used after the operand family of a concatenation has
    been read at its literal positions, where the first round of this rewriting stops.) -/
local macro "results_again" : tactic =>
  `(tactic| repeat (first
      | rw [StableHlo.nullary_result] | rw [StableHlo.unary_result] | rw [StableHlo.binary_result]
      | rw [StableHlo.ternary_result] | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)
      | (rw [StableHlo.nary_result_ne]; rotate_left; decide)))

/-! ## Before the first pallas_call

Each stretch over arbitrary contents `V` of the buffers: if the buffers it reads from before it hold the reference's stages,
so do the buffers it writes that are read later. -/

/-- The patch view of the image, the pooled super-tokens and the padding value's integer. -/
private theorem item0 (x : (⟨Cert.ReferenceIdeal.S4x384x224x224, .f32⟩ : BufTy).Contents (Elt F)) (V : Valuation τ sig (Elt F))
    (h0 : V (Proc.devRef .tc main_arg0) = x) :
    StableHlo.after main_part0_ops0 V (Proc.devRef .tc main_v3) = val_main_v3 (F := F) x
      ∧ StableHlo.after main_part0_ops0 V (Proc.devRef .tc main_v5) = val_main_v5 (F := F) x
      ∧ StableHlo.after main_part0_ops0 V (Proc.devRef .tc main_c) = val_main_c (F := F) := by
  refine ⟨?_, ?_, ?_⟩
  · after_results
    try simp only [h0]
    rfl
  · after_results
    try simp only [h0]
    rfl
  · after_results
    try simp only [h0]
    rfl

/-- The pooled super-tokens padded by one on each side. -/
private theorem item1 (x : (⟨Cert.ReferenceIdeal.S4x384x224x224, .f32⟩ : BufTy).Contents (Elt F)) (V : Valuation τ sig (Elt F))
    (h0 : V (Proc.devRef .tc main_c) = val_main_c (F := F))
    (h1 : V (Proc.devRef .tc main_v3) = val_main_v3 (F := F) x) :
    StableHlo.after main_part0_ops1 V (Proc.devRef .tc main_v6) = val_main_v6 (F := F) x := by
  after_results
  try simp only [h0, h1]
  rfl

set_option maxHeartbeats 4000000 in
/-- The nine shifted views of the padded super-tokens, joined on a new axis and laid out per patch. -/
private theorem item2 (x : (⟨Cert.ReferenceIdeal.S4x384x224x224, .f32⟩ : BufTy).Contents (Elt F)) (V : Valuation τ sig (Elt F))
    (h0 : V (Proc.devRef .tc main_v6) = val_main_v6 (F := F) x) :
    StableHlo.after main_part0_ops2 V (Proc.devRef .tc main_v27) = val_main_v27 (F := F) x := by
  after_results
  dsimp only [Matrix.cons_val]
  results_again
  rw [h0]
  rfl

/-! ## Between the first and the second pallas_call -/

/-- The refined neighbour super-tokens laid out per image, and the first three of the nine scatter-adds of the fold. -/
private theorem item4 (x : (⟨Cert.ReferenceIdeal.S4x384x224x224, .f32⟩ : BufTy).Contents (Elt F)) (V : Valuation τ sig (Elt F))
    (h0 : V (Proc.devRef .tc main_v28_0) = val_main_v42 (F := F) x) :
    StableHlo.after main_part0_ops3 V (Proc.devRef .tc main_v30) = val_main_v44 (F := F) x
      ∧ StableHlo.after main_part0_ops3 V (Proc.devRef .tc main_v49) = val_main_v63 (F := F) x := by
  refine ⟨?_, ?_⟩
  · after_results
    try simp only [h0]
    rfl
  · after_results_simp
    simp only [h0]
    rfl

/-- The last scatter-add of the affinity's fold, the normalisation of the refined super-tokens, and the second padding value's integer. -/
private theorem item7 (x : (⟨Cert.ReferenceIdeal.S4x384x224x224, .f32⟩ : BufTy).Contents (Elt F)) (V : Valuation τ sig (Elt F))
    (h0 : V (Proc.devRef .tc main_v138) = val_main_v153 (F := F) x)
    (h1 : V (Proc.devRef .tc main_v140) = val_main_v155 (F := F) x)
    (h2 : V (Proc.devRef .tc main_v87) = val_main_v101 (F := F) x) :
    StableHlo.after main_part3_ops0 V (Proc.devRef .tc main_v150) = val_main_v165 (F := F) x
      ∧ StableHlo.after main_part3_ops0 V (Proc.devRef .tc main_c_40) = val_main_c_45 (F := F) := by
  refine ⟨?_, ?_⟩
  · after_results_simp
    simp only [h0, h1, h2]
    rfl
  · after_results
    try simp only [h0, h1, h2]
    rfl

/-- The refined super-tokens padded by one on each side. -/
private theorem item8 (x : (⟨Cert.ReferenceIdeal.S4x384x224x224, .f32⟩ : BufTy).Contents (Elt F)) (V : Valuation τ sig (Elt F))
    (h0 : V (Proc.devRef .tc main_c_40) = val_main_c_45 (F := F))
    (h1 : V (Proc.devRef .tc main_v150) = val_main_v165 (F := F) x) :
    StableHlo.after main_part3_ops1 V (Proc.devRef .tc main_v151) = val_main_v166 (F := F) x := by
  after_results
  try simp only [h0, h1]
  rfl

set_option maxHeartbeats 4000000 in
/-- The nine shifted views of the padded refined super-tokens, joined on a new axis and laid out per patch. -/
private theorem item9 (x : (⟨Cert.ReferenceIdeal.S4x384x224x224, .f32⟩ : BufTy).Contents (Elt F)) (V : Valuation τ sig (Elt F))
    (h0 : V (Proc.devRef .tc main_v151) = val_main_v166 (F := F) x) :
    StableHlo.after main_part3_ops2 V (Proc.devRef .tc main_v172) = val_main_v187 (F := F) x := by
  after_results
  dsimp only [Matrix.cons_val]
  results_again
  rw [h0]
  rfl

/-! ## After the third pallas_call -/

/-- The result's patches laid out as an image. -/
private theorem item12 (x : (⟨Cert.ReferenceIdeal.S4x384x224x224, .f32⟩ : BufTy).Contents (Elt F)) (V : Valuation τ sig (Elt F))
    (h : V (Proc.devRef .tc main_v174) = val_main_v224 (F := F) x) :
    StableHlo.after main_part3_ops3 V (Proc.devRef .tc main_v177) = val_main_v227 (F := F) x := by
  after_results
  rw [h]
  rfl

/-! ## The stretches in order -/

/-- Before the first pallas_call: the pixel view and the neighbourhoods of the pooled super-tokens. -/
theorem host_pre (c : Dev nD) :
    W3 m ρ c (Proc.devRef .tc main_v5) = val_main_v5 (F := F) (img m c)
    ∧ W3 m ρ c (Proc.devRef .tc main_v27) = val_main_v27 (F := F) (img m c) := by
  obtain ⟨a3, a5, ac⟩ := item0 (img m c) (W0 m ρ c) rfl
  have a6 := item1 (img m c) (W1 m ρ c) ac a3
  have a27 := item2 (img m c) (W2 m ρ c) a6
  exact ⟨(W3_of m ρ c main_v5 (by decide)).trans ((W2_of m ρ c main_v5 (by decide)).trans a5), a27⟩

/-- Between the first and the second pallas_call: the two folds, the normalisation, the refined super-tokens'
    neighbourhoods — from the first call's two results. -/
theorem host_mid (c : Dev nD)
    (h0 : W4 m ρ c (Proc.devRef .tc main_v28_0) = val_main_v42 (F := F) (img m c))
    (h1 : W4 m ρ c (Proc.devRef .tc main_v28_1) = val_main_v102 (F := F) (img m c)) :
    W10 m ρ c (Proc.devRef .tc main_v172) = val_main_v187 (F := F) (img m c) := by
  obtain ⟨b30, b49⟩ := item4 (img m c) (W4 m ρ c) h0
  have b28 : W5 m ρ c (Proc.devRef .tc main_v28_1) = val_main_v102 (F := F) (img m c) :=
    (W5_of m ρ c main_v28_1 (by decide)).trans h1
  have c87 := Cert.KernelIdeal.HostStagesB.i5_main_v87 (img m c) (W5 m ρ c) b30 b49 b28
  have c89 := Cert.KernelIdeal.HostStagesB.i5_main_v89 (img m c) (W5 m ρ c) b30 b49 b28
  have c90 := Cert.KernelIdeal.HostStagesB.i5_main_v90 (img m c) (W5 m ρ c) b30 b49 b28
  have c92 := Cert.KernelIdeal.HostStagesB.i5_main_v92 (img m c) (W5 m ρ c) b30 b49 b28
  have c93 := Cert.KernelIdeal.HostStagesB.i5_main_v93 (img m c) (W5 m ρ c) b30 b49 b28
  have c94 := Cert.KernelIdeal.HostStagesB.i5_main_v94 (img m c) (W5 m ρ c) b30 b49 b28
  have d138 := Cert.KernelIdeal.HostStagesB.i6_main_v138 (img m c) (W6 m ρ c) c93 c94 c90 c92 c89
  have d140 := Cert.KernelIdeal.HostStagesB.i6_main_v140 (img m c) (W6 m ρ c) c93 c94 c90 c92 c89
  have d87 : W7 m ρ c (Proc.devRef .tc main_v87) = val_main_v101 (F := F) (img m c) :=
    (W7_of m ρ c main_v87 (by decide)).trans c87
  obtain ⟨e150, ec40⟩ := item7 (img m c) (W7 m ρ c) d138 d140 d87
  have f151 := item8 (img m c) (W8 m ρ c) ec40 e150
  exact item9 (img m c) (W9 m ρ c) f151

/-- After the third pallas_call: the result laid out as an image. -/
theorem host_post (c : Dev nD)
    (h : W12 m ρ c (Proc.devRef .tc main_v174) = val_main_v224 (F := F) (img m c)) :
    W13 m ρ c (Proc.devRef .tc main_v177) = val_main_v227 (F := F) (img m c) := by
  exact item12 (img m c) (W12 m ρ c) h

/-- The reference builds the refined super-tokens' neighbourhoods twice, from the same super-tokens. -/
theorem unfold_twice (x0 : (⟨Cert.ReferenceIdeal.S4x384x224x224, .f32⟩ : BufTy).Contents (Elt F)) :
    val_main_v223 (F := F) x0 = val_main_v187 (F := F) x0 := by
  unfold val_main_v223 val_main_v222 val_main_v221 val_main_v220 val_main_v219 val_main_v218 val_main_v217 val_main_v216 val_main_v215 val_main_v214 val_main_v213 val_main_v212 val_main_v211 val_main_v210 val_main_v209 val_main_v208 val_main_v207 val_main_v206 val_main_v205 val_main_v204 val_main_v203 val_main_v202 val_main_call2_v0 val_main_c_50
  unfold val_main_v187 val_main_v186 val_main_v185 val_main_v184 val_main_v183 val_main_v182 val_main_v181 val_main_v180 val_main_v179 val_main_v178 val_main_v177 val_main_v176 val_main_v175 val_main_v174 val_main_v173 val_main_v172 val_main_v171 val_main_v170 val_main_v169 val_main_v168 val_main_v167 val_main_v166 val_main_call1_v0 val_main_c_45
  generalize val_main_v165 (F := F) x0 = s
  rfl

end Cert.KernelIdeal.HostStages

end
-- ==== Proof.BridgeTypes.lean ====
/-
  Two names shared by the bridge modules: the kernel program's buffer contents as a pallas_call finds them, per core,
  and the input image's contents.
-/
import proofs.«179015_j72035191488647_1_alg».proof.KernelIdeal
import proofs.«179015_j72035191488647_1_alg».proof.ReferenceIdeal
import Idealize.ShloMosaic.PureOps.Ideal

noncomputable section

namespace Cert.Bridge

open Idealize.ShloMosaic Idealize.ShloMosaic.TcCoe Idealize.SL.Sem
open Cert.KernelIdeal (nD τ sig)

/-- The kernel program's buffer contents, per core, as a region finds them. -/
abbrev KVal := (c : Dev nD) → (b : Ref sig .tc) → Buf (Elt Ideal) ((c : Thread nD τ).loc b)
/-- The input image's contents. -/
abbrev Img := (⟨Cert.ReferenceIdeal.S4x384x224x224, .f32⟩ : BufTy).Contents (Elt Ideal)

end Cert.Bridge

end
-- ==== Proof.Bridge0.lean ====
/-
  The first pallas_call's two result arrays, block by block, are the reference's affinity-weighted pixel sums and the
  affinity's sums over a patch's pixels, index by index over the extended reals.
-/
import proofs.«179015_j72035191488647_1_alg».proof.Proof.KI.Reg0
import proofs.«179015_j72035191488647_1_alg».proof.Proof.RefRead
import proofs.«179015_j72035191488647_1_alg».proof.Proof.BridgeTypes
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge.Contrib0

open Idealize.ShloMosaic Idealize.ShloMosaic.TcCoe Idealize.SL.Sem Idealize.ShloMosaic.ValueIdx
open Cert.KernelIdeal (nD τ sig)

/-- The logit scale, one over the square root of the channel count, as the word both programs carry. -/
abbrev scl : EReal := Ideal.ofBits .f32 0x3D5105EC#32
/-- Minus infinity, the maximum's starting value. -/
abbrev ninf : EReal := Ideal.ofBits .f32 0xFF800000#32

/-- The softmax of a row of nine logits as both programs take it: the row's maximum (never below minus infinity) is
    subtracted, the exponentials are normalised by their sum. -/
def smx (lg : Fin 9 → EReal) (n : Fin 9) : EReal :=
  Ideal.div (Ideal.exp (lg n - max ninf (Finset.univ.fold max ninf lg)))
    (∑ k : Fin 9, Ideal.exp (lg k - max ninf (Finset.univ.fold max ninf lg)))

section KernelSide
open Cert.KernelIdeal Cert.KernelIdeal.Gen

/-! ## The kernel's softmax, one patch row at a time -/

/-- A per-row value [112, 64] spread along the nine neighbours: a unit axis is appended and broadcast. -/
def rowCol (hs : S112x64.ShapeCasts S112x64x1) (hb : S112x64x1.Broadcasts S112x64x9) (v : FVec Ideal S112x64 .f32) :
    FVec Ideal S112x64x9 .f32 :=
  broadcastTo S112x64x9 (shapeCast S112x64x1 v hs) hb

/-- Spread along the neighbours, a per-row value reads the same at each of them. -/
theorem rowCol_apply (hs : S112x64.ShapeCasts S112x64x1) (hb : S112x64x1.Broadcasts S112x64x9) (v : FVec Ideal S112x64 .f32)
    (p : Fin 112) (l : Fin 64) (n : Fin 9) : rowCol hs hb v (ix3 p l n) = v (ix2 p l) := by
  unfold rowCol
  rw [broadcastTo_apply _ hb (ix3 p l n) (ix3 p l (0 : Fin 1)) (fun a => by
    match a with
    | ⟨0, _⟩ => rfl
    | ⟨1, _⟩ => rfl
    | ⟨2, _⟩ => rfl)]
  exact shapeCast_apply v hs _ _ (by
    rw [Shape.rowMajor_val_two, Shape.rowMajor_val_three]
    show p.val * 64 + l.val = (p.val * 64 + l.val) * 1 + 0
    omega)

/-- A row index with the neighbour coordinate put back. -/
theorem lift_row (hr : S112x64x9.Reduces [2] S112x64) (p : Fin 112) (l : Fin 64) (k : Fin (S112x64x9.size 2)) :
    hr.lift (ix2 p l) k = ix3 p l (⟨k.val, k.isLt⟩ : Fin 9) := by
  funext a; apply Fin.ext
  match a with
  | ⟨0, _⟩ => rfl
  | ⟨1, _⟩ => rfl
  | ⟨2, _⟩ => rfl

/-- The maximum over the neighbour axis, at a row, is the fold of `max` over the row's nine entries. -/
theorem rowMax_apply (hr : S112x64x9.Reduces [2] S112x64) (v8 : FVec Ideal S112x64x9 .f32) (hφ : FKind.Formats .f32)
    (hacc : (0xFF800000#32 : BitVec 32) = 0xFF800000#32) (p : Fin 112) (l : Fin 64) :
    multiReduction .maximumf [2] S112x64 v8 0xFF800000#32 hr hφ hacc (ix2 p l)
      = Finset.univ.fold max ninf (fun n' : Fin 9 => v8 (ix3 p l n')) := by
  refine (Ideal.multiReduction_maximumf_single v8 0xFF800000#32 hr hφ hacc (ix2 p l)).trans ?_
  have hf : (v8 ∘ hr.lift (ix2 p l)) = fun n' : Fin 9 => v8 (ix3 p l n') := funext fun k => congrArg v8 (lift_row hr p l k)
  exact congrArg (fun f => Finset.fold max ninf f (Finset.univ : Finset (Fin 9))) hf

/-- The sum over the neighbour axis, at a row, is the sum of the row's nine entries. -/
theorem rowSum_apply (hr : S112x64x9.Reduces [2] S112x64) (w : FVec Ideal S112x64x9 .f32) (hφ : FKind.Formats .f32)
    (hacc : (0x00000000#32 : BitVec 32) = 0x00000000#32) (p : Fin 112) (l : Fin 64) :
    multiReduction .add [2] S112x64 w 0x00000000#32 hr hφ hacc (ix2 p l) = ∑ k : Fin 9, w (ix3 p l k) := by
  refine (Ideal.multiReduction_add_single w 0x00000000#32 hr hφ hacc (ix2 p l)).trans ?_
  exact Finset.sum_congr rfl fun k _ => congrArg w (lift_row hr p l k)

/-- The row-wise softmax over the neighbour axis, as the kernel's operations build it from the logits. -/
def smxVec (hr : S112x64x9.Reduces [2] S112x64) (hs : S112x64.ShapeCasts S112x64x1) (hb : S112x64x1.Broadcasts S112x64x9)
    (v8 : FVec Ideal S112x64x9 .f32) : FVec Ideal S112x64x9 .f32 :=
  divf (exp (subf v8 (rowCol hs hb (maximumf (broadcast S112x64 (FloatOps.ofBits .f32 0xFF800000#32))
      (multiReduction .maximumf [2] S112x64 v8 0xFF800000#32 hr (.inl rfl) rfl)))))
    (rowCol hs hb (multiReduction .add [2] S112x64 (exp (subf v8 (rowCol hs hb (maximumf (broadcast S112x64 (FloatOps.ofBits .f32 0xFF800000#32))
      (multiReduction .maximumf [2] S112x64 v8 0xFF800000#32 hr (.inl rfl) rfl))))) 0x00000000#32 hr (.inl rfl) rfl))

/-- The kernel's softmax at an index is the softmax of that row's nine logits. -/
theorem smxVec_apply (hr : S112x64x9.Reduces [2] S112x64) (hs : S112x64.ShapeCasts S112x64x1) (hb : S112x64x1.Broadcasts S112x64x9)
    (v8 : FVec Ideal S112x64x9 .f32) (p : Fin 112) (l : Fin 64) (n : Fin 9) :
    smxVec hr hs hb v8 (ix3 p l n) = smx (fun n' => v8 (ix3 p l n')) n := by
  have hmax : ∀ (hφ : FKind.Formats .f32) (hacc : (0xFF800000#32 : BitVec 32) = 0xFF800000#32),
      maximumf (broadcast S112x64 (FloatOps.ofBits (F := Ideal) .f32 0xFF800000#32))
      (multiReduction .maximumf [2] S112x64 v8 0xFF800000#32 hr hφ hacc) (ix2 p l)
      = max ninf (Finset.univ.fold max ninf (fun n' : Fin 9 => v8 (ix3 p l n'))) := fun hφ hacc =>
    congrArg (max ninf) (rowMax_apply hr v8 hφ hacc p l)
  unfold smxVec smx
  show Ideal.div (Ideal.exp (v8 (ix3 p l n) - rowCol hs hb _ (ix3 p l n))) (rowCol hs hb _ (ix3 p l n)) = _
  rw [rowCol_apply, rowCol_apply, hmax]
  refine congrArg (Ideal.div _) ?_
  refine (rowSum_apply hr _ _ _ p l).trans ?_
  refine Finset.sum_congr rfl fun k _ => ?_
  show Ideal.exp (v8 (ix3 p l k) - rowCol hs hb _ (ix3 p l k)) = _
  rw [rowCol_apply, hmax]

/-! ## The kernel's two products, and its sum over a patch's pixels -/

theorem lhs_lg_0 (i : S112x64x9.Idx) (q : dot_S112x64x384_S112x384x9_S112x64x9_2_1_1_2_0_0.contr.Idx) : (dot_S112x64x384_S112x384x9_S112x64x9_2_1_1_2_0_0.lhsIdx i q 0).val = (i 0).val := by
  unfold DotDims.lhsIdx
  rw [dif_pos (show (0 : Fin S112x64x384.rank) ∈ dot_S112x64x384_S112x384x9_S112x64x9_2_1_1_2_0_0.lhsBatch by decide)]
  rfl
theorem lhs_lg_1 (i : S112x64x9.Idx) (q : dot_S112x64x384_S112x384x9_S112x64x9_2_1_1_2_0_0.contr.Idx) : (dot_S112x64x384_S112x384x9_S112x64x9_2_1_1_2_0_0.lhsIdx i q 1).val = (i 1).val := by
  unfold DotDims.lhsIdx
  rw [dif_neg (show ¬(1 : Fin S112x64x384.rank) ∈ dot_S112x64x384_S112x384x9_S112x64x9_2_1_1_2_0_0.lhsBatch by decide), dif_pos (show (1 : Fin S112x64x384.rank) ∈ dot_S112x64x384_S112x384x9_S112x64x9_2_1_1_2_0_0.lhsNonContracting by decide)]
  rfl
theorem lhs_lg_2 (i : S112x64x9.Idx) (q : dot_S112x64x384_S112x384x9_S112x64x9_2_1_1_2_0_0.contr.Idx) : (dot_S112x64x384_S112x384x9_S112x64x9_2_1_1_2_0_0.lhsIdx i q 2).val = (q ⟨0, by decide⟩).val :=
  dot_S112x64x384_S112x384x9_S112x64x9_2_1_1_2_0_0.lhsIdx_val_of_single rfl i q
theorem rhs_lg_0 (i : S112x64x9.Idx) (q : dot_S112x64x384_S112x384x9_S112x64x9_2_1_1_2_0_0.contr.Idx) : (dot_S112x64x384_S112x384x9_S112x64x9_2_1_1_2_0_0.rhsIdx i q 0).val = (i 0).val := by
  unfold DotDims.rhsIdx
  rw [dif_pos (show (0 : Fin S112x384x9.rank) ∈ dot_S112x64x384_S112x384x9_S112x64x9_2_1_1_2_0_0.rhsBatch by decide)]
  rfl
theorem rhs_lg_1 (i : S112x64x9.Idx) (q : dot_S112x64x384_S112x384x9_S112x64x9_2_1_1_2_0_0.contr.Idx) : (dot_S112x64x384_S112x384x9_S112x64x9_2_1_1_2_0_0.rhsIdx i q 1).val = (q ⟨0, by decide⟩).val :=
  dot_S112x64x384_S112x384x9_S112x64x9_2_1_1_2_0_0.rhsIdx_val_of_single rfl i q
theorem rhs_lg_2 (i : S112x64x9.Idx) (q : dot_S112x64x384_S112x384x9_S112x64x9_2_1_1_2_0_0.contr.Idx) : (dot_S112x64x384_S112x384x9_S112x64x9_2_1_1_2_0_0.rhsIdx i q 2).val = (i 2).val := by
  unfold DotDims.rhsIdx
  rw [dif_neg (show ¬(2 : Fin S112x384x9.rank) ∈ dot_S112x64x384_S112x384x9_S112x64x9_2_1_1_2_0_0.rhsBatch by decide), dif_pos (show (2 : Fin S112x384x9.rank) ∈ dot_S112x64x384_S112x384x9_S112x64x9_2_1_1_2_0_0.rhsNonContracting by decide)]
  rfl

theorem lhs_st_0 (i : S112x9x384.Idx) (q : dot_S112x9x64_S112x64x384_S112x9x384_2_1_1_2_0_0.contr.Idx) : (dot_S112x9x64_S112x64x384_S112x9x384_2_1_1_2_0_0.lhsIdx i q 0).val = (i 0).val := by
  unfold DotDims.lhsIdx
  rw [dif_pos (show (0 : Fin S112x9x64.rank) ∈ dot_S112x9x64_S112x64x384_S112x9x384_2_1_1_2_0_0.lhsBatch by decide)]
  rfl
theorem lhs_st_1 (i : S112x9x384.Idx) (q : dot_S112x9x64_S112x64x384_S112x9x384_2_1_1_2_0_0.contr.Idx) : (dot_S112x9x64_S112x64x384_S112x9x384_2_1_1_2_0_0.lhsIdx i q 1).val = (i 1).val := by
  unfold DotDims.lhsIdx
  rw [dif_neg (show ¬(1 : Fin S112x9x64.rank) ∈ dot_S112x9x64_S112x64x384_S112x9x384_2_1_1_2_0_0.lhsBatch by decide), dif_pos (show (1 : Fin S112x9x64.rank) ∈ dot_S112x9x64_S112x64x384_S112x9x384_2_1_1_2_0_0.lhsNonContracting by decide)]
  rfl
theorem lhs_st_2 (i : S112x9x384.Idx) (q : dot_S112x9x64_S112x64x384_S112x9x384_2_1_1_2_0_0.contr.Idx) : (dot_S112x9x64_S112x64x384_S112x9x384_2_1_1_2_0_0.lhsIdx i q 2).val = (q ⟨0, by decide⟩).val :=
  dot_S112x9x64_S112x64x384_S112x9x384_2_1_1_2_0_0.lhsIdx_val_of_single rfl i q
theorem rhs_st_0 (i : S112x9x384.Idx) (q : dot_S112x9x64_S112x64x384_S112x9x384_2_1_1_2_0_0.contr.Idx) : (dot_S112x9x64_S112x64x384_S112x9x384_2_1_1_2_0_0.rhsIdx i q 0).val = (i 0).val := by
  unfold DotDims.rhsIdx
  rw [dif_pos (show (0 : Fin S112x64x384.rank) ∈ dot_S112x9x64_S112x64x384_S112x9x384_2_1_1_2_0_0.rhsBatch by decide)]
  rfl
theorem rhs_st_1 (i : S112x9x384.Idx) (q : dot_S112x9x64_S112x64x384_S112x9x384_2_1_1_2_0_0.contr.Idx) : (dot_S112x9x64_S112x64x384_S112x9x384_2_1_1_2_0_0.rhsIdx i q 1).val = (q ⟨0, by decide⟩).val :=
  dot_S112x9x64_S112x64x384_S112x9x384_2_1_1_2_0_0.rhsIdx_val_of_single rfl i q
theorem rhs_st_2 (i : S112x9x384.Idx) (q : dot_S112x9x64_S112x64x384_S112x9x384_2_1_1_2_0_0.contr.Idx) : (dot_S112x9x64_S112x64x384_S112x9x384_2_1_1_2_0_0.rhsIdx i q 2).val = (i 2).val := by
  unfold DotDims.rhsIdx
  rw [dif_neg (show ¬(2 : Fin S112x64x384.rank) ∈ dot_S112x9x64_S112x64x384_S112x9x384_2_1_1_2_0_0.rhsBatch by decide), dif_pos (show (2 : Fin S112x64x384.rank) ∈ dot_S112x9x64_S112x64x384_S112x9x384_2_1_1_2_0_0.rhsNonContracting by decide)]
  rfl

/-- The pixel block with its unit axis dropped reads the block at (0, p, l, c). -/
theorem pix_apply (x0 : Vec Ideal S1x112x64x384 .f32) (p : Fin 112) (l : Fin 64) (c : Fin 384) :
    k0_pay1 x0 (ix3 p l c) = x0 (ix4 (0 : Fin 1) p l c) := by
  unfold k0_pay1
  show shapeCast S112x64x384 x0 _ (ix3 p l c) = _
  exact shapeCast_1abc_abc_apply x0 _ p l c

/-- The logits, as the kernel's operations build them from the two blocks: pixels times neighbour super-tokens, summed
    over the channels, times the scale. -/
def lgVec (h3 : S1x112x384x9.ShapeCasts S112x384x9) (x0 : Vec Ideal S1x112x64x384 .f32) (x3 : Vec Ideal S1x112x384x9 .f32) :
    FVec Ideal S112x64x9 .f32 :=
  mulf (matmul dot_S112x64x384_S112x384x9_S112x64x9_2_1_1_2_0_0 none (k0_pay1 x0) (truncf .bf16 (shapeCast S112x384x9 x3 h3) bitsLt_bf16_f32)
      (constant S112x64x9 .f32 0x00000000#32))
    (broadcast S112x64x9 (Scalar.ofBits .f32 0x3D5105EC#32))

/-- A logit at (p, l, n): the channel sum of pixel (p, l) against super-token n of patch p, scaled. -/
theorem lgVec_apply (h3 : S1x112x384x9.ShapeCasts S112x384x9) (x0 : Vec Ideal S1x112x64x384 .f32) (x3 : Vec Ideal S1x112x384x9 .f32)
    (p : Fin 112) (l : Fin 64) (n : Fin 9) :
    lgVec h3 x0 x3 (ix3 p l n) = (∑ c : Fin 384, x0 (ix4 (0 : Fin 1) p l c) * x3 (ix4 (0 : Fin 1) p c n)) * scl := by
  unfold lgVec
  show FloatOps.matmul (F := Ideal) dot_S112x64x384_S112x384x9_S112x64x9_2_1_1_2_0_0 none _ _ (constant (F := Ideal) S112x64x9 .f32 0x00000000#32) (ix3 p l n) * scl = _
  refine congrArg (· * scl) ?_
  rw [Ideal.matmul_constant_zero_apply, ← Equiv.sum_comp (contrEquiv1 dot_S112x64x384_S112x384x9_S112x64x9_2_1_1_2_0_0 384 rfl rfl).symm]
  refine Finset.sum_congr rfl fun k _ => ?_
  have hk := contrEquiv1_symm_val dot_S112x64x384_S112x384x9_S112x64x9_2_1_1_2_0_0 384 rfl rfl k
  have el : dot_S112x64x384_S112x384x9_S112x64x9_2_1_1_2_0_0.lhsIdx (ix3 p l n) ((contrEquiv1 dot_S112x64x384_S112x384x9_S112x64x9_2_1_1_2_0_0 384 rfl rfl).symm k) = ix3 p l k := funext fun a => Fin.ext (by
    match a with
    | ⟨0, _⟩ => exact lhs_lg_0 _ _
    | ⟨1, _⟩ => exact lhs_lg_1 _ _
    | ⟨2, _⟩ => exact (lhs_lg_2 _ _).trans hk)
  have er : dot_S112x64x384_S112x384x9_S112x64x9_2_1_1_2_0_0.rhsIdx (ix3 p l n) ((contrEquiv1 dot_S112x64x384_S112x384x9_S112x64x9_2_1_1_2_0_0 384 rfl rfl).symm k) = ix3 p k n := funext fun a => Fin.ext (by
    match a with
    | ⟨0, _⟩ => exact rhs_lg_0 _ _
    | ⟨1, _⟩ => exact (rhs_lg_1 _ _).trans hk
    | ⟨2, _⟩ => exact rhs_lg_2 _ _)
  rw [el, er, pix_apply]
  show _ * shapeCast S112x384x9 x3 h3 (ix3 p k n) = _
  rw [shapeCast_1abc_abc_apply]

/-- The kernel's affinity is the row-wise softmax of its logits. -/
theorem pay2_eq (x0 : Vec Ideal S1x112x64x384 .f32) (x3 : Vec Ideal S1x112x384x9 .f32) :
    k0_pay2 x0 x3 = smxVec reduces_S112x64x9_S112x64 shapeCasts_S112x64_S112x64x1 broadcasts_S112x64x1_S112x64x9
      (lgVec shapeCasts_S1x112x384x9_S112x384x9 x0 x3) := rfl

/-- THE KERNEL'S AFFINITY AT AN INDEX: the softmax, over the nine neighbours, of pixel (p, l)'s scaled channel sums. -/
theorem ker_aff (x0 : Vec Ideal S1x112x64x384 .f32) (x3 : Vec Ideal S1x112x384x9 .f32) (p : Fin 112) (l : Fin 64) (n : Fin 9) :
    k0_pay2 x0 x3 (ix3 p l n)
      = smx (fun n' => (∑ c : Fin 384, x0 (ix4 (0 : Fin 1) p l c) * x3 (ix4 (0 : Fin 1) p c n')) * scl) n := by
  rw [pay2_eq, smxVec_apply]
  exact congrArg (fun f => smx f n) (funext fun n' => lgVec_apply _ x0 x3 p l n')

/-- The contribution block at (u, p, c, n): over the patch's pixels, the affinity to neighbour n times channel c. -/
theorem pay3_apply (x0 : Vec Ideal S1x112x64x384 .f32) (x3 : Vec Ideal S1x112x384x9 .f32) (u : Fin 1) (p : Fin 112) (c : Fin 384) (n : Fin 9) :
    k0_pay3 x0 x3 (ix4 u p c n) = ∑ l : Fin 64, k0_pay2 x0 x3 (ix3 p l n) * x0 (ix4 (0 : Fin 1) p l c) := by
  unfold k0_pay3
  generalize k0_pay2 x0 x3 = aff
  refine (shapeCast_abc_1abc_apply _ _ u p c n).trans ?_
  refine (transpose_ix3_021_apply _ _ p c n).trans ?_
  show FloatOps.matmul (F := Ideal) dot_S112x9x64_S112x64x384_S112x9x384_2_1_1_2_0_0 none _ _ (constant (F := Ideal) S112x9x384 .f32 0x00000000#32) (ix3 p n c) = _
  rw [Ideal.matmul_constant_zero_apply, ← Equiv.sum_comp (contrEquiv1 dot_S112x9x64_S112x64x384_S112x9x384_2_1_1_2_0_0 64 rfl rfl).symm]
  refine Finset.sum_congr rfl fun k _ => ?_
  have hk := contrEquiv1_symm_val dot_S112x9x64_S112x64x384_S112x9x384_2_1_1_2_0_0 64 rfl rfl k
  have el : dot_S112x9x64_S112x64x384_S112x9x384_2_1_1_2_0_0.lhsIdx (ix3 p n c) ((contrEquiv1 dot_S112x9x64_S112x64x384_S112x9x384_2_1_1_2_0_0 64 rfl rfl).symm k) = ix3 p n k := funext fun a => Fin.ext (by
    match a with
    | ⟨0, _⟩ => exact lhs_st_0 _ _
    | ⟨1, _⟩ => exact lhs_st_1 _ _
    | ⟨2, _⟩ => exact (lhs_st_2 _ _).trans hk)
  have er : dot_S112x9x64_S112x64x384_S112x9x384_2_1_1_2_0_0.rhsIdx (ix3 p n c) ((contrEquiv1 dot_S112x9x64_S112x64x384_S112x9x384_2_1_1_2_0_0 64 rfl rfl).symm k) = ix3 p k c := funext fun a => Fin.ext (by
    match a with
    | ⟨0, _⟩ => exact rhs_st_0 _ _
    | ⟨1, _⟩ => exact (rhs_st_1 _ _).trans hk
    | ⟨2, _⟩ => exact rhs_st_2 _ _)
  rw [el, er, pix_apply]
  refine congrArg (· * _) ?_
  exact transpose_ix3_021_apply _ _ p n k

/-- A reduced index (p, n) with the pixel coordinate put back. -/
theorem lift_pix (hr : S112x64x9.Reduces [1] S112x9) (p : Fin 112) (n : Fin 9) (k : Fin (S112x64x9.size 1)) :
    hr.lift (ix2 p n) k = ix3 p (⟨k.val, k.isLt⟩ : Fin 64) n := by
  funext a; apply Fin.ext
  match a with
  | ⟨0, _⟩ => rfl
  | ⟨1, _⟩ => rfl
  | ⟨2, _⟩ => rfl

/-- The weight-sum block at (u, p, n): the affinity to neighbour n summed over the patch's pixels. -/
theorem pay4_apply (x0 : Vec Ideal S1x112x64x384 .f32) (x3 : Vec Ideal S1x112x384x9 .f32) (u : Fin 1) (p : Fin 112) (n : Fin 9) :
    k0_pay4 x0 x3 (ix3 u p n) = ∑ l : Fin 64, k0_pay2 x0 x3 (ix3 p l n) := by
  unfold k0_pay4
  generalize k0_pay2 x0 x3 = aff
  refine (shapeCast_ab_1ab_apply _ _ u p n).trans ?_
  refine (Ideal.multiReduction_add_single aff 0x00000000#32 reduces_S112x64x9_S112x9 _ _ (ix2 p n)).trans ?_
  exact Finset.sum_congr rfl fun k _ => congrArg aff (lift_pix _ p n k)

end KernelSide

section ReferenceSide
open Cert.ReferenceIdeal Cert.ReferenceIdeal.Gen Cert.ReferenceIdeal.ReadP

/-! ## The reference's softmax, one patch row at a time -/

/-- A reference logit at (b, m, l, n): the channel sum of pixel (m, l) against super-token n of patch m, scaled. -/
theorem ref_lg (x0 : Img) (b : Fin 4) (m : Fin 784) (l : Fin 64) (n : Fin 9) :
    val_main_v30 (F := Ideal) x0 (ix4 b m l n)
      = (∑ c : Fin 384, val_main_v5 (F := Ideal) x0 (ix4 b m l c) * val_main_v27 (F := Ideal) x0 (ix4 b m c n)) * scl := by
  rw [val_main_v30_apply, val_main_v28_apply, val_main_v29_apply, val_main_cst_1_apply]
  show (∑ k : Fin 384, _) * scl = _
  refine congrArg (· * scl) (Finset.sum_congr rfl fun k _ => ?_)
  have el : lidx_main_v28 (ix4 b m l n) k = ix4 b m l k := funext fun a => by
    match a with
    | ⟨0, _⟩ => rfl
    | ⟨1, _⟩ => rfl
    | ⟨2, _⟩ => rfl
    | ⟨3, _⟩ => rfl
  have er : ridx_main_v28 (ix4 b m l n) k = ix4 b m k n := funext fun a => by
    match a with
    | ⟨0, _⟩ => rfl
    | ⟨1, _⟩ => rfl
    | ⟨2, _⟩ => rfl
    | ⟨3, _⟩ => rfl
  rw [el, er]

/-- A row index of the reference's logits with the neighbour coordinate put back. -/
theorem lift_refrow (hr : S4x784x64x9.Reduces [3] S4x784x64) (b : Fin 4) (m : Fin 784) (l : Fin 64) (k : Fin (S4x784x64x9.size 3)) :
    hr.lift (ix3 b m l) k = ix4 b m l (⟨k.val, k.isLt⟩ : Fin 9) := by
  funext a; apply Fin.ext
  match a with
  | ⟨0, _⟩ => rfl
  | ⟨1, _⟩ => rfl
  | ⟨2, _⟩ => rfl
  | ⟨3, _⟩ => rfl

/-- The reference's row maximum, never below minus infinity. -/
theorem ref_max (x0 : Img) (b : Fin 4) (m : Fin 784) (l : Fin 64) :
    val_main_v33 (F := Ideal) x0 (ix3 b m l)
      = max ninf (Finset.univ.fold max ninf (fun n' : Fin 9 => val_main_v30 (F := Ideal) x0 (ix4 b m l n'))) := by
  rw [val_main_v33_apply, val_main_v32_apply, val_main_cst_3_apply]
  show max ninf (val_main_v31 (F := Ideal) x0 (ix3 b m l)) = _
  refine congrArg (max ninf) ?_
  unfold val_main_v31
  generalize val_main_v30 (F := Ideal) x0 = y
  have hr : S4x784x64x9.Reduces [3] S4x784x64 := by decide +kernel
  refine (Host.reduce_eq_fold_single (FloatOps.maximumf (F := Ideal) (φ := .f32)) y _ reducesTo_S4x784x64x9_S4x784x64_d3 hr h_S_ (ix3 b m l)).trans ?_
  have hf : (y ∘ hr.lift (ix3 b m l)) = fun n' : Fin 9 => y (ix4 b m l n') := funext fun k => congrArg y (lift_refrow hr b m l k)
  exact congrArg (fun f => Finset.fold max ninf f (Finset.univ : Finset (Fin 9))) hf

/-- The reference's exponential at (b, m, l, n): of the logit less the row maximum. -/
theorem ref_exp (x0 : Img) (b : Fin 4) (m : Fin 784) (l : Fin 64) (n : Fin 9) :
    val_main_v37 (F := Ideal) x0 (ix4 b m l n)
      = Ideal.exp (val_main_v30 (F := Ideal) x0 (ix4 b m l n) - val_main_v33 (F := Ideal) x0 (ix3 b m l)) := by
  rw [val_main_v37_apply, val_main_v36_apply, val_main_v35_apply, val_main_v34_apply]
  have e : idx_main_v34 (idx_main_v35 (ix4 b m l n)) = ix3 b m l := funext fun a => by
    match a with
    | ⟨0, _⟩ => rfl
    | ⟨1, _⟩ => rfl
    | ⟨2, _⟩ => rfl
  rw [e]
  rfl

/-- The reference's row sum of exponentials. -/
theorem ref_sum (x0 : Img) (b : Fin 4) (m : Fin 784) (l : Fin 64) :
    val_main_v38 (F := Ideal) x0 (ix3 b m l) = ∑ k : Fin 9, val_main_v37 (F := Ideal) x0 (ix4 b m l k) := by
  rw [val_main_v38_apply, val_main_cst_4_apply]
  show Ideal.ofBits .f32 0x00000000#32 + _ = _
  rw [Ideal.ofBits_zero_f32, zero_add]
  refine Finset.sum_congr rfl fun k _ => congrArg _ (funext fun a => ?_)
  match a with
  | ⟨0, _⟩ => rfl
  | ⟨1, _⟩ => rfl
  | ⟨2, _⟩ => rfl
  | ⟨3, _⟩ => rfl

/-- THE REFERENCE'S AFFINITY AT AN INDEX: the same softmax of the same scaled channel sums. -/
theorem ref_aff (x0 : Img) (b : Fin 4) (m : Fin 784) (l : Fin 64) (n : Fin 9) :
    val_main_v41 (F := Ideal) x0 (ix4 b m l n)
      = smx (fun n' => (∑ c : Fin 384, val_main_v5 (F := Ideal) x0 (ix4 b m l c) * val_main_v27 (F := Ideal) x0 (ix4 b m c n')) * scl) n := by
  rw [val_main_v41_apply, val_main_v40_apply, val_main_v39_apply]
  have e : idx_main_v39 (idx_main_v40 (ix4 b m l n)) = ix3 b m l := funext fun a => by
    match a with
    | ⟨0, _⟩ => rfl
    | ⟨1, _⟩ => rfl
    | ⟨2, _⟩ => rfl
  rw [e, ref_sum, ref_exp]
  simp only [ref_exp, ref_max, ref_lg]
  rfl

end ReferenceSide

section Blocks
open Cert.KernelIdeal Cert.KernelIdeal.Gen Cert.KernelIdeal.Hand
open Cert.ReferenceIdeal.ReadP

/-! ## One patch of one block against the reference's arrays -/

/-- The contributions of patch `p` of a block whose pixel and super-token rows are rows `(b, m)` of the reference's
    arrays are the reference's contributions at `(b, m)`: the same products summed over the patch's pixels, the
    factors in the other order. -/
theorem stc_patch (x0 : Img) (X0 : Vec Ideal S1x112x64x384 .f32) (X1 : Vec Ideal S1x112x384x9 .f32) (b : Fin 4) (m : Fin 784) (p : Fin 112)
    (h0 : ∀ (l : Fin 64) (ch : Fin 384), X0 (ix4 (0 : Fin 1) p l ch) = val_main_v5 (F := Ideal) x0 (ix4 b m l ch))
    (h1 : ∀ (ch : Fin 384) (n : Fin 9), X1 (ix4 (0 : Fin 1) p ch n) = val_main_v27 (F := Ideal) x0 (ix4 b m ch n))
    (u : Fin 1) (ch : Fin 384) (n : Fin 9) :
    k0_pay3 X0 X1 (ix4 u p ch n) = val_main_v42 (F := Ideal) x0 (ix4 b m ch n) := by
  rw [pay3_apply, val_main_v42_apply]
  refine Finset.sum_congr rfl fun k _ => ?_
  have el : lidx_main_v42 (ix4 b m ch n) k = ix4 b m k ch := funext fun a => by
    match a with
    | ⟨0, _⟩ => rfl
    | ⟨1, _⟩ => rfl
    | ⟨2, _⟩ => rfl
    | ⟨3, _⟩ => rfl
  have er : ridx_main_v42 (ix4 b m ch n) k = ix4 b m k n := funext fun a => by
    match a with
    | ⟨0, _⟩ => rfl
    | ⟨1, _⟩ => rfl
    | ⟨2, _⟩ => rfl
    | ⟨3, _⟩ => rfl
  rw [el, er, ker_aff, ref_aff, h0 k ch]
  simp only [h0, h1]
  exact mul_comm _ _

/-- The weight sums of patch `p` of such a block are the reference's at `(b, m)`. -/
theorem norm_patch (x0 : Img) (X0 : Vec Ideal S1x112x64x384 .f32) (X1 : Vec Ideal S1x112x384x9 .f32) (b : Fin 4) (m : Fin 784) (p : Fin 112)
    (h0 : ∀ (l : Fin 64) (ch : Fin 384), X0 (ix4 (0 : Fin 1) p l ch) = val_main_v5 (F := Ideal) x0 (ix4 b m l ch))
    (h1 : ∀ (ch : Fin 384) (n : Fin 9), X1 (ix4 (0 : Fin 1) p ch n) = val_main_v27 (F := Ideal) x0 (ix4 b m ch n))
    (u : Fin 1) (n : Fin 9) :
    k0_pay4 X0 X1 (ix3 u p n) = val_main_v102 (F := Ideal) x0 (ix3 b m n) := by
  rw [pay4_apply, val_main_v102_apply, val_main_cst_24_apply]
  show _ = Ideal.ofBits .f32 0x00000000#32 + _
  rw [Ideal.ofBits_zero_f32, zero_add]
  refine Finset.sum_congr rfl fun k _ => ?_
  have e : idx_main_v102 (ix3 b m n) k = ix4 b m k n := funext fun a => by
    match a with
    | ⟨0, _⟩ => rfl
    | ⟨1, _⟩ => rfl
    | ⟨2, _⟩ => rfl
    | ⟨3, _⟩ => rfl
  rw [e, ker_aff, ref_aff]
  simp only [h0, h1]

/-! ## The blocks of the four windows -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The printed index maps, decided over the grid: at every point the four windows sit at the same batch and the same
    block of 112 patches, and at block 0 on every other axis. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_3.index t (0 : Fin 3) = win0_2.index t (0 : Fin 4) ∧ win0_3.index t (1 : Fin 3) = win0_2.index t (1 : Fin 4)
    ∧ win0_3.index t (2 : Fin 3) = 0
    ∧ win0_2.index t (2 : Fin 4) = 0 ∧ win0_2.index t (3 : Fin 4) = 0
    ∧ win0_2.index t (0 : Fin 4) < 4 ∧ win0_2.index t (1 : Fin 4) < 7 :=
  (by decide +kernel : ∀ t : Fin grid0.N, _)

/-- Every batch and every block of 112 patches is some point's. -/
theorem idx_onto : ∀ (q0 : Fin 4) (q1 : Fin 7), ∃ t : Fin cfg0.N, win0_2.index t (0 : Fin 4) = q0.val ∧ win0_2.index t (1 : Fin 4) = q1.val :=
  (by decide +kernel : ∀ (q0 : Fin 4) (q1 : Fin 7), ∃ t : Fin grid0.N, win0_2.index t (0 : Fin 4) = q0.val ∧ win0_2.index t (1 : Fin 4) = q1.val)

/-- The pixel window's block at point `t` reads the pixel array at the point's batch and its block of patches. -/
theorem pix_block (V : KVal) (c : Dev nD) (t : Fin cfg0.N) (p : Fin 112) (l : Fin 64) (ch : Fin 384) (k : S4x784x64x384.Idx)
    (hk0 : (k 0).val = win0_2.index t (0 : Fin 4)) (hk1 : (k 1).val = win0_2.index t (1 : Fin 4) * 112 + p.val)
    (hk2 : (k 2).val = l.val) (hk3 : (k 3).val = ch.val) :
    (iblk0 V c 0 t : Vec Ideal S1x112x64x384 .f32) (ix4 (0 : Fin 1) p l ch) = (V c main_v5 : S4x784x64x384.Idx → Elt Ideal .f32) k := by
  obtain ⟨e0, e1, e2, e3, -⟩ := idx_facts t
  unfold iblk0
  rw [View.read_apply]
  show V c main_v5 _ = V c main_v5 _
  congr 1
  funext a
  apply Fin.ext
  match a with
  | ⟨0, _⟩ => show win0_0.index t (0 : Fin 4) * 1 + 1 * 0 = (k 0).val; omega
  | ⟨1, _⟩ => show win0_0.index t (1 : Fin 4) * 112 + 1 * p.val = (k 1).val; omega
  | ⟨2, _⟩ => show win0_0.index t (2 : Fin 4) * 64 + 1 * l.val = (k 2).val; omega
  | ⟨3, _⟩ => show win0_0.index t (3 : Fin 4) * 384 + 1 * ch.val = (k 3).val; omega

/-- The super-token window's block at point `t` reads the super-token array at the same batch and block of patches. -/
theorem stu_block (V : KVal) (c : Dev nD) (t : Fin cfg0.N) (p : Fin 112) (ch : Fin 384) (n : Fin 9) (k : S4x784x384x9.Idx)
    (hk0 : (k 0).val = win0_2.index t (0 : Fin 4)) (hk1 : (k 1).val = win0_2.index t (1 : Fin 4) * 112 + p.val)
    (hk2 : (k 2).val = ch.val) (hk3 : (k 3).val = n.val) :
    (iblk0 V c 1 t : Vec Ideal S1x112x384x9 .f32) (ix4 (0 : Fin 1) p ch n) = (V c main_v27 : S4x784x384x9.Idx → Elt Ideal .f32) k := by
  obtain ⟨-, -, -, -, e0, e1, e2, e3, -⟩ := idx_facts t
  unfold iblk0
  rw [View.read_apply]
  show V c main_v27 _ = V c main_v27 _
  congr 1
  funext a
  apply Fin.ext
  match a with
  | ⟨0, _⟩ => show win0_1.index t (0 : Fin 4) * 1 + 1 * 0 = (k 0).val; omega
  | ⟨1, _⟩ => show win0_1.index t (1 : Fin 4) * 112 + 1 * p.val = (k 1).val; omega
  | ⟨2, _⟩ => show win0_1.index t (2 : Fin 4) * 384 + 1 * ch.val = (k 2).val; omega
  | ⟨3, _⟩ => show win0_1.index t (3 : Fin 4) * 9 + 1 * n.val = (k 3).val; omega

/-! ## What each point writes back, and the arrays after the last point -/

/-- WHAT POINT `t` WRITES BACK INTO THE CONTRIBUTION ARRAY is block `t` of the reference's contributions. -/
theorem flushed_stc (x0 : Img) (V : KVal) (c : Dev nD)
    (hP : V c main_v5 = val_main_v5 (F := Ideal) x0) (hU : V c main_v27 = val_main_v27 (F := Ideal) x0) (t : Fin cfg0.N) :
    (dat0 V c).flushed 2 t = ((cfg0.win 2).blk t).view.read (Elt Ideal) (val_main_v42 (F := Ideal) x0) := by
  show (cfg0.win 2).cut (grid0.coords t) ((dat0 V c).after 2 t) = _
  rw [after0_2]
  unfold out0_2
  rw [View.canon_unit_zero hz4]
  simp only [View.ld_unit_zero (S := S1x112x64x384) hz4, View.ld_unit_zero (S := S1x112x384x9) hz4]
  obtain ⟨-, -, -, -, -, -, -, -, -, -, -, e2, e3, lt0, lt1⟩ := idx_facts t
  funext y
  have y0 : (y 0).val < 1 := (y 0).isLt
  have y1 : (y 1).val < 112 := (y 1).isLt
  have y2 : (y 2).val < 384 := (y 2).isLt
  have y3 : (y 3).val < 9 := (y 3).isLt
  have key := stc_patch x0 (iblk0 V c 0 t) (iblk0 V c 1 t) (⟨win0_2.index t (0 : Fin 4), lt0⟩ : Fin 4)
    (⟨win0_2.index t (1 : Fin 4) * 112 + (y 1).val, by omega⟩ : Fin 784) (⟨(y 1).val, y1⟩ : Fin 112)
    (fun l ch => (pix_block V c t ⟨(y 1).val, y1⟩ l ch (ix4 (⟨win0_2.index t (0 : Fin 4), lt0⟩ : Fin 4)
        (⟨win0_2.index t (1 : Fin 4) * 112 + (y 1).val, by omega⟩ : Fin 784) l ch) rfl rfl rfl rfl).trans (congrFun hP _))
    (fun ch n => (stu_block V c t ⟨(y 1).val, y1⟩ ch n (ix4 (⟨win0_2.index t (0 : Fin 4), lt0⟩ : Fin 4)
        (⟨win0_2.index t (1 : Fin 4) * 112 + (y 1).val, by omega⟩ : Fin 784) ch n) rfl rfl rfl rfl).trans (congrFun hU _))
    (⟨(y 0).val, y0⟩ : Fin 1) (⟨(y 2).val, y2⟩ : Fin 384) (⟨(y 3).val, y3⟩ : Fin 9)
  refine Eq.trans ?_ (key.trans ?_)
  · show k0_pay3 (iblk0 V c 0 t) (iblk0 V c 1 t) _ = k0_pay3 (iblk0 V c 0 t) (iblk0 V c 1 t) _
    refine congrArg (k0_pay3 (iblk0 V c 0 t) (iblk0 V c 1 t)) (funext fun a => ?_)
    match a with
    | ⟨0, _⟩ => rfl
    | ⟨1, _⟩ => rfl
    | ⟨2, _⟩ => rfl
    | ⟨3, _⟩ => rfl
  · show val_main_v42 (F := Ideal) x0 _ = val_main_v42 (F := Ideal) x0 (((cfg0.win 2).blk t).view.emb y)
    refine congrArg (val_main_v42 (F := Ideal) x0) (funext fun a => Fin.ext ?_)
    match a with
    | ⟨0, _⟩ => show win0_2.index t (0 : Fin 4) = win0_2.index t (0 : Fin 4) * 1 + 1 * (y 0).val; omega
    | ⟨1, _⟩ => show win0_2.index t (1 : Fin 4) * 112 + (y 1).val = win0_2.index t (1 : Fin 4) * 112 + 1 * (y 1).val; omega
    | ⟨2, _⟩ => show (y 2).val = win0_2.index t (2 : Fin 4) * 384 + 1 * (y 2).val; omega
    | ⟨3, _⟩ => show (y 3).val = win0_2.index t (3 : Fin 4) * 9 + 1 * (y 3).val; omega

/-- An index of the contribution array is in point `t`'s block iff each coordinate is in the block's range on its axis. -/
theorem mem_blk_stc (t : Fin cfg0.N) (i : S4x784x384x9.Idx) :
    i ∈ ((cfg0.win 2).blk t).view.set ↔ ∀ a : Fin 4, win0_2.index t a * S1x112x384x9.size a ≤ (i a).val ∧ (i a).val < win0_2.index t a * S1x112x384x9.size a + S1x112x384x9.size a := by
  show i ∈ ((View.whole main_v28_0).slice (win0_2.rect t)).set ↔ _
  rw [View.set_slice_whole, Rect.mem_set_unit]
  exact Iff.rfl

/-- Every index of the contribution array is in the block of the point at its batch and its block of patches. -/
theorem cover_stc (i : S4x784x384x9.Idx) : ∃ t : Fin cfg0.N, (cfg0.win 2).flush t = true ∧ i ∈ ((cfg0.win 2).blk t).view.set := by
  have i0 : (i 0).val < 4 := (i 0).isLt
  have i1 : (i 1).val < 784 := (i 1).isLt
  have i2 : (i 2).val < 384 := (i 2).isLt
  have i3 : (i 3).val < 9 := (i 3).isLt
  obtain ⟨t, q0, q1⟩ := idx_onto ⟨(i 0).val, i0⟩ ⟨(i 1).val / 112, by omega⟩
  obtain ⟨-, -, -, -, -, -, -, -, -, -, -, e2, e3, -⟩ := idx_facts t
  refine ⟨t, flush0_2 t, ?_⟩
  rw [mem_blk_stc]
  intro a
  match a with
  | ⟨0, _⟩ => show win0_2.index t (0 : Fin 4) * 1 ≤ (i 0).val ∧ (i 0).val < win0_2.index t (0 : Fin 4) * 1 + 1; rw [q0]; show (i 0).val * 1 ≤ (i 0).val ∧ (i 0).val < (i 0).val * 1 + 1; omega
  | ⟨1, _⟩ => show win0_2.index t (1 : Fin 4) * 112 ≤ (i 1).val ∧ (i 1).val < win0_2.index t (1 : Fin 4) * 112 + 112; rw [q1]; show (i 1).val / 112 * 112 ≤ (i 1).val ∧ (i 1).val < (i 1).val / 112 * 112 + 112; omega
  | ⟨2, _⟩ => show win0_2.index t (2 : Fin 4) * 384 ≤ (i 2).val ∧ (i 2).val < win0_2.index t (2 : Fin 4) * 384 + 384; omega
  | ⟨3, _⟩ => show win0_2.index t (3 : Fin 4) * 9 ≤ (i 3).val ∧ (i 3).val < win0_2.index t (3 : Fin 4) * 9 + 9; omega

/-- WHAT POINT `t` WRITES BACK INTO THE WEIGHT-SUM ARRAY is block `t` of the reference's weight sums. -/
theorem flushed_norm (x0 : Img) (V : KVal) (c : Dev nD)
    (hP : V c main_v5 = val_main_v5 (F := Ideal) x0) (hU : V c main_v27 = val_main_v27 (F := Ideal) x0) (t : Fin cfg0.N) :
    (dat0 V c).flushed 3 t = ((cfg0.win 3).blk t).view.read (Elt Ideal) (val_main_v102 (F := Ideal) x0) := by
  show (cfg0.win 3).cut (grid0.coords t) ((dat0 V c).after 3 t) = _
  rw [after0_3]
  unfold out0_3
  rw [View.canon_unit_zero hz3]
  simp only [View.ld_unit_zero (S := S1x112x64x384) hz4, View.ld_unit_zero (S := S1x112x384x9) hz4]
  obtain ⟨-, -, -, -, -, -, -, -, f0, f1, f2, -, -, lt0, lt1⟩ := idx_facts t
  funext y
  have y0 : (y 0).val < 1 := (y 0).isLt
  have y1 : (y 1).val < 112 := (y 1).isLt
  have y2 : (y 2).val < 9 := (y 2).isLt
  have key := norm_patch x0 (iblk0 V c 0 t) (iblk0 V c 1 t) (⟨win0_2.index t (0 : Fin 4), lt0⟩ : Fin 4)
    (⟨win0_2.index t (1 : Fin 4) * 112 + (y 1).val, by omega⟩ : Fin 784) (⟨(y 1).val, y1⟩ : Fin 112)
    (fun l ch => (pix_block V c t ⟨(y 1).val, y1⟩ l ch (ix4 (⟨win0_2.index t (0 : Fin 4), lt0⟩ : Fin 4)
        (⟨win0_2.index t (1 : Fin 4) * 112 + (y 1).val, by omega⟩ : Fin 784) l ch) rfl rfl rfl rfl).trans (congrFun hP _))
    (fun ch n => (stu_block V c t ⟨(y 1).val, y1⟩ ch n (ix4 (⟨win0_2.index t (0 : Fin 4), lt0⟩ : Fin 4)
        (⟨win0_2.index t (1 : Fin 4) * 112 + (y 1).val, by omega⟩ : Fin 784) ch n) rfl rfl rfl rfl).trans (congrFun hU _))
    (⟨(y 0).val, y0⟩ : Fin 1) (⟨(y 2).val, y2⟩ : Fin 9)
  refine Eq.trans ?_ (key.trans ?_)
  · show k0_pay4 (iblk0 V c 0 t) (iblk0 V c 1 t) _ = k0_pay4 (iblk0 V c 0 t) (iblk0 V c 1 t) _
    refine congrArg (k0_pay4 (iblk0 V c 0 t) (iblk0 V c 1 t)) (funext fun a => ?_)
    match a with
    | ⟨0, _⟩ => rfl
    | ⟨1, _⟩ => rfl
    | ⟨2, _⟩ => rfl
  · show val_main_v102 (F := Ideal) x0 _ = val_main_v102 (F := Ideal) x0 (((cfg0.win 3).blk t).view.emb y)
    refine congrArg (val_main_v102 (F := Ideal) x0) (funext fun a => Fin.ext ?_)
    match a with
    | ⟨0, _⟩ => show win0_2.index t (0 : Fin 4) = win0_3.index t (0 : Fin 3) * 1 + 1 * (y 0).val; omega
    | ⟨1, _⟩ => show win0_2.index t (1 : Fin 4) * 112 + (y 1).val = win0_3.index t (1 : Fin 3) * 112 + 1 * (y 1).val; omega
    | ⟨2, _⟩ => show (y 2).val = win0_3.index t (2 : Fin 3) * 9 + 1 * (y 2).val; omega

/-- An index of the weight-sum array is in point `t`'s block iff each coordinate is in the block's range on its axis. -/
theorem mem_blk_norm (t : Fin cfg0.N) (i : S4x784x9.Idx) :
    i ∈ ((cfg0.win 3).blk t).view.set ↔ ∀ a : Fin 3, win0_3.index t a * S1x112x9.size a ≤ (i a).val ∧ (i a).val < win0_3.index t a * S1x112x9.size a + S1x112x9.size a := by
  show i ∈ ((View.whole main_v28_1).slice (win0_3.rect t)).set ↔ _
  rw [View.set_slice_whole, Rect.mem_set_unit]
  exact Iff.rfl

/-- Every index of the weight-sum array is in the block of the point at its batch and its block of patches. -/
theorem cover_norm (i : S4x784x9.Idx) : ∃ t : Fin cfg0.N, (cfg0.win 3).flush t = true ∧ i ∈ ((cfg0.win 3).blk t).view.set := by
  have i0 : (i 0).val < 4 := (i 0).isLt
  have i1 : (i 1).val < 784 := (i 1).isLt
  have i2 : (i 2).val < 9 := (i 2).isLt
  obtain ⟨t, q0, q1⟩ := idx_onto ⟨(i 0).val, i0⟩ ⟨(i 1).val / 112, by omega⟩
  obtain ⟨-, -, -, -, -, -, -, -, f0, f1, f2, -⟩ := idx_facts t
  refine ⟨t, flush0_3 t, ?_⟩
  rw [mem_blk_norm]
  intro a
  match a with
  | ⟨0, _⟩ => show win0_3.index t (0 : Fin 3) * 1 ≤ (i 0).val ∧ (i 0).val < win0_3.index t (0 : Fin 3) * 1 + 1; rw [f0, q0]; show (i 0).val * 1 ≤ (i 0).val ∧ (i 0).val < (i 0).val * 1 + 1; omega
  | ⟨1, _⟩ => show win0_3.index t (1 : Fin 3) * 112 ≤ (i 1).val ∧ (i 1).val < win0_3.index t (1 : Fin 3) * 112 + 112; rw [f1, q1]; show (i 1).val / 112 * 112 ≤ (i 1).val ∧ (i 1).val < (i 1).val / 112 * 112 + 112; omega
  | ⟨2, _⟩ => show win0_3.index t (2 : Fin 3) * 9 ≤ (i 2).val ∧ (i 2).val < win0_3.index t (2 : Fin 3) * 9 + 9; omega

end Blocks

end Cert.Bridge.Contrib0

namespace Cert.Bridge

open Idealize.ShloMosaic Idealize.ShloMosaic.TcCoe Idealize.SL.Sem
open Cert.KernelIdeal (nD τ sig)
open Contrib0

theorem bridge0_stc (x0 : Img) (V : KVal) (c : Dev nD)
    (hP : V c Cert.KernelIdeal.main_v5 = Cert.ReferenceIdeal.ReadP.val_main_v5 (F := Ideal) x0)
    (hU : V c Cert.KernelIdeal.main_v27 = Cert.ReferenceIdeal.ReadP.val_main_v27 (F := Ideal) x0) :
    (Cert.KernelIdeal.Hand.dat0 V c).arrAt 2 Cert.KernelIdeal.cfg0.N = Cert.ReferenceIdeal.ReadP.val_main_v42 (F := Ideal) x0 :=
  (Cert.KernelIdeal.Hand.dat0 V c).arrAt_eq_of_cover 2 (Cert.ReferenceIdeal.ReadP.val_main_v42 (F := Ideal) x0)
    (fun t _ => flushed_stc x0 V c hP hU t) cover_stc

theorem bridge0_norm (x0 : Img) (V : KVal) (c : Dev nD)
    (hP : V c Cert.KernelIdeal.main_v5 = Cert.ReferenceIdeal.ReadP.val_main_v5 (F := Ideal) x0)
    (hU : V c Cert.KernelIdeal.main_v27 = Cert.ReferenceIdeal.ReadP.val_main_v27 (F := Ideal) x0) :
    (Cert.KernelIdeal.Hand.dat0 V c).arrAt 3 Cert.KernelIdeal.cfg0.N = Cert.ReferenceIdeal.ReadP.val_main_v102 (F := Ideal) x0 :=
  (Cert.KernelIdeal.Hand.dat0 V c).arrAt_eq_of_cover 3 (Cert.ReferenceIdeal.ReadP.val_main_v102 (F := Ideal) x0)
    (fun t _ => flushed_norm x0 V c hP hU t) cover_norm

end Cert.Bridge

end
-- ==== Proof.Bridge1.lean ====
/-
  The second pallas_call's result array, block by block, is the reference's second affinity (softmax over the nine
  neighbours of the scaled pixel–super-token products), index by index over the extended reals.

  The affinity is written once as a function of a pixel array P [4, 784, 64, 384] and a super-token array U [4, 784, 384, 9]:
  logit(b, m, l, n) = (Σ_k P(b, m, l, k) · U(b, m, k, n)) · scale, rowMax(b, m, l) = max(−∞, max_n logit(b, m, l, n)) taken from −∞,
  expo = exp(logit − rowMax), affinity = expo / Σ_n expo. A row (b, m, l) reads only patch m of batch b, so the block of 112
  patches that one grid point computes is the restriction of that one function, and the 4 × 7 blocks tile the array. The
  reference's stages read at an index are the same expression; no law beyond the reading of each stage is used, so nothing
  here asks for finiteness.
-/
import proofs.«179015_j72035191488647_1_alg».proof.Proof.KI.Reg1
import proofs.«179015_j72035191488647_1_alg».proof.Proof.RefRead
import proofs.«179015_j72035191488647_1_alg».proof.Proof.BridgeTypes
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.TcCoe Idealize.SL.Sem
open Cert.KernelIdeal (nD τ sig)

namespace Affinity1

open Cert.KernelIdeal Cert.KernelIdeal.Gen Cert.KernelIdeal.Hand
open Idealize.ShloMosaic.ValueIdx
open Idealize.ShloMosaic.Pipeline (Dat)

/-! ## The softmax of the scaled products, as one function of the two arrays -/

/-- The scaled product of pixel row `(b, m, l)` with neighbour column `(b, m, n)`. -/
private def logit (P : S4x784x64x384.Idx → EReal) (U : S4x784x384x9.Idx → EReal) (b : Fin 4) (m : Fin 784) (l : Fin 64) (n : Fin 9) : EReal :=
  (∑ k : Fin 384, P (ix4 b m l k) * U (ix4 b m k n)) * Ideal.ofBits .f32 0x3D5105EC#32

/-- The largest of the nine scaled products of a pixel row, taken from −∞ (and once more against −∞). -/
private def rowMax (P : S4x784x64x384.Idx → EReal) (U : S4x784x384x9.Idx → EReal) (b : Fin 4) (m : Fin 784) (l : Fin 64) : EReal :=
  max (Ideal.ofBits .f32 0xFF800000#32) ((Finset.univ : Finset (Fin 9)).fold max (Ideal.ofBits .f32 0xFF800000#32) (fun n => logit P U b m l n))

/-- The exponential of a scaled product less its row's maximum. -/
private def expo (P : S4x784x64x384.Idx → EReal) (U : S4x784x384x9.Idx → EReal) (b : Fin 4) (m : Fin 784) (l : Fin 64) (n : Fin 9) : EReal :=
  Ideal.exp (logit P U b m l n - rowMax P U b m l)

/-- The affinity: each exponential over the sum of its row's nine. -/
private def affinity (P : S4x784x64x384.Idx → EReal) (U : S4x784x384x9.Idx → EReal) : S4x784x64x9.Idx → EReal :=
  fun i => Ideal.div (expo P U (i 0) (i 1) (i 2) (i 3)) (∑ n : Fin 9, expo P U (i 0) (i 1) (i 2) n)

private theorem affinity_ix (P : S4x784x64x384.Idx → EReal) (U : S4x784x384x9.Idx → EReal) (b : Fin 4) (m : Fin 784) (l : Fin 64) (n : Fin 9) :
    affinity P U (ix4 b m l n) = Ideal.div (expo P U b m l n) (∑ n' : Fin 9, expo P U b m l n') := rfl

/-! ## The grid: which block each point stages -/

private theorem hz4 : (![0, 0, 0, 0] : Fin 4 → Nat) = fun _ => 0 := funext fun a => by fin_cases a <;> rfl

/-- The printed index maps, decided over the 4 × 7 grid: the three windows move together over the batch and the
    patch-block axes and stay at block 0 on the two inner axes. -/
private theorem idx_facts : ∀ t : Fin cfg1.N,
    win1_0.index t (0 : Fin 4) = win1_2.index t (0 : Fin 4) ∧ win1_0.index t (1 : Fin 4) = win1_2.index t (1 : Fin 4)
    ∧ win1_0.index t (2 : Fin 4) = 0 ∧ win1_0.index t (3 : Fin 4) = 0
    ∧ win1_1.index t (0 : Fin 4) = win1_2.index t (0 : Fin 4) ∧ win1_1.index t (1 : Fin 4) = win1_2.index t (1 : Fin 4)
    ∧ win1_1.index t (2 : Fin 4) = 0 ∧ win1_1.index t (3 : Fin 4) = 0
    ∧ win1_2.index t (0 : Fin 4) ≤ 3 ∧ win1_2.index t (1 : Fin 4) ≤ 6
    ∧ win1_2.index t (2 : Fin 4) = 0 ∧ win1_2.index t (3 : Fin 4) = 0 :=
  (by decide +kernel : ∀ t : Fin grid1.N, _)

/-- Every (batch, patch-block) pair is some point's. -/
private theorem idx_onto : ∀ (q0 : Fin 4) (q1 : Fin 7), ∃ t : Fin cfg1.N, win1_2.index t = ![q0.val, q1.val, 0, 0] :=
  (by decide +kernel : ∀ (q0 : Fin 4) (q1 : Fin 7), ∃ t : Fin grid1.N, win1_2.index t = ![q0.val, q1.val, 0, 0])

/-- An index of the affinity array is in point `t`'s block iff each coordinate is in the block's range on its axis. -/
private theorem mem_blk (t : Fin cfg1.N) (i : S4x784x64x9.Idx) :
    i ∈ ((cfg1.win 2).blk t).view.set ↔ ∀ a : Fin 4, win1_2.index t a * S1x112x64x9.size a ≤ (i a).val ∧ (i a).val < win1_2.index t a * S1x112x64x9.size a + S1x112x64x9.size a := by
  show i ∈ ((View.whole main_v173).slice (win1_2.rect t)).set ↔ _
  rw [View.set_slice_whole, Rect.mem_set_unit]
  exact Iff.rfl

/-- Every index of the affinity array lies in the block of the point that stages its batch and its block of 112 patches. -/
private theorem cover (i : S4x784x64x9.Idx) : ∃ t : Fin cfg1.N, (cfg1.win 2).flush t = true ∧ i ∈ ((cfg1.win 2).blk t).view.set := by
  have hi0 : (i 0).val < 4 := (i 0).isLt
  have hi1 : (i 1).val < 784 := (i 1).isLt
  have hi2 : (i 2).val < 64 := (i 2).isLt
  have hi3 : (i 3).val < 9 := (i 3).isLt
  obtain ⟨t, ht⟩ := idx_onto ⟨(i 0).val, hi0⟩ ⟨(i 1).val / 112, by omega⟩
  have q0 : win1_2.index t (0 : Fin 4) = (i 0).val := congrFun ht 0
  have q1 : win1_2.index t (1 : Fin 4) = (i 1).val / 112 := congrFun ht 1
  have q2 : win1_2.index t (2 : Fin 4) = 0 := congrFun ht 2
  have q3 : win1_2.index t (3 : Fin 4) = 0 := congrFun ht 3
  refine ⟨t, flush1_2 t, ?_⟩
  rw [mem_blk]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 112 ≤ (i 1).val ∧ (i 1).val < win1_2.index t (1 : Fin 4) * 112 + 112; omega
  | ⟨2, _⟩ => show win1_2.index t (2 : Fin 4) * 64 ≤ (i 2).val ∧ (i 2).val < win1_2.index t (2 : Fin 4) * 64 + 64; omega
  | ⟨3, _⟩ => show win1_2.index t (3 : Fin 4) * 9 ≤ (i 3).val ∧ (i 3).val < win1_2.index t (3 : Fin 4) * 9 + 9; omega

/-! ## The reference's stages at an index -/

section Reference

open Cert.ReferenceIdeal.ReadP

/-- The reference's scaled product at `(b, m, l, n)`. -/
private theorem ref_logit (x0 : Img) (b : Fin 4) (m : Fin 784) (l : Fin 64) (n : Fin 9) :
    val_main_v190 (F := Ideal) x0 (ix4 b m l n)
      = logit (val_main_v5 (F := Ideal) x0) (val_main_v187 (F := Ideal) x0) b m l n := by
  rw [val_main_v190_apply, val_main_v188_apply, val_main_v189_apply, val_main_cst_46_apply]
  unfold logit
  generalize val_main_v5 (F := Ideal) x0 = P
  generalize val_main_v187 (F := Ideal) x0 = U
  show (∑ k : Fin 384, P (lidx_main_v188 (ix4 b m l n) k) * U (ridx_main_v188 (ix4 b m l n) k)) * Ideal.ofBits .f32 0x3D5105EC#32 = _
  refine congrArg (· * Ideal.ofBits .f32 0x3D5105EC#32) (Finset.sum_congr rfl fun k _ => ?_)
  have el : lidx_main_v188 (ix4 b m l n) k = ix4 b m l k := funext fun a => Fin.ext (by
    match a with | ⟨0, _⟩ => rfl | ⟨1, _⟩ => rfl | ⟨2, _⟩ => rfl | ⟨3, _⟩ => rfl)
  have er : ridx_main_v188 (ix4 b m l n) k = ix4 b m k n := funext fun a => Fin.ext (by
    match a with | ⟨0, _⟩ => rfl | ⟨1, _⟩ => rfl | ⟨2, _⟩ => rfl | ⟨3, _⟩ => rfl)
  rw [el, er]

/-- A row index of the product array with the neighbour coordinate `k` put back is `(b, m, l, k)`. -/
private theorem lift_row (h : Cert.ReferenceIdeal.S4x784x64x9.Reduces [3] Cert.ReferenceIdeal.S4x784x64) (b : Fin 4) (m : Fin 784) (l : Fin 64)
    (k : Fin (Cert.ReferenceIdeal.S4x784x64x9.size 3)) : h.lift (ix3 b m l) k = ix4 b m l (⟨k.val, k.isLt⟩ : Fin 9) := by
  funext a; apply Fin.ext
  match a with | ⟨0, _⟩ => rfl | ⟨1, _⟩ => rfl | ⟨2, _⟩ => rfl | ⟨3, _⟩ => rfl

/-- The reference's row maximum at `(b, m, l)`: the fold of `max` from −∞ over the nine scaled products, then `max` with −∞. -/
private theorem ref_rowMax (x0 : Img) (b : Fin 4) (m : Fin 784) (l : Fin 64) :
    val_main_v193 (F := Ideal) x0 (ix3 b m l)
      = rowMax (val_main_v5 (F := Ideal) x0) (val_main_v187 (F := Ideal) x0) b m l := by
  rw [val_main_v193_apply, val_main_v192_apply, val_main_cst_48_apply]
  unfold rowMax
  refine congrArg (max (Ideal.ofBits .f32 0xFF800000#32)) ?_
  unfold val_main_v191
  have h : Cert.ReferenceIdeal.S4x784x64x9.Reduces [3] Cert.ReferenceIdeal.S4x784x64 := by decide
  refine (Host.reduce_eq_fold_single FloatOps.maximumf _ _ _ h _ (ix3 b m l)).trans ?_
  refine congrArg (fun f => Finset.fold max (Ideal.ofBits .f32 0xFF800000#32) f (Finset.univ : Finset (Fin 9))) (funext fun k => ?_)
  show val_main_v190 (F := Ideal) x0 (h.lift (ix3 b m l) k) = _
  rw [lift_row h b m l k]
  exact ref_logit x0 b m l k

/-- The reference's exponential at `(b, m, l, n)`. -/
private theorem ref_expo (x0 : Img) (b : Fin 4) (m : Fin 784) (l : Fin 64) (n : Fin 9) :
    val_main_v197 (F := Ideal) x0 (ix4 b m l n)
      = expo (val_main_v5 (F := Ideal) x0) (val_main_v187 (F := Ideal) x0) b m l n := by
  rw [val_main_v197_apply, val_main_v196_apply, val_main_v195_apply, val_main_v194_apply]
  have e : idx_main_v194 (idx_main_v195 (ix4 b m l n)) = ix3 b m l := funext fun a => Fin.ext (by
    match a with | ⟨0, _⟩ => rfl | ⟨1, _⟩ => rfl | ⟨2, _⟩ => rfl)
  rw [e, ref_rowMax, ref_logit]
  rfl

/-- The reference's row sum of exponentials at `(b, m, l)`. -/
private theorem ref_sum (x0 : Img) (b : Fin 4) (m : Fin 784) (l : Fin 64) :
    val_main_v198 (F := Ideal) x0 (ix3 b m l)
      = ∑ n : Fin 9, expo (val_main_v5 (F := Ideal) x0) (val_main_v187 (F := Ideal) x0) b m l n := by
  rw [val_main_v198_apply, val_main_cst_49_apply]
  show Ideal.ofBits .f32 0x00000000#32 + _ = _
  rw [Ideal.ofBits_zero_f32, zero_add]
  refine Finset.sum_congr rfl fun k _ => ?_
  have e : idx_main_v198 (ix3 b m l) k = ix4 b m l k := funext fun a => Fin.ext (by
    match a with | ⟨0, _⟩ => rfl | ⟨1, _⟩ => rfl | ⟨2, _⟩ => rfl | ⟨3, _⟩ => rfl)
  rw [e, ref_expo]

/-- The reference's second affinity is the softmax of the scaled products of its pixel and refined super-token arrays. -/
private theorem ref_affinity (x0 : Img) :
    val_main_v201 (F := Ideal) x0 = affinity (val_main_v5 (F := Ideal) x0) (val_main_v187 (F := Ideal) x0) := by
  funext i
  obtain ⟨b, m, l, n, rfl⟩ : ∃ (b : Fin 4) (m : Fin 784) (l : Fin 64) (n : Fin 9), i = ix4 b m l n := ⟨i 0, i 1, i 2, i 3, eq_ix4 i⟩
  rw [val_main_v201_apply, val_main_v200_apply, val_main_v199_apply]
  have e : idx_main_v199 (idx_main_v200 (ix4 b m l n)) = ix3 b m l := funext fun a => Fin.ext (by
    match a with | ⟨0, _⟩ => rfl | ⟨1, _⟩ => rfl | ⟨2, _⟩ => rfl)
  rw [e, ref_sum, ref_expo, affinity_ix]
  rfl

end Reference

/-! ## The body's arithmetic at an index of its block -/

section Payload

/-- The block's scaled products as the body forms them: the batched product of the pixel block with the super-token
    block over the 384 channels, into a zero accumulator, times the scale. -/
private def kLogits (x0 : Vec Ideal S1x112x64x384 .f32) (x1 : Vec Ideal S1x112x384x9 .f32) : FVec Ideal S112x64x9 .f32 :=
  mulf (matmul dot_S112x64x384_S112x384x9_S112x64x9_2_1_1_2_0_0 none
      (truncf .bf16 (shapeCast S112x64x384 x0 shapeCasts_S1x112x64x384_S112x64x384) bitsLt_bf16_f32)
      (truncf .bf16 (shapeCast S112x384x9 x1 shapeCasts_S1x112x384x9_S112x384x9) bitsLt_bf16_f32)
      (constant S112x64x9 .f32 0x00000000#32))
    (broadcast S112x64x9 (Scalar.ofBits .f32 0x3D5105EC#32))

/-- The block's row maxima: the lane maximum from −∞, then the maximum with −∞. -/
private def kMax (x0 : Vec Ideal S1x112x64x384 .f32) (x1 : Vec Ideal S1x112x384x9 .f32) : FVec Ideal S112x64 .f32 :=
  maximumf (broadcast S112x64 (Scalar.ofBits .f32 0xFF800000#32))
    (multiReduction .maximumf [2] S112x64 (kLogits x0 x1) 0xFF800000#32 reduces_S112x64x9_S112x64 (.inl rfl) rfl)

/-- The block's exponentials of the scaled products less their row's maximum. -/
private def kExp (x0 : Vec Ideal S1x112x64x384 .f32) (x1 : Vec Ideal S1x112x384x9 .f32) : FVec Ideal S112x64x9 .f32 :=
  exp (subf (kLogits x0 x1)
    (broadcastTo S112x64x9 (shapeCast S112x64x1 (kMax x0 x1) shapeCasts_S112x64_S112x64x1) broadcasts_S112x64x1_S112x64x9))

/-- The block's affinity: each exponential over its row's lane sum. -/
private def kAff (x0 : Vec Ideal S1x112x64x384 .f32) (x1 : Vec Ideal S1x112x384x9 .f32) : FVec Ideal S112x64x9 .f32 :=
  divf (kExp x0 x1)
    (broadcastTo S112x64x9 (shapeCast S112x64x1
      (multiReduction .add [2] S112x64 (kExp x0 x1) 0x00000000#32 reduces_S112x64x9_S112x64 (.inl rfl) rfl)
      shapeCasts_S112x64_S112x64x1) broadcasts_S112x64x1_S112x64x9)

/-- The payload is those four stages, cast back to the block's shape. -/
private theorem pay_eq (x0 : Vec Ideal S1x112x64x384 .f32) (x1 : Vec Ideal S1x112x384x9 .f32) :
    k1_pay1 x0 x1 = shapeCast S1x112x64x9 (kAff x0 x1) shapeCasts_S112x64x9_S1x112x64x9 := rfl

/-! ### The product's operand indices, axis by axis -/

private theorem mm_lhs_0 (i : S112x64x9.Idx) (q : dot_S112x64x384_S112x384x9_S112x64x9_2_1_1_2_0_0.contr.Idx) :
    (dot_S112x64x384_S112x384x9_S112x64x9_2_1_1_2_0_0.lhsIdx i q 0).val = (i 0).val := by
  unfold DotDims.lhsIdx
  rw [dif_pos (show (0 : Fin S112x64x384.rank) ∈ dot_S112x64x384_S112x384x9_S112x64x9_2_1_1_2_0_0.lhsBatch by decide)]
  rfl
private theorem mm_lhs_1 (i : S112x64x9.Idx) (q : dot_S112x64x384_S112x384x9_S112x64x9_2_1_1_2_0_0.contr.Idx) :
    (dot_S112x64x384_S112x384x9_S112x64x9_2_1_1_2_0_0.lhsIdx i q 1).val = (i 1).val := by
  unfold DotDims.lhsIdx
  rw [dif_neg (show ¬(1 : Fin S112x64x384.rank) ∈ dot_S112x64x384_S112x384x9_S112x64x9_2_1_1_2_0_0.lhsBatch by decide), dif_pos (show (1 : Fin S112x64x384.rank) ∈ dot_S112x64x384_S112x384x9_S112x64x9_2_1_1_2_0_0.lhsNonContracting by decide)]
  rfl
private theorem mm_lhs_2 (i : S112x64x9.Idx) (q : dot_S112x64x384_S112x384x9_S112x64x9_2_1_1_2_0_0.contr.Idx) :
    (dot_S112x64x384_S112x384x9_S112x64x9_2_1_1_2_0_0.lhsIdx i q 2).val = (q ⟨0, by decide⟩).val :=
  dot_S112x64x384_S112x384x9_S112x64x9_2_1_1_2_0_0.lhsIdx_val_of_single rfl i q
private theorem mm_rhs_0 (i : S112x64x9.Idx) (q : dot_S112x64x384_S112x384x9_S112x64x9_2_1_1_2_0_0.contr.Idx) :
    (dot_S112x64x384_S112x384x9_S112x64x9_2_1_1_2_0_0.rhsIdx i q 0).val = (i 0).val := by
  unfold DotDims.rhsIdx
  rw [dif_pos (show (0 : Fin S112x384x9.rank) ∈ dot_S112x64x384_S112x384x9_S112x64x9_2_1_1_2_0_0.rhsBatch by decide)]
  rfl
private theorem mm_rhs_1 (i : S112x64x9.Idx) (q : dot_S112x64x384_S112x384x9_S112x64x9_2_1_1_2_0_0.contr.Idx) :
    (dot_S112x64x384_S112x384x9_S112x64x9_2_1_1_2_0_0.rhsIdx i q 1).val = (q ⟨0, by decide⟩).val :=
  dot_S112x64x384_S112x384x9_S112x64x9_2_1_1_2_0_0.rhsIdx_val_of_single rfl i q
private theorem mm_rhs_2 (i : S112x64x9.Idx) (q : dot_S112x64x384_S112x384x9_S112x64x9_2_1_1_2_0_0.contr.Idx) :
    (dot_S112x64x384_S112x384x9_S112x64x9_2_1_1_2_0_0.rhsIdx i q 2).val = (i 2).val := by
  unfold DotDims.rhsIdx
  rw [dif_neg (show ¬(2 : Fin S112x384x9.rank) ∈ dot_S112x64x384_S112x384x9_S112x64x9_2_1_1_2_0_0.rhsBatch by decide), dif_pos (show (2 : Fin S112x384x9.rank) ∈ dot_S112x64x384_S112x384x9_S112x64x9_2_1_1_2_0_0.rhsNonContracting by decide)]
  rfl

/-- The block's scaled product at `(p, l, n)`: the sum over the channels of pixel `(p, l, ·)` times super-token `(p, ·, n)`, scaled. -/
private theorem kLogits_apply (x0 : Vec Ideal S1x112x64x384 .f32) (x1 : Vec Ideal S1x112x384x9 .f32) (p : Fin 112) (l : Fin 64) (n : Fin 9) :
    kLogits x0 x1 (ix3 p l n)
      = (∑ k : Fin 384, x0 (ix4 (0 : Fin 1) p l k) * x1 (ix4 (0 : Fin 1) p k n)) * Ideal.ofBits .f32 0x3D5105EC#32 := by
  unfold kLogits
  rw [mulf_apply, broadcast_apply]
  refine congrArg (· * Ideal.ofBits .f32 0x3D5105EC#32) ((Ideal.matmul_constant_zero_apply dot_S112x64x384_S112x384x9_S112x64x9_2_1_1_2_0_0 none _ _ (ix3 p l n)).trans ?_)
  rw [← Equiv.sum_comp (contrEquiv1 dot_S112x64x384_S112x384x9_S112x64x9_2_1_1_2_0_0 384 rfl rfl).symm]
  refine Finset.sum_congr rfl fun k _ => ?_
  have hk := contrEquiv1_symm_val dot_S112x64x384_S112x384x9_S112x64x9_2_1_1_2_0_0 384 rfl rfl k
  have el : dot_S112x64x384_S112x384x9_S112x64x9_2_1_1_2_0_0.lhsIdx (ix3 p l n) ((contrEquiv1 dot_S112x64x384_S112x384x9_S112x64x9_2_1_1_2_0_0 384 rfl rfl).symm k) = ix3 p l k := funext fun a => Fin.ext (by
    match a with
    | ⟨0, _⟩ => exact mm_lhs_0 _ _
    | ⟨1, _⟩ => exact mm_lhs_1 _ _
    | ⟨2, _⟩ => exact (mm_lhs_2 _ _).trans hk)
  have er : dot_S112x64x384_S112x384x9_S112x64x9_2_1_1_2_0_0.rhsIdx (ix3 p l n) ((contrEquiv1 dot_S112x64x384_S112x384x9_S112x64x9_2_1_1_2_0_0 384 rfl rfl).symm k) = ix3 p k n := funext fun a => Fin.ext (by
    match a with
    | ⟨0, _⟩ => exact mm_rhs_0 _ _
    | ⟨1, _⟩ => exact (mm_rhs_1 _ _).trans hk
    | ⟨2, _⟩ => exact mm_rhs_2 _ _)
  rw [el, er, truncf_apply, truncf_apply, shapeCast_1abc_abc_apply, shapeCast_1abc_abc_apply]

/-- A lane maximum from −∞ at row `(p, l)` is the fold of `max` over the row's nine entries. -/
private theorem laneMax_apply (src : FVec Ideal S112x64x9 .f32) (hφ : FKind.Formats FTy.f32)
    (hacc : (0xFF800000#32 : BitVec FTy.f32.bits) = FKind.maximumf.neutral FTy.f32 hφ) (p : Fin 112) (l : Fin 64) :
    multiReduction (F := Ideal) .maximumf [2] S112x64 src 0xFF800000#32 reduces_S112x64x9_S112x64 hφ hacc (ix2 p l)
      = (Finset.univ : Finset (Fin 9)).fold max (Ideal.ofBits .f32 0xFF800000#32) (fun n => src (ix3 p l n)) := by
  refine (Ideal.multiReduction_maximumf_single src _ reduces_S112x64x9_S112x64 hφ hacc (ix2 p l)).trans ?_
  refine congrArg (fun f => Finset.fold max (Ideal.ofBits .f32 0xFF800000#32) f (Finset.univ : Finset (Fin 9))) (funext fun k => ?_)
  show src (reduces_S112x64x9_S112x64.lift (ix2 p l) k) = src (ix3 p l k)
  exact congrArg src (funext fun a => Fin.ext (by
    match a with | ⟨0, _⟩ => rfl | ⟨1, _⟩ => rfl | ⟨2, _⟩ => rfl))

/-- A lane sum at row `(p, l)` is the sum of the row's nine entries. -/
private theorem laneSum_apply (src : FVec Ideal S112x64x9 .f32) (hφ : FKind.Formats FTy.f32)
    (hacc : (0x00000000#32 : BitVec FTy.f32.bits) = FKind.add.neutral FTy.f32 hφ) (p : Fin 112) (l : Fin 64) :
    multiReduction (F := Ideal) .add [2] S112x64 src 0x00000000#32 reduces_S112x64x9_S112x64 hφ hacc (ix2 p l)
      = ∑ n : Fin 9, src (ix3 p l n) := by
  refine (Ideal.multiReduction_add_single src _ reduces_S112x64x9_S112x64 hφ hacc (ix2 p l)).trans ?_
  refine Finset.sum_congr rfl fun k _ => ?_
  exact congrArg src (funext fun a => Fin.ext (by
    match a with | ⟨0, _⟩ => rfl | ⟨1, _⟩ => rfl | ⟨2, _⟩ => rfl))

/-- A per-row value given a unit lane axis and spread over the nine lanes reads, at `(p, l, n)`, the row's value. -/
private theorem keepdims_apply (v : FVec Ideal S112x64 .f32) (p : Fin 112) (l : Fin 64) (n : Fin 9) :
    broadcastTo S112x64x9 (shapeCast S112x64x1 v shapeCasts_S112x64_S112x64x1) broadcasts_S112x64x1_S112x64x9 (ix3 p l n) = v (ix2 p l) := by
  refine (broadcastTo_apply _ broadcasts_S112x64x1_S112x64x9 (ix3 p l n) (ix3 p l (0 : Fin 1)) (fun a => ?_)).trans ?_
  · match a with
    | ⟨0, _⟩ => show p.val = if (112 : Nat) = 1 then 0 else p.val; rw [if_neg (by decide)]
    | ⟨1, _⟩ => show l.val = if (64 : Nat) = 1 then 0 else l.val; rw [if_neg (by decide)]
    | ⟨2, _⟩ => show 0 = if (1 : Nat) = 1 then 0 else n.val; rw [if_pos rfl]
  · exact shapeCast_apply v shapeCasts_S112x64_S112x64x1 (ix3 p l (0 : Fin 1)) (ix2 p l) (by
      rw [Shape.rowMajor_val_two, Shape.rowMajor_val_three]
      show p.val * 64 + l.val = (p.val * 64 + l.val) * 1 + 0
      omega)

private theorem kMax_apply (x0 : Vec Ideal S1x112x64x384 .f32) (x1 : Vec Ideal S1x112x384x9 .f32) (p : Fin 112) (l : Fin 64) :
    kMax x0 x1 (ix2 p l)
      = max (Ideal.ofBits .f32 0xFF800000#32) ((Finset.univ : Finset (Fin 9)).fold max (Ideal.ofBits .f32 0xFF800000#32) (fun n => kLogits x0 x1 (ix3 p l n))) := by
  unfold kMax
  rw [maximumf_apply, broadcast_apply]
  exact congrArg (max (Ideal.ofBits .f32 0xFF800000#32)) (laneMax_apply (kLogits x0 x1) _ _ p l)

private theorem kExp_apply (x0 : Vec Ideal S1x112x64x384 .f32) (x1 : Vec Ideal S1x112x384x9 .f32) (p : Fin 112) (l : Fin 64) (n : Fin 9) :
    kExp x0 x1 (ix3 p l n) = Ideal.exp (kLogits x0 x1 (ix3 p l n) - kMax x0 x1 (ix2 p l)) := by
  unfold kExp
  show Ideal.exp (kLogits x0 x1 (ix3 p l n) - broadcastTo S112x64x9 (shapeCast S112x64x1 (kMax x0 x1) shapeCasts_S112x64_S112x64x1) broadcasts_S112x64x1_S112x64x9 (ix3 p l n)) = _
  rw [keepdims_apply]

private theorem kAff_apply (x0 : Vec Ideal S1x112x64x384 .f32) (x1 : Vec Ideal S1x112x384x9 .f32) (p : Fin 112) (l : Fin 64) (n : Fin 9) :
    kAff x0 x1 (ix3 p l n) = Ideal.div (kExp x0 x1 (ix3 p l n)) (∑ n' : Fin 9, kExp x0 x1 (ix3 p l n')) := by
  unfold kAff
  rw [divf_apply, keepdims_apply]
  exact congrArg (Ideal.div (kExp x0 x1 (ix3 p l n))) (laneSum_apply (kExp x0 x1) _ _ p l)

/-- The payload at `(u, p, l, n)` of its block. -/
private theorem pay_apply (x0 : Vec Ideal S1x112x64x384 .f32) (x1 : Vec Ideal S1x112x384x9 .f32) (u : Fin 1) (p : Fin 112) (l : Fin 64) (n : Fin 9) :
    k1_pay1 x0 x1 (ix4 u p l n) = kAff x0 x1 (ix3 p l n) := by
  rw [pay_eq]
  exact shapeCast_abc_1abc_apply (kAff x0 x1) shapeCasts_S112x64x9_S1x112x64x9 u p l n

/-- BLOCK TO ARRAY, pointwise: if the pixel block's patch `p` is patch `μ p` of batch `b` of an array `P`, and the
    super-token block's likewise of `U`, the payload at `(u, p, l, n)` is the affinity of `P`, `U` at `(b, μ p, l, n)`:
    a row of the softmax reads only its own patch. -/
private theorem block_affinity (x0 : Vec Ideal S1x112x64x384 .f32) (x1 : Vec Ideal S1x112x384x9 .f32)
    (P : S4x784x64x384.Idx → EReal) (U : S4x784x384x9.Idx → EReal) (b : Fin 4) (μ : Fin 112 → Fin 784)
    (h0 : ∀ (p : Fin 112) (l : Fin 64) (k : Fin 384), x0 (ix4 (0 : Fin 1) p l k) = P (ix4 b (μ p) l k))
    (h1 : ∀ (p : Fin 112) (k : Fin 384) (n : Fin 9), x1 (ix4 (0 : Fin 1) p k n) = U (ix4 b (μ p) k n))
    (u : Fin 1) (p : Fin 112) (l : Fin 64) (n : Fin 9) :
    k1_pay1 x0 x1 (ix4 u p l n) = affinity P U (ix4 b (μ p) l n) := by
  have hl : ∀ (p : Fin 112) (l : Fin 64) (n : Fin 9), kLogits x0 x1 (ix3 p l n) = logit P U b (μ p) l n := fun p l n => by
    rw [kLogits_apply]
    unfold logit
    exact congrArg (· * Ideal.ofBits .f32 0x3D5105EC#32) (Finset.sum_congr rfl fun k _ => by rw [h0, h1])
  have hm : ∀ (p : Fin 112) (l : Fin 64), kMax x0 x1 (ix2 p l) = rowMax P U b (μ p) l := fun p l => by
    rw [kMax_apply]
    unfold rowMax
    exact congrArg (fun f => max (Ideal.ofBits .f32 0xFF800000#32) (Finset.fold max (Ideal.ofBits .f32 0xFF800000#32) f (Finset.univ : Finset (Fin 9)))) (funext fun n => hl p l n)
  have he : ∀ (p : Fin 112) (l : Fin 64) (n : Fin 9), kExp x0 x1 (ix3 p l n) = expo P U b (μ p) l n := fun p l n => by
    rw [kExp_apply, hl, hm]
    rfl
  rw [pay_apply, kAff_apply, affinity_ix, he]
  exact congrArg (Ideal.div (expo P U b (μ p) l n)) (Finset.sum_congr rfl fun n' _ => he p l n')

end Payload

/-! ## From the blocks to the array -/

section Blocks

variable (V : KVal) (c : Dev nD)

/-- The batch that point `t` works on. -/
private def batchOf (t : Fin cfg1.N) : Fin 4 := ⟨win1_2.index t (0 : Fin 4), by have := (idx_facts t).2.2.2.2.2.2.2.2.1; omega⟩

/-- Patch `p` of point `t`'s block is patch `112 · (block index) + p` of its batch. -/
private def patchOf (t : Fin cfg1.N) (p : Fin 112) : Fin 784 :=
  ⟨win1_2.index t (1 : Fin 4) * 112 + p.val, by have := (idx_facts t).2.2.2.2.2.2.2.2.2.1; have := p.isLt; omega⟩

/-- The pixel block at point `t`, entry by entry, is the pixel array at the point's batch and patches. -/
private theorem pix_block (t : Fin cfg1.N) (p : Fin 112) (l : Fin 64) (k : Fin 384) :
    (iblk1 V c 0 t : Vec Ideal S1x112x64x384 .f32) (ix4 (0 : Fin 1) p l k)
      = (V c main_v5 : S4x784x64x384.Idx → EReal) (ix4 (batchOf t) (patchOf t p) l k) := by
  obtain ⟨e0, e1, e2, e3, e4, e5, e6, e7, e8, e9, e10, e11⟩ := idx_facts t
  unfold iblk1
  rw [View.read_apply]
  show (V c main_v5 : S4x784x64x384.Idx → EReal) _ = (V c main_v5 : S4x784x64x384.Idx → EReal) _
  congr 1
  funext a; apply Fin.ext
  match a with
  | ⟨0, _⟩ => show win1_0.index t (0 : Fin 4) * 1 + 1 * 0 = win1_2.index t (0 : Fin 4); omega
  | ⟨1, _⟩ => show win1_0.index t (1 : Fin 4) * 112 + 1 * p.val = win1_2.index t (1 : Fin 4) * 112 + p.val; omega
  | ⟨2, _⟩ => show win1_0.index t (2 : Fin 4) * 64 + 1 * l.val = l.val; omega
  | ⟨3, _⟩ => show win1_0.index t (3 : Fin 4) * 384 + 1 * k.val = k.val; omega

/-- The super-token block at point `t`, entry by entry, is the super-token array at the point's batch and patches. -/
private theorem stu_block (t : Fin cfg1.N) (p : Fin 112) (k : Fin 384) (n : Fin 9) :
    (iblk1 V c 1 t : Vec Ideal S1x112x384x9 .f32) (ix4 (0 : Fin 1) p k n)
      = (V c main_v172 : S4x784x384x9.Idx → EReal) (ix4 (batchOf t) (patchOf t p) k n) := by
  obtain ⟨e0, e1, e2, e3, e4, e5, e6, e7, e8, e9, e10, e11⟩ := idx_facts t
  unfold iblk1
  rw [View.read_apply]
  show (V c main_v172 : S4x784x384x9.Idx → EReal) _ = (V c main_v172 : S4x784x384x9.Idx → EReal) _
  congr 1
  funext a; apply Fin.ext
  match a with
  | ⟨0, _⟩ => show win1_1.index t (0 : Fin 4) * 1 + 1 * 0 = win1_2.index t (0 : Fin 4); omega
  | ⟨1, _⟩ => show win1_1.index t (1 : Fin 4) * 112 + 1 * p.val = win1_2.index t (1 : Fin 4) * 112 + p.val; omega
  | ⟨2, _⟩ => show win1_1.index t (2 : Fin 4) * 384 + 1 * k.val = k.val; omega
  | ⟨3, _⟩ => show win1_1.index t (3 : Fin 4) * 9 + 1 * n.val = n.val; omega

/-- WHAT POINT `t` WRITES BACK is block `t` of the affinity of the pixel and super-token arrays as the region finds them. -/
private theorem flushed_eq (t : Fin cfg1.N) :
    (dat1 V c).flushed 2 t = ((cfg1.win 2).blk t).view.read (Elt Ideal)
      (affinity (V c main_v5 : S4x784x64x384.Idx → EReal) (V c main_v172 : S4x784x384x9.Idx → EReal)) := by
  show (cfg1.win 2).cut (grid1.coords t) ((dat1 V c).after 2 t) = _
  rw [after1_2]
  unfold out1_2
  rw [View.canon_unit_zero hz4]
  simp only [View.ld_unit_zero (S := S1x112x64x384) hz4, View.ld_unit_zero (S := S1x112x384x9) hz4]
  obtain ⟨e0, e1, e2, e3, e4, e5, e6, e7, e8, e9, e10, e11⟩ := idx_facts t
  funext j
  have hj0 : (j 0).val < 1 := (j 0).isLt
  have hj1 : (j 1).val < 112 := (j 1).isLt
  have hj2 : (j 2).val < 64 := (j 2).isLt
  have hj3 : (j 3).val < 9 := (j 3).isLt
  have hx : (cfg1.win 2).xinj (grid1.coords t) j
      = ix4 (⟨(j 0).val, hj0⟩ : Fin 1) (⟨(j 1).val, hj1⟩ : Fin 112) (⟨(j 2).val, hj2⟩ : Fin 64) (⟨(j 3).val, hj3⟩ : Fin 9) :=
    funext fun a => Fin.ext (by match a with | ⟨0, _⟩ => rfl | ⟨1, _⟩ => rfl | ⟨2, _⟩ => rfl | ⟨3, _⟩ => rfl)
  have hemb : ((cfg1.win 2).blk t).view.emb j
      = ix4 (batchOf t) (patchOf t ⟨(j 1).val, hj1⟩) (⟨(j 2).val, hj2⟩ : Fin 64) (⟨(j 3).val, hj3⟩ : Fin 9) := by
    funext a; apply Fin.ext
    match a with
    | ⟨0, _⟩ => show win1_2.index t (0 : Fin 4) * 1 + 1 * (j 0).val = win1_2.index t (0 : Fin 4); omega
    | ⟨1, _⟩ => show win1_2.index t (1 : Fin 4) * 112 + 1 * (j 1).val = win1_2.index t (1 : Fin 4) * 112 + (j 1).val; omega
    | ⟨2, _⟩ => show win1_2.index t (2 : Fin 4) * 64 + 1 * (j 2).val = (j 2).val; omega
    | ⟨3, _⟩ => show win1_2.index t (3 : Fin 4) * 9 + 1 * (j 3).val = (j 3).val; omega
  show k1_pay1 (iblk1 V c 0 t) (iblk1 V c 1 t) ((cfg1.win 2).xinj (grid1.coords t) j)
    = affinity (V c main_v5 : S4x784x64x384.Idx → EReal) (V c main_v172 : S4x784x384x9.Idx → EReal) (((cfg1.win 2).blk t).view.emb j)
  rw [hx, hemb]
  exact block_affinity (iblk1 V c 0 t) (iblk1 V c 1 t) (V c main_v5 : S4x784x64x384.Idx → EReal) (V c main_v172 : S4x784x384x9.Idx → EReal)
    (batchOf t) (patchOf t) (pix_block V c t) (stu_block V c t) ⟨(j 0).val, hj0⟩ ⟨(j 1).val, hj1⟩ ⟨(j 2).val, hj2⟩ ⟨(j 3).val, hj3⟩

/-- THE ARRAY after the region: the affinity of the two arrays the region found. -/
private theorem final : (dat1 V c).arrAt 2 cfg1.N
    = affinity (V c main_v5 : S4x784x64x384.Idx → EReal) (V c main_v172 : S4x784x384x9.Idx → EReal) :=
  (dat1 V c).arrAt_eq_of_cover 2 _ (fun t _ => flushed_eq V c t) cover

end Blocks

end Affinity1

/-- The second pallas_call's affinity array ends at the reference's second affinity: block by block the body computes the
    softmax of the scaled pixel–super-token products of its own 112 patches, the blocks tile the array, and the reference's
    stages `%188 … %201` read at an index are the same expression. -/
theorem bridge1 (x0 : Img) (V : KVal) (c : Dev nD)
    (hP : V c Cert.KernelIdeal.main_v5 = Cert.ReferenceIdeal.ReadP.val_main_v5 (F := Ideal) x0)
    (hU : V c Cert.KernelIdeal.main_v172 = Cert.ReferenceIdeal.ReadP.val_main_v187 (F := Ideal) x0) :
    (Cert.KernelIdeal.Hand.dat1 V c).arrAt 2 Cert.KernelIdeal.cfg1.N = Cert.ReferenceIdeal.ReadP.val_main_v201 (F := Ideal) x0 := by
  rw [Affinity1.final V c, Affinity1.ref_affinity x0, hP, hU]

end Cert.Bridge

end
-- ==== Proof.Bridge2.lean ====
/-
  The third pallas_call's result array, block by block, is the reference's product of the neighbour super-tokens with
  the affinity over the nine neighbours, index by index over the extended reals.
-/
import proofs.«179015_j72035191488647_1_alg».proof.Proof.KI.Reg2
import proofs.«179015_j72035191488647_1_alg».proof.Proof.RefRead
import proofs.«179015_j72035191488647_1_alg».proof.Proof.BridgeTypes
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.TcCoe Idealize.SL.Sem
open Cert.KernelIdeal (nD τ sig)

/-! ## The body's matrix product, axis by axis

The product contracts axis 2 of the super-tokens [112, 384, 9] with axis 1 of the transposed affinity [112, 9, 64];
axis 0 of both is the batch axis. -/

private theorem mm_lhs_0 (i : Cert.KernelIdeal.S112x384x64.Idx) (q : Cert.KernelIdeal.dot_S112x384x9_S112x9x64_S112x384x64_2_1_1_2_0_0.contr.Idx) :
    (Cert.KernelIdeal.dot_S112x384x9_S112x9x64_S112x384x64_2_1_1_2_0_0.lhsIdx i q 0).val = (i 0).val := by
  unfold DotDims.lhsIdx
  rw [dif_pos (show (0 : Fin Cert.KernelIdeal.S112x384x9.rank) ∈ Cert.KernelIdeal.dot_S112x384x9_S112x9x64_S112x384x64_2_1_1_2_0_0.lhsBatch by decide)]
  rfl
private theorem mm_lhs_1 (i : Cert.KernelIdeal.S112x384x64.Idx) (q : Cert.KernelIdeal.dot_S112x384x9_S112x9x64_S112x384x64_2_1_1_2_0_0.contr.Idx) :
    (Cert.KernelIdeal.dot_S112x384x9_S112x9x64_S112x384x64_2_1_1_2_0_0.lhsIdx i q 1).val = (i 1).val := by
  unfold DotDims.lhsIdx
  rw [dif_neg (show ¬(1 : Fin Cert.KernelIdeal.S112x384x9.rank) ∈ Cert.KernelIdeal.dot_S112x384x9_S112x9x64_S112x384x64_2_1_1_2_0_0.lhsBatch by decide), dif_pos (show (1 : Fin Cert.KernelIdeal.S112x384x9.rank) ∈ Cert.KernelIdeal.dot_S112x384x9_S112x9x64_S112x384x64_2_1_1_2_0_0.lhsNonContracting by decide)]
  rfl
private theorem mm_lhs_2 (i : Cert.KernelIdeal.S112x384x64.Idx) (q : Cert.KernelIdeal.dot_S112x384x9_S112x9x64_S112x384x64_2_1_1_2_0_0.contr.Idx) :
    (Cert.KernelIdeal.dot_S112x384x9_S112x9x64_S112x384x64_2_1_1_2_0_0.lhsIdx i q 2).val = (q ⟨0, by decide⟩).val :=
  Cert.KernelIdeal.dot_S112x384x9_S112x9x64_S112x384x64_2_1_1_2_0_0.lhsIdx_val_of_single rfl i q
private theorem mm_rhs_0 (i : Cert.KernelIdeal.S112x384x64.Idx) (q : Cert.KernelIdeal.dot_S112x384x9_S112x9x64_S112x384x64_2_1_1_2_0_0.contr.Idx) :
    (Cert.KernelIdeal.dot_S112x384x9_S112x9x64_S112x384x64_2_1_1_2_0_0.rhsIdx i q 0).val = (i 0).val := by
  unfold DotDims.rhsIdx
  rw [dif_pos (show (0 : Fin Cert.KernelIdeal.S112x9x64.rank) ∈ Cert.KernelIdeal.dot_S112x384x9_S112x9x64_S112x384x64_2_1_1_2_0_0.rhsBatch by decide)]
  rfl
private theorem mm_rhs_1 (i : Cert.KernelIdeal.S112x384x64.Idx) (q : Cert.KernelIdeal.dot_S112x384x9_S112x9x64_S112x384x64_2_1_1_2_0_0.contr.Idx) :
    (Cert.KernelIdeal.dot_S112x384x9_S112x9x64_S112x384x64_2_1_1_2_0_0.rhsIdx i q 1).val = (q ⟨0, by decide⟩).val :=
  Cert.KernelIdeal.dot_S112x384x9_S112x9x64_S112x384x64_2_1_1_2_0_0.rhsIdx_val_of_single rfl i q
private theorem mm_rhs_2 (i : Cert.KernelIdeal.S112x384x64.Idx) (q : Cert.KernelIdeal.dot_S112x384x9_S112x9x64_S112x384x64_2_1_1_2_0_0.contr.Idx) :
    (Cert.KernelIdeal.dot_S112x384x9_S112x9x64_S112x384x64_2_1_1_2_0_0.rhsIdx i q 2).val = (i 2).val := by
  unfold DotDims.rhsIdx
  rw [dif_neg (show ¬(2 : Fin Cert.KernelIdeal.S112x9x64.rank) ∈ Cert.KernelIdeal.dot_S112x384x9_S112x9x64_S112x384x64_2_1_1_2_0_0.rhsBatch by decide), dif_pos (show (2 : Fin Cert.KernelIdeal.S112x9x64.rank) ∈ Cert.KernelIdeal.dot_S112x384x9_S112x9x64_S112x384x64_2_1_1_2_0_0.rhsNonContracting by decide)]
  rfl

/-- The product of a [112, 384, 9] with a [112, 9, 64] vector into the zero accumulator, at an index: the sum over the nine neighbours. -/
private theorem mm_apply (a : FVec Ideal Cert.KernelIdeal.S112x384x9 .bf16) (b : FVec Ideal Cert.KernelIdeal.S112x9x64 .bf16)
    (p : Fin 112) (ch : Fin 384) (l : Fin 64) :
    matmul Cert.KernelIdeal.dot_S112x384x9_S112x9x64_S112x384x64_2_1_1_2_0_0 none a b (constant (F := Ideal) Cert.KernelIdeal.S112x384x64 .f32 0x00000000#32) (ValueIdx.ix3 p ch l)
      = ∑ k : Fin 9, a (ValueIdx.ix3 p ch k) * b (ValueIdx.ix3 p k l) := by
  show FloatOps.matmul Cert.KernelIdeal.dot_S112x384x9_S112x9x64_S112x384x64_2_1_1_2_0_0 none a b (constant (F := Ideal) Cert.KernelIdeal.S112x384x64 .f32 0x00000000#32) (ValueIdx.ix3 p ch l) = _
  rw [Ideal.matmul_constant_zero_apply, ← Equiv.sum_comp (ValueIdx.contrEquiv1 Cert.KernelIdeal.dot_S112x384x9_S112x9x64_S112x384x64_2_1_1_2_0_0 9 rfl rfl).symm]
  refine Finset.sum_congr rfl fun k _ => ?_
  have hk := ValueIdx.contrEquiv1_symm_val Cert.KernelIdeal.dot_S112x384x9_S112x9x64_S112x384x64_2_1_1_2_0_0 9 rfl rfl k
  have el : Cert.KernelIdeal.dot_S112x384x9_S112x9x64_S112x384x64_2_1_1_2_0_0.lhsIdx (ValueIdx.ix3 p ch l) ((ValueIdx.contrEquiv1 Cert.KernelIdeal.dot_S112x384x9_S112x9x64_S112x384x64_2_1_1_2_0_0 9 rfl rfl).symm k) = ValueIdx.ix3 p ch k := funext fun x => Fin.ext (by
    match x with
    | ⟨0, _⟩ => exact mm_lhs_0 _ _
    | ⟨1, _⟩ => exact mm_lhs_1 _ _
    | ⟨2, _⟩ => exact (mm_lhs_2 _ _).trans hk)
  have er : Cert.KernelIdeal.dot_S112x384x9_S112x9x64_S112x384x64_2_1_1_2_0_0.rhsIdx (ValueIdx.ix3 p ch l) ((ValueIdx.contrEquiv1 Cert.KernelIdeal.dot_S112x384x9_S112x9x64_S112x384x64_2_1_1_2_0_0 9 rfl rfl).symm k) = ValueIdx.ix3 p k l := funext fun x => Fin.ext (by
    match x with
    | ⟨0, _⟩ => exact mm_rhs_0 _ _
    | ⟨1, _⟩ => exact (mm_rhs_1 _ _).trans hk
    | ⟨2, _⟩ => exact mm_rhs_2 _ _)
  rw [el, er]

/-! ## The body's arithmetic at an index -/

/-- On blocks: the result block at patch `p`, channel `ch`, pixel `l` is the sum over the nine neighbours `n` of the
    super-token block at (p, ch, n) times the affinity block at (p, l, n). -/
private theorem pay_apply (u : Vec Ideal Cert.KernelIdeal.S1x112x384x9 .f32) (a : Vec Ideal Cert.KernelIdeal.S1x112x64x9 .f32)
    (p : Fin 112) (ch : Fin 384) (l : Fin 64) :
    Cert.KernelIdeal.Gen.k2_pay1 (F := Ideal) u a (ValueIdx.ix4 (0 : Fin 1) p ch l)
      = ∑ k : Fin 9, u (ValueIdx.ix4 (0 : Fin 1) p ch k) * a (ValueIdx.ix4 (0 : Fin 1) p l k) := by
  unfold Cert.KernelIdeal.Gen.k2_pay1
  dsimp only
  rw [shapeCast_apply _ _ (ValueIdx.ix4 (0 : Fin 1) p ch l) (ValueIdx.ix3 p ch l)
    (by rw [Shape.rowMajor_val_three, Shape.rowMajor_val_four]; show ((p.val * 384 + ch.val) * 64 + l.val) = (((0 * 112 + p.val) * 384 + ch.val) * 64 + l.val); omega)]
  rw [mm_apply]
  refine Finset.sum_congr rfl fun k _ => ?_
  rw [transpose_apply [0, 2, 1] _ _ (ValueIdx.ix3 p k l) (ValueIdx.ix3 p l k)
    (by intro b; match b with | ⟨0, _⟩ => rfl | ⟨1, _⟩ => rfl | ⟨2, _⟩ => rfl)]
  simp only [ValueIdx.truncf_apply]
  rw [shapeCast_apply u _ (ValueIdx.ix3 p ch k) (ValueIdx.ix4 (0 : Fin 1) p ch k)
    (by rw [Shape.rowMajor_val_three, Shape.rowMajor_val_four]; show (((0 * 112 + p.val) * 384 + ch.val) * 9 + k.val) = ((p.val * 384 + ch.val) * 9 + k.val); omega)]
  rw [shapeCast_apply a _ (ValueIdx.ix3 p l k) (ValueIdx.ix4 (0 : Fin 1) p l k)
    (by rw [Shape.rowMajor_val_three, Shape.rowMajor_val_four]; show (((0 * 112 + p.val) * 64 + l.val) * 9 + k.val) = ((p.val * 64 + l.val) * 9 + k.val); omega)]

/-! ## The result as one function of the two arrays -/

/-- The product over the nine neighbours: at batch `b`, patch `m`, channel `ch`, pixel `l` the sum over `n` of the
    super-tokens at (b, m, ch, n) times the affinity at (b, m, l, n). -/
private def neighbourProduct (U : (⟨Cert.ReferenceIdeal.S4x784x384x9, .f32⟩ : BufTy).Contents (Elt Ideal))
    (A : (⟨Cert.ReferenceIdeal.S4x784x64x9, .f32⟩ : BufTy).Contents (Elt Ideal)) :
    (⟨Cert.ReferenceIdeal.S4x784x384x64, .f32⟩ : BufTy).Contents (Elt Ideal) :=
  fun i => ∑ k : Fin 9, U (Cert.ReferenceIdeal.ReadP.lidx_main_v224 i k) * A (Cert.ReferenceIdeal.ReadP.ridx_main_v224 i k)

/-- One element of a result block: the body's arithmetic on the two input blocks, each a restriction of its array to
    the block of the same batch and the same 112 patches, is the product over the neighbours at the element's place in the
    array. -/
private theorem point_eq (U : (⟨Cert.ReferenceIdeal.S4x784x384x9, .f32⟩ : BufTy).Contents (Elt Ideal))
    (A : (⟨Cert.ReferenceIdeal.S4x784x64x9, .f32⟩ : BufTy).Contents (Elt Ideal))
    (u : Vec Ideal Cert.KernelIdeal.S1x112x384x9 .f32) (a : Vec Ideal Cert.KernelIdeal.S1x112x64x9 .f32)
    (e0 : Cert.KernelIdeal.S1x112x384x9.Idx → Cert.KernelIdeal.S4x784x384x9.Idx) (e1 : Cert.KernelIdeal.S1x112x64x9.Idx → Cert.KernelIdeal.S4x784x64x9.Idx)
    (hu : ∀ y, u y = U (e0 y)) (ha : ∀ y, a y = A (e1 y))
    (b m : Nat)
    (he0 : ∀ y, (e0 y 0).val = b * 1 + 1 * (y 0).val ∧ (e0 y 1).val = m * 112 + 1 * (y 1).val
      ∧ (e0 y 2).val = 0 * 384 + 1 * (y 2).val ∧ (e0 y 3).val = 0 * 9 + 1 * (y 3).val)
    (he1 : ∀ y, (e1 y 0).val = b * 1 + 1 * (y 0).val ∧ (e1 y 1).val = m * 112 + 1 * (y 1).val
      ∧ (e1 y 2).val = 0 * 64 + 1 * (y 2).val ∧ (e1 y 3).val = 0 * 9 + 1 * (y 3).val)
    (j : Cert.KernelIdeal.S1x112x384x64.Idx) (i : Cert.KernelIdeal.S4x784x384x64.Idx)
    (hi : (i 0).val = b * 1 + 1 * (j 0).val ∧ (i 1).val = m * 112 + 1 * (j 1).val
      ∧ (i 2).val = 0 * 384 + 1 * (j 2).val ∧ (i 3).val = 0 * 64 + 1 * (j 3).val) :
    Cert.KernelIdeal.Gen.k2_pay1 (F := Ideal) u a j = neighbourProduct U A i := by
  obtain ⟨z, p, ch, l, rfl⟩ : ∃ (z : Fin 1) (p : Fin 112) (ch : Fin 384) (l : Fin 64), j = ValueIdx.ix4 z p ch l :=
    ⟨j 0, j 1, j 2, j 3, ValueIdx.eq_ix4 j⟩
  obtain rfl : z = 0 := Subsingleton.elim _ _
  rw [pay_apply]
  unfold neighbourProduct
  refine Finset.sum_congr rfl fun k _ => ?_
  obtain ⟨i0, i1, i2, i3⟩ := hi
  rw [hu, ha]
  have hl : e0 (ValueIdx.ix4 (0 : Fin 1) p ch k) = Cert.ReferenceIdeal.ReadP.lidx_main_v224 i k := by
    obtain ⟨h0, h1, h2, h3⟩ := he0 (ValueIdx.ix4 (0 : Fin 1) p ch k)
    funext x; apply Fin.ext
    match x with
    | ⟨0, _⟩ => show (e0 (ValueIdx.ix4 (0 : Fin 1) p ch k) 0).val = (i 0).val; rw [h0, i0]
    | ⟨1, _⟩ => show (e0 (ValueIdx.ix4 (0 : Fin 1) p ch k) 1).val = (i 1).val; rw [h1, i1]
    | ⟨2, _⟩ => show (e0 (ValueIdx.ix4 (0 : Fin 1) p ch k) 2).val = (i 2).val; rw [h2, i2]
    | ⟨3, _⟩ => show (e0 (ValueIdx.ix4 (0 : Fin 1) p ch k) 3).val = k.val; rw [h3]; show 0 * 9 + 1 * k.val = k.val; omega
  have hr : e1 (ValueIdx.ix4 (0 : Fin 1) p l k) = Cert.ReferenceIdeal.ReadP.ridx_main_v224 i k := by
    obtain ⟨h0, h1, h2, h3⟩ := he1 (ValueIdx.ix4 (0 : Fin 1) p l k)
    funext x; apply Fin.ext
    match x with
    | ⟨0, _⟩ => show (e1 (ValueIdx.ix4 (0 : Fin 1) p l k) 0).val = (i 0).val; rw [h0, i0]
    | ⟨1, _⟩ => show (e1 (ValueIdx.ix4 (0 : Fin 1) p l k) 1).val = (i 1).val; rw [h1, i1]
    | ⟨2, _⟩ => show (e1 (ValueIdx.ix4 (0 : Fin 1) p l k) 2).val = (i 3).val; rw [h2, i3]
    | ⟨3, _⟩ => show (e1 (ValueIdx.ix4 (0 : Fin 1) p l k) 3).val = k.val; rw [h3]; show 0 * 9 + 1 * k.val = k.val; omega
  rw [hl, hr]

/-! ## From blocks to the array -/

private theorem offsets_zero : (![0, 0, 0, 0] : Fin 4 → Nat) = fun _ => 0 := funext fun a => by fin_cases a <;> rfl

/-- The printed index maps, decided over the grid: at every point the three windows' blocks have the same batch and the
    same block of patches, and start at zero on the two trailing axes. -/
private theorem block_indices : ∀ t : Fin Cert.KernelIdeal.cfg2.N,
    Cert.KernelIdeal.win2_0.index t (0 : Fin 4) = Cert.KernelIdeal.win2_2.index t (0 : Fin 4)
    ∧ Cert.KernelIdeal.win2_0.index t (1 : Fin 4) = Cert.KernelIdeal.win2_2.index t (1 : Fin 4)
    ∧ Cert.KernelIdeal.win2_0.index t (2 : Fin 4) = 0 ∧ Cert.KernelIdeal.win2_0.index t (3 : Fin 4) = 0
    ∧ Cert.KernelIdeal.win2_1.index t (0 : Fin 4) = Cert.KernelIdeal.win2_2.index t (0 : Fin 4)
    ∧ Cert.KernelIdeal.win2_1.index t (1 : Fin 4) = Cert.KernelIdeal.win2_2.index t (1 : Fin 4)
    ∧ Cert.KernelIdeal.win2_1.index t (2 : Fin 4) = 0 ∧ Cert.KernelIdeal.win2_1.index t (3 : Fin 4) = 0
    ∧ Cert.KernelIdeal.win2_2.index t (2 : Fin 4) = 0 ∧ Cert.KernelIdeal.win2_2.index t (3 : Fin 4) = 0 :=
  (by decide +kernel : ∀ t : Fin Cert.KernelIdeal.grid2.N, _)

/-- Every (batch, block of patches) is some point's. -/
private theorem block_onto : ∀ (q0 : Fin 4) (q1 : Fin 7), ∃ t : Fin Cert.KernelIdeal.cfg2.N, Cert.KernelIdeal.win2_2.index t = ![q0.val, q1.val, 0, 0] :=
  (by decide +kernel : ∀ (q0 : Fin 4) (q1 : Fin 7), ∃ t : Fin Cert.KernelIdeal.grid2.N, Cert.KernelIdeal.win2_2.index t = ![q0.val, q1.val, 0, 0])

/-- What point `t` writes back is block `t` of the product over the neighbours of the two arrays as the call finds them. -/
private theorem flushed_eq (V : KVal) (c : Dev nD) (t : Fin Cert.KernelIdeal.cfg2.N) :
    (Cert.KernelIdeal.Hand.dat2 V c).flushed 2 t
      = ((Cert.KernelIdeal.cfg2.win 2).blk t).view.read (Elt Ideal) (neighbourProduct (V c Cert.KernelIdeal.main_v172) (V c Cert.KernelIdeal.main_v173)) := by
  show (Cert.KernelIdeal.cfg2.win 2).cut (Cert.KernelIdeal.grid2.coords t) ((Cert.KernelIdeal.Hand.dat2 V c).after 2 t) = _
  rw [Cert.KernelIdeal.Hand.after2_2]
  unfold Cert.KernelIdeal.Hand.out2_2
  rw [View.canon_unit_zero offsets_zero]
  simp only [View.ld_unit_zero (S := Cert.KernelIdeal.S1x112x384x9) offsets_zero, View.ld_unit_zero (S := Cert.KernelIdeal.S1x112x64x9) offsets_zero]
  obtain ⟨a0, a1, a2, a3, b0, b1, b2, b3, c2, c3⟩ := block_indices t
  funext j
  refine point_eq (V c Cert.KernelIdeal.main_v172) (V c Cert.KernelIdeal.main_v173) (Cert.KernelIdeal.Hand.iblk2 V c 0 t) (Cert.KernelIdeal.Hand.iblk2 V c 1 t)
    (((Cert.KernelIdeal.cfg2.win 0).blk t).view.emb) (((Cert.KernelIdeal.cfg2.win 1).blk t).view.emb) (fun _ => rfl) (fun _ => rfl)
    (Cert.KernelIdeal.win2_2.index t (0 : Fin 4)) (Cert.KernelIdeal.win2_2.index t (1 : Fin 4)) (fun y => ?_) (fun y => ?_) j (((Cert.KernelIdeal.cfg2.win 2).blk t).view.emb j) ?_
  · refine ⟨?_, ?_, ?_, ?_⟩
    · show Cert.KernelIdeal.win2_0.index t (0 : Fin 4) * 1 + 1 * (y 0).val = _; rw [a0]
    · show Cert.KernelIdeal.win2_0.index t (1 : Fin 4) * 112 + 1 * (y 1).val = _; rw [a1]
    · show Cert.KernelIdeal.win2_0.index t (2 : Fin 4) * 384 + 1 * (y 2).val = _; rw [a2]
    · show Cert.KernelIdeal.win2_0.index t (3 : Fin 4) * 9 + 1 * (y 3).val = _; rw [a3]
  · refine ⟨?_, ?_, ?_, ?_⟩
    · show Cert.KernelIdeal.win2_1.index t (0 : Fin 4) * 1 + 1 * (y 0).val = _; rw [b0]
    · show Cert.KernelIdeal.win2_1.index t (1 : Fin 4) * 112 + 1 * (y 1).val = _; rw [b1]
    · show Cert.KernelIdeal.win2_1.index t (2 : Fin 4) * 64 + 1 * (y 2).val = _; rw [b2]
    · show Cert.KernelIdeal.win2_1.index t (3 : Fin 4) * 9 + 1 * (y 3).val = _; rw [b3]
  · refine ⟨?_, ?_, ?_, ?_⟩
    · show Cert.KernelIdeal.win2_2.index t (0 : Fin 4) * 1 + 1 * (j 0).val = _; rfl
    · show Cert.KernelIdeal.win2_2.index t (1 : Fin 4) * 112 + 1 * (j 1).val = _; rfl
    · show Cert.KernelIdeal.win2_2.index t (2 : Fin 4) * 384 + 1 * (j 2).val = _; rw [c2]
    · show Cert.KernelIdeal.win2_2.index t (3 : Fin 4) * 64 + 1 * (j 3).val = _; rw [c3]

/-- An index of the result array is in point `t`'s block iff each coordinate is in the block's range on its axis. -/
private theorem mem_block (t : Fin Cert.KernelIdeal.cfg2.N) (i : Cert.KernelIdeal.S4x784x384x64.Idx) :
    i ∈ ((Cert.KernelIdeal.cfg2.win 2).blk t).view.set ↔ ∀ a : Fin 4, Cert.KernelIdeal.win2_2.index t a * Cert.KernelIdeal.S1x112x384x64.size a ≤ (i a).val
      ∧ (i a).val < Cert.KernelIdeal.win2_2.index t a * Cert.KernelIdeal.S1x112x384x64.size a + Cert.KernelIdeal.S1x112x384x64.size a := by
  show i ∈ ((View.whole Cert.KernelIdeal.main_v174).slice (Cert.KernelIdeal.win2_2.rect t)).set ↔ _
  rw [View.set_slice_whole, Rect.mem_set_unit]
  exact Iff.rfl

/-- The blocks tile the array: the index at batch `b`, patch `m` is in the block of the point (b, m / 112). -/
private theorem covered (i : Cert.KernelIdeal.S4x784x384x64.Idx) :
    ∃ t : Fin Cert.KernelIdeal.cfg2.N, (Cert.KernelIdeal.cfg2.win 2).flush t = true ∧ i ∈ ((Cert.KernelIdeal.cfg2.win 2).blk t).view.set := by
  have hi0 : (i 0).val < 4 := (i 0).isLt
  have hi1 : (i 1).val < 784 := (i 1).isLt
  have hi2 : (i 2).val < 384 := (i 2).isLt
  have hi3 : (i 3).val < 64 := (i 3).isLt
  obtain ⟨t, ht⟩ := block_onto ⟨(i 0).val, hi0⟩ ⟨(i 1).val / 112, by omega⟩
  have q0 : Cert.KernelIdeal.win2_2.index t (0 : Fin 4) = (i 0).val := congrFun ht 0
  have q1 : Cert.KernelIdeal.win2_2.index t (1 : Fin 4) = (i 1).val / 112 := congrFun ht 1
  have q2 : Cert.KernelIdeal.win2_2.index t (2 : Fin 4) = 0 := congrFun ht 2
  have q3 : Cert.KernelIdeal.win2_2.index t (3 : Fin 4) = 0 := congrFun ht 3
  refine ⟨t, Cert.KernelIdeal.Gen.flush2_2 t, ?_⟩
  rw [mem_block]
  intro a
  match a with
  | ⟨0, _⟩ => show Cert.KernelIdeal.win2_2.index t (0 : Fin 4) * 1 ≤ (i 0).val ∧ (i 0).val < Cert.KernelIdeal.win2_2.index t (0 : Fin 4) * 1 + 1; omega
  | ⟨1, _⟩ => show Cert.KernelIdeal.win2_2.index t (1 : Fin 4) * 112 ≤ (i 1).val ∧ (i 1).val < Cert.KernelIdeal.win2_2.index t (1 : Fin 4) * 112 + 112; omega
  | ⟨2, _⟩ => show Cert.KernelIdeal.win2_2.index t (2 : Fin 4) * 384 ≤ (i 2).val ∧ (i 2).val < Cert.KernelIdeal.win2_2.index t (2 : Fin 4) * 384 + 384; omega
  | ⟨3, _⟩ => show Cert.KernelIdeal.win2_2.index t (3 : Fin 4) * 64 ≤ (i 3).val ∧ (i 3).val < Cert.KernelIdeal.win2_2.index t (3 : Fin 4) * 64 + 64; omega

/-- The result array after the call: the product over the neighbours of the two arrays as the call finds them. -/
private theorem result_eq (V : KVal) (c : Dev nD) :
    (Cert.KernelIdeal.Hand.dat2 V c).arrAt 2 Cert.KernelIdeal.cfg2.N = neighbourProduct (V c Cert.KernelIdeal.main_v172) (V c Cert.KernelIdeal.main_v173) :=
  (Cert.KernelIdeal.Hand.dat2 V c).arrAt_eq_of_cover 2 (neighbourProduct (V c Cert.KernelIdeal.main_v172) (V c Cert.KernelIdeal.main_v173))
    (fun t _ => flushed_eq V c t) covered

theorem bridge2 (x0 : Img) (V : KVal) (c : Dev nD)
    (hU : V c Cert.KernelIdeal.main_v172 = Cert.ReferenceIdeal.ReadP.val_main_v223 (F := Ideal) x0)
    (hA : V c Cert.KernelIdeal.main_v173 = Cert.ReferenceIdeal.ReadP.val_main_v201 (F := Ideal) x0) :
    (Cert.KernelIdeal.Hand.dat2 V c).arrAt 2 Cert.KernelIdeal.cfg2.N = Cert.ReferenceIdeal.ReadP.val_main_v224 (F := Ideal) x0 := by
  rw [result_eq, hU, hA]
  exact funext fun i => (Cert.ReferenceIdeal.ReadP.val_main_v224_apply x0 i).symm

end Cert.Bridge

end
-- ==== Proof.KValue.lean ====
/-
  The kernel program's result, over the extended reals, is the reference's last stage of the input image. Followed through
  @main: the host stretch before the first pallas_call leaves the pixel view and the pooled super-tokens' neighbourhoods
  at the reference's stages; the first call's two result arrays are then the reference's weighted pixel sums and weight
  sums; the host stretch after it turns them into the refined super-tokens' neighbourhoods, as the reference does; the
  second call's result is the reference's second affinity; the third call's is the reference's last product; and the
  closing stretch lays it out as the reference does. A call leaves its input arrays as it found them, and a host stretch
  leaves what it does not write.
-/
import proofs.«179015_j72035191488647_1_alg».proof.Proof.KI.Run
import proofs.«179015_j72035191488647_1_alg».proof.Proof.KHost
import proofs.«179015_j72035191488647_1_alg».proof.Proof.Bridge0
import proofs.«179015_j72035191488647_1_alg».proof.Proof.Bridge1
import proofs.«179015_j72035191488647_1_alg».proof.Proof.Bridge2

set_option maxRecDepth 16384

noncomputable section

namespace Cert.KernelIdeal.ResultValue

open Cert.KernelIdeal Cert.KernelIdeal.Gen Cert.KernelIdeal.Hand Cert.KernelIdeal.HostStages
open Idealize.ShloMosaic Idealize.ShloMosaic.TcCoe Idealize.SL.Sem
open Cert.ReferenceIdeal.ReadP Cert.Bridge

variable (m : (ℓ : Loc nD τ sig) → Buf (Elt Ideal) ℓ) (ρ : Dev nD → PrngReg)

/-- The pixel view is still in place when the second pallas_call is entered: the first call only reads it, and no host
    operation between the two writes it. -/
theorem pixels_kept (c : Dev nD) :
    W10 m ρ c (Proc.devRef .tc main_v5) = W3 m ρ c (Proc.devRef .tc main_v5) :=
  calc W10 m ρ c (Proc.devRef .tc main_v5)
    _ = W9 m ρ c (Proc.devRef .tc main_v5) := W10_of m ρ c main_v5 (by decide)
    _ = W8 m ρ c (Proc.devRef .tc main_v5) := W9_of m ρ c main_v5 (by decide)
    _ = W7 m ρ c (Proc.devRef .tc main_v5) := W8_of m ρ c main_v5 (by decide)
    _ = W6 m ρ c (Proc.devRef .tc main_v5) := W7_of m ρ c main_v5 (by decide)
    _ = W5 m ρ c (Proc.devRef .tc main_v5) := W6_of m ρ c main_v5 (by decide)
    _ = W4 m ρ c (Proc.devRef .tc main_v5) := W5_of m ρ c main_v5 (by decide)
    _ = W3 m ρ c (Proc.devRef .tc main_v5) :=
        (W4_arr m ρ c 0).trans (((dat0 (V3 m ρ) c).arrAt_in 0 rfl _).trans (A_eq0 (V3 m ρ) c 0))

/-- The refined super-tokens' neighbourhoods are still in place when the third pallas_call is entered: the second call
    only reads them. -/
theorem neighbours_kept (c : Dev nD) :
    W11 m ρ c (Proc.devRef .tc main_v172) = W10 m ρ c (Proc.devRef .tc main_v172) :=
  (W11_arr m ρ c 1).trans (((dat1 (V10 m ρ) c).arrAt_in 1 rfl _).trans (A_eq1 (V10 m ρ) c 1))

/-- The result buffer ends at the reference's last stage of the input image. -/
theorem result_eq (c : Dev nD) :
    W13 m ρ c (Proc.devRef .tc main_v177) = val_main_v227 (F := Ideal) (img m c) := by
  obtain ⟨hP, hU0⟩ := host_pre (F := Ideal) m ρ c
  have hS : W4 m ρ c (Proc.devRef .tc main_v28_0) = val_main_v42 (F := Ideal) (img m c) :=
    (W4_arr m ρ c 2).trans (bridge0_stc (img m c) (V3 m ρ) c hP hU0)
  have hN : W4 m ρ c (Proc.devRef .tc main_v28_1) = val_main_v102 (F := Ideal) (img m c) :=
    (W4_arr m ρ c 3).trans (bridge0_norm (img m c) (V3 m ρ) c hP hU0)
  have hU1 : W10 m ρ c (Proc.devRef .tc main_v172) = val_main_v187 (F := Ideal) (img m c) := host_mid (F := Ideal) m ρ c hS hN
  have hP1 : W10 m ρ c (Proc.devRef .tc main_v5) = val_main_v5 (F := Ideal) (img m c) := (pixels_kept m ρ c).trans hP
  have hA : W11 m ρ c (Proc.devRef .tc main_v173) = val_main_v201 (F := Ideal) (img m c) :=
    (W11_arr m ρ c 2).trans (bridge1 (img m c) (V10 m ρ) c hP1 hU1)
  have hU2 : W11 m ρ c (Proc.devRef .tc main_v172) = val_main_v223 (F := Ideal) (img m c) :=
    ((neighbours_kept m ρ c).trans hU1).trans (unfold_twice (F := Ideal) (img m c)).symm
  have hO : W12 m ρ c (Proc.devRef .tc main_v174) = val_main_v224 (F := Ideal) (img m c) :=
    (W12_arr m ρ c 2).trans (bridge2 (img m c) (V11 m ρ) c hU2 hA)
  exact host_post (F := Ideal) m ρ c hO

end Cert.KernelIdeal.ResultValue

end
-- ==== Proof.RefRun.lean ====
/-
  The reference program's run: every weakly fair execution of its @main — 284 host operations, no kernel — terminates
  without a fault, leaves the input image as launched, and leaves in the result buffer the last of the reference's stages
  (each stage the value one operation writes, as a function of the input image).
-/
import proofs.«179015_j72035191488647_1_alg».proof.Proof.RefRead
import proofs.«179015_j72035191488647_1_alg».proof.Proof.RefOps
import Idealize.ShloMosaic.Lib.StableHlo.Run
import Idealize.ShloMosaic.Lib.Pipeline.Frame
import Mathlib.Data.Fin.VecNotation
import Mathlib.Data.List.Basic

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

variable {F : FTy → Type} [FloatOps F]

/-! ## Cutting a line of operations -/

/-- A line cut at position `n`: its first `n` operations run, then the rest. -/
theorem after_split (n : Nat) (l : List (HloOp τ sig (Elt F))) (V : Valuation τ sig (Elt F)) :
    after l V = after (l.drop n) (after (l.take n) V) := by
  rw [← StableHlo.after_append, List.take_append_drop]

/-! ## The stages live at each cut

The reference is in single-assignment form: a buffer is written once and only read afterwards. At a cut of @main's
line the buffers still read later hold their stages (`val_main_vN x0`, `x0` the image as launched); the image itself
is never written and is carried to the end. The cuts are before each of the three nine-piece concatenates and, between
them, where few buffers are live: inside the two accumulations (nine scattered additions each). -/

section Stages

variable (x0 : (⟨S4x384x224x224, .f32⟩ : BufTy).Contents (Elt F)) (V : Valuation τ sig (Elt F))

set_option quotPrecheck false in
local notation:max V "⟦" r "⟧" => V (Proc.devRef .tc r)

/-- At launch: the image. -/
abbrev At0 : Prop := V⟦main_arg0⟧ = x0

/-- Before the first nine-piece concatenate: the patches and the nine shifted windows of the padded 8×8 block means. -/
abbrev At29 : Prop :=
  V⟦main_arg0⟧ = x0 ∧ V⟦main_v5⟧ = val_main_v5 x0 ∧ V⟦main_v16⟧ = val_main_v16 x0 ∧ V⟦main_v17⟧ = val_main_v17 x0
    ∧ V⟦main_v18⟧ = val_main_v18 x0 ∧ V⟦main_v19⟧ = val_main_v19 x0 ∧ V⟦main_v20⟧ = val_main_v20 x0
    ∧ V⟦main_v21⟧ = val_main_v21 x0 ∧ V⟦main_v22⟧ = val_main_v22 x0 ∧ V⟦main_v23⟧ = val_main_v23 x0
    ∧ V⟦main_v24⟧ = val_main_v24 x0

/-- After the first normalized exponentials and the first piece of the first accumulation. -/
abbrev At63 : Prop :=
  V⟦main_arg0⟧ = x0 ∧ V⟦main_v5⟧ = val_main_v5 x0 ∧ V⟦main_v41⟧ = val_main_v41 x0 ∧ V⟦main_v44⟧ = val_main_v44 x0
    ∧ V⟦main_v51⟧ = val_main_v51 x0

/-- After its fifth piece. -/
abbrev At95 : Prop :=
  V⟦main_arg0⟧ = x0 ∧ V⟦main_v5⟧ = val_main_v5 x0 ∧ V⟦main_v41⟧ = val_main_v41 x0 ∧ V⟦main_v44⟧ = val_main_v44 x0
    ∧ V⟦main_v75⟧ = val_main_v75 x0

/-- After its ninth piece: the first accumulator. -/
abbrev At127 : Prop :=
  V⟦main_arg0⟧ = x0 ∧ V⟦main_v5⟧ = val_main_v5 x0 ∧ V⟦main_v41⟧ = val_main_v41 x0 ∧ V⟦main_v99⟧ = val_main_v99 x0

/-- After the third piece of the second accumulation. -/
abbrev At159 : Prop :=
  V⟦main_arg0⟧ = x0 ∧ V⟦main_v5⟧ = val_main_v5 x0 ∧ V⟦main_v101⟧ = val_main_v101 x0 ∧ V⟦main_v104⟧ = val_main_v104 x0
    ∧ V⟦main_v123⟧ = val_main_v123 x0

/-- After its seventh piece. -/
abbrev At191 : Prop :=
  V⟦main_arg0⟧ = x0 ∧ V⟦main_v5⟧ = val_main_v5 x0 ∧ V⟦main_v101⟧ = val_main_v101 x0 ∧ V⟦main_v104⟧ = val_main_v104 x0
    ∧ V⟦main_v147⟧ = val_main_v147 x0

/-- After its ninth piece: the second accumulator. -/
abbrev At207 : Prop :=
  V⟦main_arg0⟧ = x0 ∧ V⟦main_v5⟧ = val_main_v5 x0 ∧ V⟦main_v101⟧ = val_main_v101 x0 ∧ V⟦main_v159⟧ = val_main_v159 x0

/-- Before the second nine-piece concatenate: the quotient of the two accumulators and its nine shifted windows. -/
abbrev At235 : Prop :=
  V⟦main_arg0⟧ = x0 ∧ V⟦main_v5⟧ = val_main_v5 x0 ∧ V⟦main_v165⟧ = val_main_v165 x0 ∧ V⟦main_v176⟧ = val_main_v176 x0
    ∧ V⟦main_v177⟧ = val_main_v177 x0 ∧ V⟦main_v178⟧ = val_main_v178 x0 ∧ V⟦main_v179⟧ = val_main_v179 x0
    ∧ V⟦main_v180⟧ = val_main_v180 x0 ∧ V⟦main_v181⟧ = val_main_v181 x0 ∧ V⟦main_v182⟧ = val_main_v182 x0
    ∧ V⟦main_v183⟧ = val_main_v183 x0 ∧ V⟦main_v184⟧ = val_main_v184 x0

/-- After the second normalized exponentials. -/
abbrev At256 : Prop :=
  V⟦main_arg0⟧ = x0 ∧ V⟦main_v165⟧ = val_main_v165 x0 ∧ V⟦main_v201⟧ = val_main_v201 x0

/-- Before the third nine-piece concatenate. -/
abbrev At277 : Prop :=
  V⟦main_arg0⟧ = x0 ∧ V⟦main_v201⟧ = val_main_v201 x0 ∧ V⟦main_v212⟧ = val_main_v212 x0 ∧ V⟦main_v213⟧ = val_main_v213 x0
    ∧ V⟦main_v214⟧ = val_main_v214 x0 ∧ V⟦main_v215⟧ = val_main_v215 x0 ∧ V⟦main_v216⟧ = val_main_v216 x0
    ∧ V⟦main_v217⟧ = val_main_v217 x0 ∧ V⟦main_v218⟧ = val_main_v218 x0 ∧ V⟦main_v219⟧ = val_main_v219 x0
    ∧ V⟦main_v220⟧ = val_main_v220 x0

/-- At the end: the image and the result. -/
abbrev At284 : Prop :=
  V⟦main_arg0⟧ = x0 ∧ V⟦main_v227⟧ = val_main_v227 x0

/-! ## One stretch at a time

Each stretch is read the same way: the fold over the stretch's operations is rewritten, at the buffer asked for, to the
operations' functions applied to what the valuation before the stretch holds; the buffers it reads there are live at
the cut, so they hold their stages; what is left is the definition of the stage asked for, unfolded down to the stages
at the cut. A buffer the stretch does not write is read through unchanged. -/

/-- Rewrites with each of the given facts that applies (a stretch reads only some of the buffers live at its cut). -/
local elab "rw_live" "[" hs:term,* "]" : tactic => do
  for h in hs.getElems do
    Lean.Elab.Tactic.evalTactic (← `(tactic| try rw [$h:term]))

/-- One buffer after a stretch: the operations' results, the stages at the cut, the stage's definition. -/
local macro "stage" "[" hs:term,* "]" : tactic =>
  `(tactic| (after_results; (try simp only [Matrix.cons_val]); rw_live [$hs,*]; (try rfl)))

set_option maxHeartbeats 4000000 in
/-- Operations 0–28: the image's 8×8 block means, the patches, the means padded by one and their nine shifted windows. -/
theorem seg0 (h : At0 x0 V) : At29 x0 (after (List.take 29 (win0 (F := F))) V) := by
  have h0 : V⟦main_arg0⟧ = x0 := h
  simp only [win0, List.take_succ_cons, List.take_zero]
  refine ⟨?_, ?_, ?_, ?_, ?_, ?_, ?_, ?_, ?_, ?_, ?_⟩ <;> stage [h0]

set_option maxHeartbeats 4000000 in
/-- Operations 29–62: the nine windows joined and contracted with the patches, the exponentials normalized along the
    last axis, their contraction with the patches, and the first of its nine pieces added into the padded accumulator. -/
theorem seg1 (h : At29 x0 V) :
    At63 x0 (after (List.take 2 (win1 (F := F))) (after (List.drop 29 (win0 (F := F))) V)) := by
  obtain ⟨h0, h5, h16, h17, h18, h19, h20, h21, h22, h23, h24⟩ := h
  simp only [win0, win1, List.take_succ_cons, List.take_zero, List.drop_succ_cons, List.drop_zero]
  refine ⟨?_, ?_, ?_, ?_, ?_⟩ <;> stage [h0, h5, h16, h17, h18, h19, h20, h21, h22, h23, h24]

set_option maxHeartbeats 4000000 in
/-- Operations 63–94: the second to fifth pieces added. -/
theorem seg2 (h : At63 x0 V) : At95 x0 (after (List.take 32 (List.drop 2 (win1 (F := F)))) V) := by
  obtain ⟨h0, h5, h41, h44, h51⟩ := h
  simp only [win1, List.take_succ_cons, List.take_zero, List.drop_succ_cons, List.drop_zero]
  refine ⟨?_, ?_, ?_, ?_, ?_⟩ <;> stage [h0, h5, h41, h44, h51]

set_option maxHeartbeats 4000000 in
/-- Operations 95–126: the sixth to ninth pieces added. -/
theorem seg3 (h : At95 x0 V) :
    At127 x0 (after (List.take 6 (win2 (F := F))) (after (List.drop 32 (List.drop 2 (win1 (F := F)))) V)) := by
  obtain ⟨h0, h5, h41, h44, h75⟩ := h
  simp only [win1, win2, List.take_succ_cons, List.take_zero, List.drop_succ_cons, List.drop_zero]
  refine ⟨?_, ?_, ?_, ?_⟩ <;> stage [h0, h5, h41, h44, h75]

set_option maxHeartbeats 4000000 in
/-- Operations 127–158: the accumulator cropped; the normalized exponentials summed over the patch axis, and the first
    three of that sum's nine pieces added into its padded accumulator. -/
theorem seg4 (h : At127 x0 V) : At159 x0 (after (List.take 32 (List.drop 6 (win2 (F := F)))) V) := by
  obtain ⟨h0, h5, h41, h99⟩ := h
  simp only [win2, List.take_succ_cons, List.take_zero, List.drop_succ_cons, List.drop_zero]
  refine ⟨?_, ?_, ?_, ?_, ?_⟩ <;> stage [h0, h5, h41, h99]

set_option maxHeartbeats 4000000 in
/-- Operations 159–190: the fourth to seventh pieces added. -/
theorem seg5 (h : At159 x0 V) :
    At191 x0 (after (List.take 10 (win3 (F := F))) (after (List.drop 32 (List.drop 6 (win2 (F := F)))) V)) := by
  obtain ⟨h0, h5, h101, h104, h123⟩ := h
  simp only [win2, win3, List.take_succ_cons, List.take_zero, List.drop_succ_cons, List.drop_zero]
  refine ⟨?_, ?_, ?_, ?_, ?_⟩ <;> stage [h0, h5, h101, h104, h123]

set_option maxHeartbeats 4000000 in
/-- Operations 191–206: the eighth and ninth pieces added. -/
theorem seg6 (h : At191 x0 V) : At207 x0 (after (List.take 16 (List.drop 10 (win3 (F := F)))) V) := by
  obtain ⟨h0, h5, h101, h104, h147⟩ := h
  simp only [win3, List.take_succ_cons, List.take_zero, List.drop_succ_cons, List.drop_zero]
  refine ⟨?_, ?_, ?_, ?_⟩ <;> stage [h0, h5, h101, h104, h147]

set_option maxHeartbeats 4000000 in
/-- Operations 207–234: the second accumulator cropped, the quotient of the two accumulators, padded by one, and its
    nine shifted windows. -/
theorem seg7 (h : At207 x0 V) :
    At235 x0 (after (List.take 28 (List.drop 16 (List.drop 10 (win3 (F := F))))) V) := by
  obtain ⟨h0, h5, h101, h159⟩ := h
  simp only [win3, List.take_succ_cons, List.take_zero, List.drop_succ_cons, List.drop_zero]
  refine ⟨?_, ?_, ?_, ?_, ?_, ?_, ?_, ?_, ?_, ?_, ?_, ?_⟩ <;> stage [h0, h5, h101, h159]

set_option maxHeartbeats 4000000 in
/-- Operations 235–255: the nine windows joined and contracted with the patches, the exponentials normalized along the
    last axis. -/
theorem seg8 (h : At235 x0 V) :
    At256 x0 (after (List.take 14 (win4 (F := F)))
      (after (List.drop 28 (List.drop 16 (List.drop 10 (win3 (F := F))))) V)) := by
  obtain ⟨h0, h5, h165, h176, h177, h178, h179, h180, h181, h182, h183, h184⟩ := h
  simp only [win3, win4, List.take_succ_cons, List.take_zero, List.drop_succ_cons, List.drop_zero]
  refine ⟨?_, ?_, ?_⟩ <;> stage [h0, h5, h165, h176, h177, h178, h179, h180, h181, h182, h183, h184]

set_option maxHeartbeats 4000000 in
/-- Operations 256–276: the quotient padded by one again, and its nine shifted windows. -/
theorem seg9 (h : At256 x0 V) : At277 x0 (after (List.take 21 (List.drop 14 (win4 (F := F)))) V) := by
  obtain ⟨h0, h165, h201⟩ := h
  simp only [win4, List.take_succ_cons, List.take_zero, List.drop_succ_cons, List.drop_zero]
  refine ⟨?_, ?_, ?_, ?_, ?_, ?_, ?_, ?_, ?_, ?_, ?_⟩ <;> stage [h0, h165, h201]

set_option maxHeartbeats 4000000 in
/-- Operations 277–283: the nine windows joined, contracted with the normalized exponentials, and laid back into the
    image's shape. -/
theorem seg10 (h : At277 x0 V) : At284 x0 (after (List.drop 21 (List.drop 14 (win4 (F := F)))) V) := by
  obtain ⟨h0, h201, h212, h213, h214, h215, h216, h217, h218, h219, h220⟩ := h
  simp only [win4, List.drop_succ_cons, List.drop_zero]
  refine ⟨?_, ?_⟩ <;> stage [h0, h201, h212, h213, h214, h215, h216, h217, h218, h219, h220]

/-- The whole line: from the image as launched, the image is kept and the result buffer holds the last stage. -/
theorem stages (h : V⟦main_arg0⟧ = x0) : At284 x0 (after (ops (F := F)) V) := by
  simp only [ops, StableHlo.after_append]
  rw [after_split 29 (win0 (F := F)), after_split 2 (win1 (F := F)), after_split 32 (List.drop 2 (win1 (F := F))),
    after_split 6 (win2 (F := F)), after_split 32 (List.drop 6 (win2 (F := F))),
    after_split 10 (win3 (F := F)), after_split 16 (List.drop 10 (win3 (F := F))),
    after_split 28 (List.drop 16 (List.drop 10 (win3 (F := F)))),
    after_split 14 (win4 (F := F)), after_split 21 (List.drop 14 (win4 (F := F)))]
  exact seg10 x0 _ (seg9 x0 _ (seg8 x0 _ (seg7 x0 _ (seg6 x0 _ (seg5 x0 _ (seg4 x0 _ (seg3 x0 _ (seg2 x0 _
    (seg1 x0 _ (seg0 x0 V h))))))))))

end Stages

/-! ## No operation leaves its result undetermined -/

set_option maxRecDepth 8192 in
theorem win0_fresh : (win0 : List (HloOp τ sig (Elt F))).Forall fun op => op.fresh = ∅ := by
  simp only [win0, List.Forall]; repeat' constructor
set_option maxRecDepth 8192 in
theorem win1_fresh : (win1 : List (HloOp τ sig (Elt F))).Forall fun op => op.fresh = ∅ := by
  simp only [win1, List.Forall]; repeat' constructor
set_option maxRecDepth 8192 in
theorem win2_fresh : (win2 : List (HloOp τ sig (Elt F))).Forall fun op => op.fresh = ∅ := by
  simp only [win2, List.Forall]; repeat' constructor
set_option maxRecDepth 8192 in
theorem win3_fresh : (win3 : List (HloOp τ sig (Elt F))).Forall fun op => op.fresh = ∅ := by
  simp only [win3, List.Forall]; repeat' constructor
set_option maxRecDepth 8192 in
theorem win4_fresh : (win4 : List (HloOp τ sig (Elt F))).Forall fun op => op.fresh = ∅ := by
  simp only [win4, List.Forall]; repeat' constructor

theorem ops_fresh : (ops : List (HloOp τ sig (Elt F))).Forall fun op => op.fresh = ∅ := by
  simp only [ops, List.forall_append]
  exact ⟨win0_fresh, win1_fresh, win2_fresh, win3_fresh, win4_fresh⟩

/-! ## The run -/

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v227) = Cert.ReferenceIdeal.ReadP.val_main_v227 (F := F) (m ((c.tc : Thread nD τ).loc main_arg0))
      ∧ r.2.mem ((c.tc : Thread nD τ).loc main_arg0) = m ((c.tc : Thread nD τ).loc main_arg0) :=
  (θ_run defs _ _).mono (fun _ h c =>
      have s := stages (F := F) (m ((c.tc : Thread nD τ).loc main_arg0)) (launchContents m c) rfl
      ⟨(h c main_v227).trans s.2, (h c main_arg0).trans s.1⟩)
    (run_seq scopedRefs_eq scopedSems_eq defs main (fun _ => ops) main_eq (fun _ => ops_sub) m ρ
      (fun _ => List.forall_iff_forall_mem.1 ops_fresh))

end Cert.ReferenceIdeal.RefRun

end
-- ==== Proof.lean ====
/-
  Super-token attention over 8×8 patches (a 224×224 image in 28×28 patches, 384 channels, two refinement steps): the
  kernel program — three pallas_calls on a 4×7 grid with the host stretches around them — against its jnp reference,
  equal over the extended reals.

  Both programs pool each patch to a super-token, gather every patch's 3×3 neighbourhood of super-tokens, and form the
  affinity of a pixel to its nine neighbours: softmax over the neighbours of the scaled products ⟨pixel, super-token⟩.
  The first step folds the affinity-weighted pixel sums and the affinity's sums back over the 3×3 neighbourhoods
  (scatter-adds), normalises, and gathers the refined super-tokens' neighbourhoods; the second step takes the affinity
  again; the result is each pixel's affinity-weighted sum of its nine refined super-tokens, laid back out as an image.
  The kernel program computes the three products and the softmax in its pallas_calls, block by block (112 patches at a
  grid point), in 16-bit format on the matrix unit; over the extended reals a change of format is the identity and a
  matrix product is a finite sum, so each call's result array is, index by index, the reference's corresponding stage:
  the contraction sums are the same sums (one with its factors commuted), the softmax the same expression. Everything
  between the calls is the same host operations in both programs. No finiteness is used: only that + and · on the
  extended reals are commutative and associative.

  The three frames: both kernel programs' by one run of @main through the region launch theorem (thirteen items: host
  stretches and the three pallas_calls), which leaves every buffer at a named content and the argument untouched; the
  reference's by its run, a straight line of host operations. The idealization rewrote nothing, so `preserves` is trivial.
-/
import proofs.«179015_j72035191488647_1_alg».proof.Defs
import proofs.«179015_j72035191488647_1_alg».proof.Proof.Gen.Kernel
import proofs.«179015_j72035191488647_1_alg».proof.Proof.Gen.KernelIdeal
import proofs.«179015_j72035191488647_1_alg».proof.Proof.Gen.ReferenceIdeal
import proofs.«179015_j72035191488647_1_alg».proof.Proof.Gen.Pre_finite_inputs
import proofs.«179015_j72035191488647_1_alg».proof.Proof.KB.Run
import proofs.«179015_j72035191488647_1_alg».proof.Proof.KI.Run
import proofs.«179015_j72035191488647_1_alg».proof.Proof.KValue
import proofs.«179015_j72035191488647_1_alg».proof.Proof.RefRun
import Idealize.ShloMosaic.Adequacy
import Idealize.ShloMosaic.Init

noncomputable section

namespace Cert.Proof

open Idealize.ShloMosaic Idealize.SL.Sem

/-- The kernel program as printed (word level) runs to the end, faults nowhere, and leaves its argument as launched. -/
theorem frame_kernel : Cert.frame_Kernel := fun m ρ _ => Cert.Kernel.Hand.frame (F := Bits) m ρ

/-- The idealized kernel program likewise. -/
theorem frame_kernelIdeal : Cert.frame_KernelIdeal := fun m ρ _ => Cert.KernelIdeal.Hand.frame (F := Ideal) m ρ

/-- The reference: its run, with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories agreeing on the image both programs end with the reference's last stage of that image in their result
    buffers: the kernel program by following its buffers through @main, the reference by its run. -/
theorem algebraic : Cert.algebraic_KernelIdeal_ReferenceIdeal := by
  intro m ρ m' ρ' _ hagree
  refine ⟨fun c => Cert.ReferenceIdeal.ReadP.val_main_v227 (F := Ideal)
      (m ((c.tc : Thread Cert.KernelIdeal.nD Cert.KernelIdeal.τ).loc Cert.KernelIdeal.main_arg0)), ?_, ?_⟩
  · exact (θ_run Cert.KernelIdeal.defs _ _).mono
      (fun r h c => ⟨(h c _ (Cert.KernelIdeal.Hand.mem_uc Cert.KernelIdeal.main_v177 (by decide))).trans
          (Cert.KernelIdeal.ResultValue.result_eq m ρ c),
        (h c _ (Cert.KernelIdeal.Hand.mem_uc Cert.KernelIdeal.main_arg0 (by decide))).trans
          (Cert.KernelIdeal.Hand.W13_main_arg0 m ρ c)⟩)
      (Cert.KernelIdeal.Hand.run_all (F := Ideal) m ρ)
  · exact (θ_run Cert.ReferenceIdeal.defs _ _).mono
      (fun r h c => ⟨(h c).1.trans (by rw [hagree c]), (h c).2⟩)
      (Cert.ReferenceIdeal.RefRun.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
